-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4x96x160x160 : Shape := ⟨5, ![2, 4, 96, 160, 160]⟩
abbrev S2x1x96x160x160 : Shape := ⟨5, ![2, 1, 96, 160, 160]⟩
abbrev S_ : Shape := ⟨0, ![]⟩

class Facts : Prop where
  bcast_S_S2x4x96x160x160 : S_.BroadcastsInDim S2x4x96x160x160 (![] : Fin 0 → Fin S2x4x96x160x160.rank)
  reducesTo_S2x4x96x160x160_S_d0_1_2_3_4 : S2x4x96x160x160.ReducesTo [0, 1, 2, 3, 4] S_
  h_S_ : 0 < S_.numel
  bcast_S_S2x1x96x160x160 : S_.BroadcastsInDim S2x1x96x160x160 (![] : Fin 0 → Fin S2x1x96x160x160.rank)
  reducesTo_S2x1x96x160x160_S_d0_1_2_3_4 : S2x1x96x160x160.ReducesTo [0, 1, 2, 3, 4] S_

variable [Facts]

def fn {F : FTy → Type} [FloatOps F] (main_arg0 : FVec F S2x4x96x160x160 .f32) (main_arg1 : FVec F S2x1x96x160x160 .f32) (main_arg2 : IVec S2x1x96x160x160 32) (main_arg3 : IVec S2x1x96x160x160 32) : IVec S_ 1 :=
  let main_v0 : FVec F S2x4x96x160x160 .f32 := Host.absf main_arg0
  let main_cst : FVec F S_ .f32 := constant S_ .f32 0x7F800000#32
  let main_v1 : FVec F S2x4x96x160x160 .f32 := broadcastInDim S2x4x96x160x160 ![] bcast_S_S2x4x96x160x160 main_cst
  let main_v2 : IVec S2x4x96x160x160 1 := cmpf .olt main_v0 main_v1
  let main_c : IVec S_ 1 := constantI S_ 1 1#1
  let main_v3 : IVec S_ 1 := (fun x v => Host.reduce IntOp.andi x v reducesTo_S2x4x96x160x160_S_d0_1_2_3_4 h_S_) main_v2 main_c
  let main_v4 : FVec F S2x1x96x160x160 .f32 := Host.absf main_arg1
  let main_cst_0 : FVec F S_ .f32 := constant S_ .f32 0x7F800000#32
  let main_v5 : FVec F S2x1x96x160x160 .f32 := broadcastInDim S2x1x96x160x160 ![] bcast_S_S2x1x96x160x160 main_cst_0
  let main_v6 : IVec S2x1x96x160x160 1 := cmpf .olt main_v4 main_v5
  let main_c_1 : IVec S_ 1 := constantI S_ 1 1#1
  let main_v7 : IVec S_ 1 := (fun x v => Host.reduce IntOp.andi x v reducesTo_S2x1x96x160x160_S_d0_1_2_3_4 h_S_) main_v6 main_c_1
  let main_v8 : IVec S_ 1 := andi main_v3 main_v7
  main_v8
-- ==== Kernel.lean ====
abbrev S2x4x96x160x160 : Shape := ⟨5, ![2, 4, 96, 160, 160]⟩
abbrev S2x1x96x160x160 : Shape := ⟨5, ![2, 1, 96, 160, 160]⟩
abbrev S2x4x96x25600 : Shape := ⟨4, ![2, 4, 96, 25600]⟩
abbrev S2x1x96x25600 : Shape := ⟨4, ![2, 1, 96, 25600]⟩
abbrev S2x4x3 : Shape := ⟨3, ![2, 4, 3]⟩
abbrev S2x1x4 : Shape := ⟨3, ![2, 1, 4]⟩
abbrev S1x4x8x25600 : Shape := ⟨4, ![1, 4, 8, 25600]⟩
abbrev S1x1x8x25600 : Shape := ⟨4, ![1, 1, 8, 25600]⟩
abbrev S1x4x3 : Shape := ⟨3, ![1, 4, 3]⟩
abbrev S1x1x4 : Shape := ⟨3, ![1, 1, 4]⟩
abbrev S4x3 : Shape := ⟨2, ![4, 3]⟩
abbrev S1x4 : Shape := ⟨2, ![1, 4]⟩
abbrev S4x8x25600 : Shape := ⟨3, ![4, 8, 25600]⟩
abbrev S8x25600 : Shape := ⟨2, ![8, 25600]⟩
abbrev S1x8x25600 : Shape := ⟨3, ![1, 8, 25600]⟩
abbrev S1 : Shape := ⟨1, ![1]⟩
abbrev S1x1x1 : Shape := ⟨3, ![1, 1, 1]⟩
abbrev S1x1 : Shape := ⟨2, ![1, 1]⟩
abbrev S1x3 : Shape := ⟨2, ![1, 3]⟩
abbrev S_ : Shape := ⟨0, ![]⟩
abbrev S4x1 : Shape := ⟨2, ![4, 1]⟩
abbrev S4 : Shape := ⟨1, ![4]⟩

abbrev nBuf : Space → Nat
  | .hbm => 58
  | .vmem => 14
  | .smem => 0
  | _ => 0

abbrev bufTy : (tb : Table) → Fin (tcTables nBuf tb) → BufTy
  | .hbm, ⟨0, _⟩ => ⟨S2x4x96x160x160, .f32⟩
  | .hbm, ⟨1, _⟩ => ⟨S2x1x96x160x160, .f32⟩
  | .hbm, ⟨2, _⟩ => ⟨S2x1x96x160x160, .i32⟩
  | .hbm, ⟨3, _⟩ => ⟨S2x1x96x160x160, .i32⟩
  | .hbm, ⟨4, _⟩ => ⟨S2x4x96x25600, .f32⟩
  | .hbm, ⟨5, _⟩ => ⟨S2x1x96x25600, .i32⟩
  | .hbm, ⟨6, _⟩ => ⟨S2x1x96x25600, .f32⟩
  | .hbm, ⟨7, _⟩ => ⟨S2x1x96x25600, .i32⟩
  | .hbm, ⟨8, _⟩ => ⟨S2x4x3, .f32⟩
  | .hbm, ⟨9, _⟩ => ⟨S2x1x4, .f32⟩
  | .hbm, ⟨10, _⟩ => ⟨S_, .f32⟩
  | .hbm, ⟨11, _⟩ => ⟨S4x3, .f32⟩
  | .hbm, ⟨12, _⟩ => ⟨S4x1, .f32⟩
  | .hbm, ⟨13, _⟩ => ⟨S4, .f32⟩
  | .hbm, ⟨14, _⟩ => ⟨S4x1, .f32⟩
  | .hbm, ⟨15, _⟩ => ⟨S4, .f32⟩
  | .hbm, ⟨16, _⟩ => ⟨S4x1, .f32⟩
  | .hbm, ⟨17, _⟩ => ⟨S4, .f32⟩
  | .hbm, ⟨18, _⟩ => ⟨S4, .f32⟩
  | .hbm, ⟨19, _⟩ => ⟨S_, .f32⟩
  | .hbm, ⟨20, _⟩ => ⟨S4, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S4, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1x4, .f32⟩
  | .hbm, ⟨39, _⟩ => ⟨S4, .f32⟩
  | .hbm, ⟨40, _⟩ => ⟨S1, .f32⟩
  | .hbm, ⟨41, _⟩ => ⟨S_, .f32⟩
  | .hbm, ⟨42, _⟩ => ⟨S1, .f32⟩
  | .hbm, ⟨43, _⟩ => ⟨S_, .f32⟩
  | .hbm, ⟨44, _⟩ => ⟨S1, .f32⟩
  | .hbm, ⟨45, _⟩ => ⟨S_, .f32⟩
  | .hbm, ⟨46, _⟩ => ⟨S1, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S1x4x8x25600, .f32⟩
  | .local _ .vmem, ⟨1, _⟩ => ⟨S1x4x8x25600, .f32⟩
  | .local _ .vmem, ⟨2, _⟩ => ⟨S1x1x8x25600, .i32⟩
  | .local _ .vmem, ⟨3, _⟩ => ⟨S1x1x8x25600, .i32⟩
  | .local _ .vmem, ⟨4, _⟩ => ⟨S1x1x8x25600, .f32⟩
  | .local _ .vmem, ⟨5, _⟩ => ⟨S1x1x8x25600, .f32⟩
  | .local _ .vmem, ⟨6, _⟩ => ⟨S1x1x8x25600, .i32⟩
  | .local _ .vmem, ⟨7, _⟩ => ⟨S1x1x8x25600, .i32⟩
  | .local _ .vmem, ⟨8, _⟩ => ⟨S1x4x3, .f32⟩
  | .local _ .vmem, ⟨9, _⟩ => ⟨S1x4x3, .f32⟩
  | .local _ .vmem, ⟨10, _⟩ => ⟨S1x1x4, .f32⟩
  | .local _ .vmem, ⟨11, _⟩ => ⟨S1x1x4, .f32⟩
  | .local _ .vmem, ⟨12, _⟩ => ⟨S4x3, .f32⟩
  | .local _ .vmem, ⟨13, _⟩ => ⟨S1x4, .f32⟩
  | _, _ => ⟨S2x4x96x160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 12], ![false, false]⟩

def k0_cond2 (i : grid0.Coords) : BitVec 1 :=
  let arg1 : BitVec 32 := BitVec.ofNat 32 (i 1).val
  let c11_i32 : BitVec 32 := 11#32
  let v1 : BitVec 1 := Scalar.cmpi .eq arg1 c11_i32
  let v188 : BitVec 32 := Scalar.extui v1
  let c0_i32_58 : BitVec 32 := 0#32
  let v189 : BitVec 1 := Scalar.cmpi .ne v188 c0_i32_58
  v189

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x8x25600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x25600 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8x25600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x25600 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S2x4x96x160x160_S2x4x96x25600 : S2x4x96x160x160.ShapeCasts S2x4x96x25600
  shapeCasts_S2x1x96x160x160_S2x1x96x25600 : S2x1x96x160x160.ShapeCasts S2x1x96x25600
  inb_S4x3_S4x3_0_0 : ∀ a, (![0, 0] : Fin 2 → Nat) a + S4x3.size a ≤ S4x3.size a
  h_S4x3 : 0 < S4x3.numel
  shapeCasts_S4x3_S4x3 : S4x3.ShapeCasts S4x3
  inb_S1x4_S1x4_0_0 : ∀ a, (![0, 0] : Fin 2 → Nat) a + S1x4.size a ≤ S1x4.size a
  h_S1x4 : 0 < S1x4.numel
  shapeCasts_S1x4_S1x4 : S1x4.ShapeCasts S1x4
  inb_S1x4x8x25600_S1x4x8x25600_0_0_0_0 : ∀ a, (![0, 0, 0, 0] : Fin 4 → Nat) a + S1x4x8x25600.size a ≤ S1x4x8x25600.size a
  h_S1x4x8x25600 : 0 < S1x4x8x25600.numel
  shapeCasts_S1x4x8x25600_S4x8x25600 : S1x4x8x25600.ShapeCasts S4x8x25600
  inb_S1x1x8x25600_S1x1x8x25600_0_0_0_0 : ∀ a, (![0, 0, 0, 0] : Fin 4 → Nat) a + S1x1x8x25600.size a ≤ S1x1x8x25600.size a
  h_S1x1x8x25600 : 0 < S1x1x8x25600.numel
  shapeCasts_S1x1x8x25600_S8x25600 : S1x1x8x25600.ShapeCasts S8x25600
  reduces_S4x8x25600_S8x25600 : S4x8x25600.Reduces [0] S8x25600
  shapeCasts_S8x25600_S1x8x25600 : S8x25600.ShapeCasts S1x8x25600
  broadcasts_S1x8x25600_S4x8x25600 : S1x8x25600.Broadcasts S4x8x25600
  slices_S4x8x25600_o0_0_0_S1x8x25600 : S4x8x25600.Slices ![0, 0, 0] S1x8x25600
  shapeCasts_S1x8x25600_S8x25600 : S1x8x25600.ShapeCasts S8x25600
  natLt_1_32 : 1 < 32
  reduces_S1x8x25600_S1 : S1x8x25600.Reduces [1, 2] S1
  shapeCasts_S1_S1x1x1 : S1.ShapeCasts S1x1x1
  inpos_S1x1x1_p0_0_0 : ∀ a, (![0, 0, 0] : Fin 3 → Nat) a < S1x1x1.size a
  concatenates_S1x1_S1x1_S1x1_S1x3_d1 : Shape.Concatenates [S1x1, S1x1, S1x1] S1x3 1
  inb_S4x3_S1x3_0_0 : ∀ a, (![0, 0] : Fin 2 → Nat) a + S1x3.size a ≤ S4x3.size a
  h_S1x3 : 0 < S1x3.numel
  shapeCasts_S1x3_S1x3 : S1x3.ShapeCasts S1x3
  slices_S4x8x25600_o1_0_0_S1x8x25600 : S4x8x25600.Slices ![1, 0, 0] S1x8x25600
  inb_S4x3_S1x3_1_0 : ∀ a, (![1, 0] : Fin 2 → Nat) a + S1x3.size a ≤ S4x3.size a
  slices_S4x8x25600_o2_0_0_S1x8x25600 : S4x8x25600.Slices ![2, 0, 0] S1x8x25600
  inb_S4x3_S1x3_2_0 : ∀ a, (![2, 0] : Fin 2 → Nat) a + S1x3.size a ≤ S4x3.size a
  slices_S4x8x25600_o3_0_0_S1x8x25600 : S4x8x25600.Slices ![3, 0, 0] S1x8x25600
  inb_S4x3_S1x3_3_0 : ∀ a, (![3, 0] : Fin 2 → Nat) a + S1x3.size a ≤ S4x3.size a
  concatenates_S1x1_S1x1_S1x1_S1x1_S1x4_d1 : Shape.Concatenates [S1x1, S1x1, S1x1, S1x1] S1x4 1
  inb_S1x4x3_S1x4x3_0_0_0 : ∀ a, (![0, 0, 0] : Fin 3 → Nat) a + S1x4x3.size a ≤ S1x4x3.size a
  h_S1x4x3 : 0 < S1x4x3.numel
  shapeCasts_S1x4x3_S4x3 : S1x4x3.ShapeCasts S4x3
  shapeCasts_S4x3_S1x4x3 : S4x3.ShapeCasts S1x4x3
  inb_S1x1x4_S1x1x4_0_0_0 : ∀ a, (![0, 0, 0] : Fin 3 → Nat) a + S1x1x4.size a ≤ S1x1x4.size a
  h_S1x1x4 : 0 < S1x1x4.numel
  shapeCasts_S1x1x4_S1x4 : S1x1x4.ShapeCasts S1x4
  shapeCasts_S1x4_S1x1x4 : S1x4.ShapeCasts S1x1x4
  reducesTo_S2x4x3_S4x3_d0 : S2x4x3.ReducesTo [0] S4x3
  h_S_ : 0 < S_.numel
  slices_S4x3_S4x1_0_0 : S4x3.Slices ![0, 0] S4x1
  shapeCasts_S4x1_S4 : S4x1.ShapeCasts S4
  slices_S4x3_S4x1_0_1 : S4x3.Slices ![0, 1] S4x1
  slices_S4x3_S4x1_0_2 : S4x3.Slices ![0, 2] S4x1
  bcast_S_S4 : S_.BroadcastsInDim S4 (![] : Fin 0 → Fin S4.rank)
  reducesTo_S4_S_d0 : S4.ReducesTo [0] S_
  reducesTo_S2x1x4_S1x4_d0 : S2x1x4.ReducesTo [0] S1x4
  shapeCasts_S1x4_S4 : S1x4.ShapeCasts S4
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x8x25600.size a ≤ S2x4x96x25600.size a
  hwx0_0 : ∀ i : grid0.Coords, EltTy.bits .f32 = 32 ∨ (Rect.block (s := S2x4x96x25600) S1x4x8x25600.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8x25600.size a ≤ S2x1x96x25600.size a
  hwx0_1 : ∀ i : grid0.Coords, EltTy.bits .i32 = 32 ∨ (Rect.block (s := S2x1x96x25600) S1x1x8x25600.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8x25600.size a ≤ S2x1x96x25600.size a
  hwx0_2 : ∀ i : grid0.Coords, EltTy.bits .f32 = 32 ∨ (Rect.block (s := S2x1x96x25600) S1x1x8x25600.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8x25600.size a ≤ S2x1x96x25600.size a
  hwx0_3 : ∀ i : grid0.Coords, EltTy.bits .i32 = 32 ∨ (Rect.block (s := S2x1x96x25600) S1x1x8x25600.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x3.size a ≤ S2x4x3.size a
  hwx0_4 : ∀ i : grid0.Coords, EltTy.bits .f32 = 32 ∨ (Rect.block (s := S2x4x3) S1x4x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x4.size a ≤ S2x1x4.size a
  hwx0_5 : ∀ i : grid0.Coords, EltTy.bits .f32 = 32 ∨ (Rect.block (s := S2x1x4) S1x1x4.size (cc0_transform_5 i) (hinb0_5 i)).WholeWords (EltTy.packing .f32)

variable [Facts₀]

abbrev win0_0 : Pipeline.Window sig grid0 :=
  Pipeline.Window.ofSpec (Memref.whole main_v0) S1x4x8x25600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x8x25600.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x8x25600.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x8x25600.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x4x3.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x1x4.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2x4x96x160x160 : Shape := ⟨5, ![2, 4, 96, 160, 160]⟩
abbrev S2x1x96x160x160 : Shape := ⟨5, ![2, 1, 96, 160, 160]⟩
abbrev S_ : Shape := ⟨0, ![]⟩
abbrev S2x96x160x160 : Shape := ⟨4, ![2, 96, 160, 160]⟩
abbrev S2x96x160x160x1 : Shape := ⟨5, ![2, 96, 160, 160, 1]⟩
abbrev S1x1x1x1x4 : Shape := ⟨5, ![1, 1, 1, 1, 4]⟩
abbrev S2x96x160x160x4 : Shape := ⟨5, ![2, 96, 160, 160, 4]⟩
abbrev S4 : Shape := ⟨1, ![4]⟩
abbrev S2x2457600 : Shape := ⟨2, ![2, 2457600]⟩

abbrev nBuf : Space → Nat
  | .hbm => 95
  | .vmem => 0
  | .smem => 0
  | _ => 0

abbrev bufTy : (tb : Table) → Fin (tcTables nBuf tb) → BufTy
  | .hbm, ⟨0, _⟩ => ⟨S2x4x96x160x160, .f32⟩
  | .hbm, ⟨1, _⟩ => ⟨S2x1x96x160x160, .f32⟩
  | .hbm, ⟨2, _⟩ => ⟨S2x1x96x160x160, .i32⟩
  | .hbm, ⟨3, _⟩ => ⟨S2x1x96x160x160, .i32⟩
  | .hbm, ⟨4, _⟩ => ⟨S_, .f32⟩
  | .hbm, ⟨5, _⟩ => ⟨S2x96x160x160, .f32⟩
  | .hbm, ⟨6, _⟩ => ⟨S_, .f32⟩
  | .hbm, ⟨7, _⟩ => ⟨S2x96x160x160, .f32⟩
  | .hbm, ⟨8, _⟩ => ⟨S2x96x160x160, .f32⟩
  | .hbm, ⟨9, _⟩ => ⟨S2x1x96x160x160, .f32⟩
  | .hbm, ⟨10, _⟩ => ⟨S2x4x96x160x160, .f32⟩
  | .hbm, ⟨11, _⟩ => ⟨S2x4x96x160x160, .f32⟩
  | .hbm, ⟨12, _⟩ => ⟨S2x4x96x160x160, .f32⟩
  | .hbm, ⟨13, _⟩ => ⟨S_, .f32⟩
  | .hbm, ⟨14, _⟩ => ⟨S2x96x160x160, .f32⟩
  | .hbm, ⟨15, _⟩ => ⟨S2x1x96x160x160, .f32⟩
  | .hbm, ⟨16, _⟩ => ⟨S2x4x96x160x160, .f32⟩
  | .hbm, ⟨17, _⟩ => ⟨S2x4x96x160x160, .f32⟩
  | .hbm, ⟨18, _⟩ => ⟨S2x96x160x160, .i32⟩
  | .hbm, ⟨19, _⟩ => ⟨S2x96x160x160x1, .i32⟩
  | .hbm, ⟨20, _⟩ => ⟨S1x1x1x1x4, .i32⟩
  | .hbm, ⟨21, _⟩ => ⟨S2x96x160x160x4, .i32⟩
  | .hbm, ⟨22, _⟩ => ⟨S2x96x160x160x4, .i32⟩
  | .hbm, ⟨23, _⟩ => ⟨S2x96x160x160x4, .i1⟩
  | .hbm, ⟨24, _⟩ => ⟨S2x96x160x160x4, .f32⟩
  | .hbm, ⟨25, _⟩ => ⟨S2x4x96x160x160, .f32⟩
  | .hbm, ⟨26, _⟩ => ⟨S2x4x96x160x160, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S4, .f32⟩
  | .hbm, ⟨39, _⟩ => ⟨S4, .f32⟩
  | .hbm, ⟨40, _⟩ => ⟨S_, .f32⟩
  | .hbm, ⟨41, _⟩ => ⟨S4, .f32⟩
  | .hbm, ⟨42, _⟩ => ⟨S4, .f32⟩
  | .hbm, ⟨43, _⟩ => ⟨S4, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S2x2457600, .f32⟩
  | .hbm, ⟨53, _⟩ => ⟨S2x2457600, .i32⟩
  | .hbm, ⟨54, _⟩ => ⟨S2x2457600, .f32⟩
  | .hbm, ⟨55, _⟩ => ⟨S_, .i32⟩
  | .hbm, ⟨56, _⟩ => ⟨S2x2457600, .i32⟩
  | .hbm, ⟨57, _⟩ => ⟨S2x2457600, .i1⟩
  | .hbm, ⟨58, _⟩ => ⟨S_, .i32⟩
  | .hbm, ⟨59, _⟩ => ⟨S2x2457600, .i32⟩
  | .hbm, ⟨60, _⟩ => ⟨S2x2457600, .i1⟩
  | .hbm, ⟨61, _⟩ => ⟨S2x2457600, .i32⟩
  | .hbm, ⟨62, _⟩ => ⟨S_, .i32⟩
  | .hbm, ⟨63, _⟩ => ⟨S_, .i32⟩
  | .hbm, ⟨64, _⟩ => ⟨S_, .f32⟩
  | .hbm, ⟨65, _⟩ => ⟨S2x2457600, .i32⟩
  | .hbm, ⟨66, _⟩ => ⟨S_, .i32⟩
  | .hbm, ⟨67, _⟩ => ⟨S_, .i32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S2x2457600, .f32⟩
  | .hbm, ⟨74, _⟩ => ⟨S2x2457600, .f32⟩
  | .hbm, ⟨75, _⟩ => ⟨S2x2457600, .f32⟩
  | .hbm, ⟨76, _⟩ => ⟨S2x2457600, .f32⟩
  | .hbm, ⟨77, _⟩ => ⟨S2x2457600, .f32⟩
  | .hbm, ⟨78, _⟩ => ⟨S_, .f32⟩
  | .hbm, ⟨79, _⟩ => ⟨S2x2457600, .f32⟩
  | .hbm, ⟨80, _⟩ => ⟨S2x2457600, .f32⟩
  | .hbm, ⟨81, _⟩ => ⟨S2x2457600, .f32⟩
  | .hbm, ⟨82, _⟩ => ⟨S2x2457600, .f32⟩
  | .hbm, ⟨83, _⟩ => ⟨S2x2457600, .f32⟩
  | .hbm, ⟨84, _⟩ => ⟨S2x2457600, .f32⟩
  | .hbm, ⟨85, _⟩ => ⟨S2x2457600, .f32⟩
  | .hbm, ⟨86, _⟩ => ⟨S2x2457600, .f32⟩
  | .hbm, ⟨87, _⟩ => ⟨S2x2457600, .f32⟩
  | .hbm, ⟨88, _⟩ => ⟨S2x2457600, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S2x4x96x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_cst_9 : Ref sig .tc := ⟨.hbm, 46, rfl⟩
abbrev main_v27 : Ref sig .tc := ⟨.hbm, 47, rfl⟩
abbrev main_cst_10 : Ref sig .tc := ⟨.hbm, 48, rfl⟩
abbrev main_v28 : Ref sig .tc := ⟨.hbm, 49, rfl⟩
abbrev main_cst_11 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c : Ref sig .tc := ⟨.hbm, 55, rfl⟩
abbrev main_v33 : Ref sig .tc := ⟨.hbm, 56, rfl⟩
abbrev main_v34 : Ref sig .tc := ⟨.hbm, 57, rfl⟩
abbrev main_c_12 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_13 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_14 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_15 : Ref sig .tc := ⟨.hbm, 72, rfl⟩
abbrev main_call1_v0 : Ref sig .tc := ⟨.hbm, 73, rfl⟩
abbrev main_call1_v1 : Ref sig .tc := ⟨.hbm, 74, rfl⟩
abbrev main_v46 : Ref sig .tc := ⟨.hbm, 75, rfl⟩
abbrev main_call2_v0 : Ref sig .tc := ⟨.hbm, 76, rfl⟩
abbrev main_v47 : Ref sig .tc := ⟨.hbm, 77, rfl⟩
abbrev main_cst_16 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_17 : Ref sig .tc := ⟨.hbm, 89, rfl⟩
abbrev main_v58 : Ref sig .tc := ⟨.hbm, 90, rfl⟩
abbrev main_cst_18 : Ref sig .tc := ⟨.hbm, 91, rfl⟩
abbrev main_v59 : Ref sig .tc := ⟨.hbm, 92, rfl⟩
abbrev main_cst_19 : Ref sig .tc := ⟨.hbm, 93, rfl⟩
abbrev main_v60 : Ref sig .tc := ⟨.hbm, 94, rfl⟩

abbrev nD : Nat := 1
abbrev τ : Topo := Topo.v7x

variable {F : FTy → Type} [FloatOps F]

class Facts₀ : Prop where
  reducesTo_S2x4x96x160x160_S2x96x160x160_d1 : S2x4x96x160x160.ReducesTo [1] S2x96x160x160
  h_S_ : 0 < S_.numel
  bcast_S_S2x96x160x160 : S_.BroadcastsInDim S2x96x160x160 (![] : Fin 0 → Fin S2x96x160x160.rank)
  bcast_S2x96x160x160_S2x1x96x160x160_0_2_3_4 : S2x96x160x160.BroadcastsInDim S2x1x96x160x160 (![0, 2, 3, 4] : Fin 4 → Fin S2x1x96x160x160.rank)
  bcast_S2x1x96x160x160_S2x4x96x160x160_0_1_2_3_4 : S2x1x96x160x160.BroadcastsInDim S2x4x96x160x160 (![0, 1, 2, 3, 4] : Fin 5 → Fin S2x4x96x160x160.rank)
  shapeCasts_S2x1x96x160x160_S2x96x160x160 : S2x1x96x160x160.ShapeCasts S2x96x160x160
  bcast_S2x96x160x160_S2x96x160x160x1_0_1_2_3 : S2x96x160x160.BroadcastsInDim S2x96x160x160x1 (![0, 1, 2, 3] : Fin 4 → Fin S2x96x160x160x1.rank)
  bcast_S2x96x160x160x1_S2x96x160x160x4_0_1_2_3_4 : S2x96x160x160x1.BroadcastsInDim S2x96x160x160x4 (![0, 1, 2, 3, 4] : Fin 5 → Fin S2x96x160x160x4.rank)
  bcast_S1x1x1x1x4_S2x96x160x160x4_0_1_2_3_4 : S1x1x1x1x4.BroadcastsInDim S2x96x160x160x4 (![0, 1, 2, 3, 4] : Fin 5 → Fin S2x96x160x160x4.rank)
  transposes_S2x96x160x160x4_S2x4x96x160x160_0_4_1_2_3 : S2x96x160x160x4.Transposes [0, 4, 1, 2, 3] S2x4x96x160x160
  reducesTo_S2x4x96x160x160_S4_d0_2_3_4 : S2x4x96x160x160.ReducesTo [0, 2, 3, 4] S4
  bcast_S_S4 : S_.BroadcastsInDim S4 (![] : Fin 0 → Fin S4.rank)
  reducesTo_S4_S_d0 : S4.ReducesTo [0] S_
  shapeCasts_S2x1x96x160x160_S2x2457600 : S2x1x96x160x160.ShapeCasts S2x2457600
  bcast_S_S2x2457600 : S_.BroadcastsInDim S2x2457600 (![] : Fin 0 → Fin S2x2457600.rank)
  natLt_1_32 : 1 < 32
  reducesTo_S2x2457600_S_d0_1 : S2x2457600.ReducesTo [0, 1] S_

variable [Facts₀]

class Facts : Prop extends Facts₀ where

variable [Facts]
-- ==== Proof.Spec.lean ====
/-
  The two losses as mathematics over the extended reals, with no program in sight.

  A voxel has four class logits `x : Fin 4 → EReal`, a class label word `t`, an edge logit and an edge label word.
  The region (soft-dice) loss needs, per class `c`, three totals over all voxels: the softmax probability of `c`
  times the indicator of `t = c`, the probability alone, the indicator alone. The edge loss needs four totals: how many
  edge labels are `1`, how many are `0`, and the stable binary cross-entropy summed over each of those two sets.

  One side forms the probability as numerator times the reciprocal of the denominator and walks the volume tile by tile
  (2 batches × 12 depth tiles × 8 rows × 25600 lanes, a lane being a flattened `(h, w)`); the other divides and walks
  `(n, d, h, w)`. Both then apply the same closing formula to the totals.
-/
import Idealize.ShloMosaic.Lib.ValueIdx
import Idealize.ShloMosaic.PureOps.Ideal.Laws
import Mathlib.Algebra.BigOperators.Fin
import Idealize.ShloMosaic.PureOps.Reduce

noncomputable section

open scoped BigOperators

namespace Cert.Losses

open Idealize.ShloMosaic

/-! ## Voxel terms -/

/-- The indicator of `t = k` as an extended real. -/
def ind (t k : BitVec 32) : EReal := if t = k then 1 else 0

/-- The word of class `c`. -/
def cls (c : Fin 4) : BitVec 32 := BitVec.ofNat 32 c.val

/-- The largest of the four logits. -/
def smMax (x : Fin 4 → EReal) : EReal := (Finset.univ : Finset (Fin 4)).sup x
/-- The softmax numerator of class `c`. -/
def smExp (x : Fin 4 → EReal) (c : Fin 4) : EReal := Ideal.exp (x c - smMax x)
/-- The softmax denominator. -/
def smSum (x : Fin 4 → EReal) : EReal := ∑ c : Fin 4, smExp x c
/-- The probability as numerator times the reciprocal of the denominator. -/
def probK (x : Fin 4 → EReal) (c : Fin 4) : EReal := smExp x c * Ideal.div 1 (smSum x)
/-- The probability as a quotient. -/
def probR (x : Fin 4 → EReal) (c : Fin 4) : EReal := Ideal.div (smExp x c) (smSum x)

/-- The three dice terms of class `c` at one voxel, with the product form of the probability. -/
def diceTermK (j : Fin 3) (c : Fin 4) (x : Fin 4 → EReal) (t : BitVec 32) : EReal :=
  ![probK x c * ind t (cls c), probK x c, ind t (cls c)] j
/-- The same with the quotient form. -/
def diceTermR (j : Fin 3) (c : Fin 4) (x : Fin 4 → EReal) (t : BitVec 32) : EReal :=
  ![probR x c * ind t (cls c), probR x c, ind t (cls c)] j

/-- Stable cross-entropy of a logit against the label `0`: `max x 0 + log (1 + exp (0 - |x|))`. -/
def bce0 (x : EReal) : EReal := max x 0 + Ideal.log1p (Ideal.exp (0 - max x (-x)))
/-- Against the label `1`: the same minus `x`. -/
def bce1 (x : EReal) : EReal := bce0 x - x
/-- The four edge terms at one voxel: label is one, label is zero, cross-entropy where it is one, where it is zero. -/
def edgeTermK (j : Fin 4) (x : EReal) (t : BitVec 32) : EReal :=
  ![ind t 1#32, ind t 0#32, if t = 1#32 then bce1 x else 0, if t = 0#32 then bce0 x else 0] j
/-- The cross-entropy as the other side writes it: `(max x 0 - x · t) + log (1 + exp (-|x|))`, `t` the label read signed. -/
def bceR (x : EReal) (t : BitVec 32) : EReal :=
  (max x 0 - x * ((t.toInt : ℝ) : EReal)) + Ideal.log1p (Ideal.exp (-(max x (-x))))
/-- The class-balancing weight of a voxel, given the two counts: the other class's share, zero for any other label. -/
def wgt (t : BitVec 32) (pc nc : EReal) : EReal :=
  if t = 1#32 then Ideal.div nc (pc + nc) else if t = 0#32 then Ideal.div pc (pc + nc) else 0

/-! ## Coordinates of a tile element in the volume -/

/-- Depth of row `r` of depth tile `di`. -/
def dOf (di : Fin 12) (r : Fin 8) : Fin 96 := ⟨8 * di.val + r.val, by omega⟩
/-- Height of lane `l`. -/
def hOf (l : Fin 25600) : Fin 160 := ⟨l.val / 160, by omega⟩
/-- Width of lane `l`. -/
def wOf (l : Fin 25600) : Fin 160 := ⟨l.val % 160, by omega⟩

/-- Class logits, class labels, edge logits and edge labels over the volume, by coordinates. -/
abbrev Seg := Fin 2 → Fin 4 → Fin 96 → Fin 160 → Fin 160 → EReal
abbrev Lab := Fin 2 → Fin 96 → Fin 160 → Fin 160 → BitVec 32
abbrev Edg := Fin 2 → Fin 96 → Fin 160 → Fin 160 → EReal

/-! ## Totals, tile by tile -/

/-- The dice totals of one tile. -/
def tileDice (x : Fin 4 → Fin 8 → Fin 25600 → EReal) (t : Fin 8 → Fin 25600 → BitVec 32) (c : Fin 4) (j : Fin 3) : EReal :=
  ∑ r : Fin 8, ∑ l : Fin 25600, diceTermK j c (fun c' => x c' r l) (t r l)
/-- The edge totals of one tile. -/
def tileEdge (x : Fin 8 → Fin 25600 → EReal) (t : Fin 8 → Fin 25600 → BitVec 32) (j : Fin 4) : EReal :=
  ∑ r : Fin 8, ∑ l : Fin 25600, edgeTermK j (x r l) (t r l)

/-- Tile `(n, di)` of the class logits. -/
def segTile (a : Seg) (n : Fin 2) (di : Fin 12) : Fin 4 → Fin 8 → Fin 25600 → EReal :=
  fun c r l => a n c (dOf di r) (hOf l) (wOf l)
/-- Tile `(n, di)` of a label array. -/
def labTile (s : Lab) (n : Fin 2) (di : Fin 12) : Fin 8 → Fin 25600 → BitVec 32 :=
  fun r l => s n (dOf di r) (hOf l) (wOf l)
/-- Tile `(n, di)` of the edge logits. -/
def edgTile (e : Edg) (n : Fin 2) (di : Fin 12) : Fin 8 → Fin 25600 → EReal :=
  fun r l => e n (dOf di r) (hOf l) (wOf l)

/-- The dice totals over the volume, tile by tile. -/
def diceK (a : Seg) (s : Lab) (c : Fin 4) (j : Fin 3) : EReal :=
  ∑ n : Fin 2, ∑ di : Fin 12, tileDice (segTile a n di) (labTile s n di) c j
/-- The edge totals over the volume, tile by tile. -/
def edgeK (e : Edg) (s : Lab) (j : Fin 4) : EReal :=
  ∑ n : Fin 2, ∑ di : Fin 12, tileEdge (edgTile e n di) (labTile s n di) j

/-! ## Totals, voxel by voxel -/

/-- The dice totals over the volume by `(n, d, h, w)`, quotient form. -/
def diceR (a : Seg) (s : Lab) (c : Fin 4) (j : Fin 3) : EReal :=
  ∑ n : Fin 2, ∑ d : Fin 96, ∑ h : Fin 160, ∑ w : Fin 160, diceTermR j c (fun c' => a n c' d h w) (s n d h w)
/-- How many labels equal `k`, as an extended real. -/
def countOf (s : Lab) (k : BitVec 32) : EReal :=
  ∑ n : Fin 2, ∑ d : Fin 96, ∑ h : Fin 160, ∑ w : Fin 160, ind (s n d h w) k

/-- The same count as a wrapping 32-bit sum of the widened comparison bits (how an integer sum takes it). -/
def countWord (s : Lab) (k : BitVec 32) : BitVec 32 :=
  (Finset.univ : Finset (Fin 2 × Fin 96 × Fin 160 × Fin 160)).fold IntOp.addi 0#32
    (fun p => (IntOp.cmpi .eq (s p.1 p.2.1 p.2.2.1 p.2.2.2) k).setWidth 32)

/-! ## The closing formulas (literals kept as the words both sides print) -/

/-- `1 · (1 - (0 + ∑_c (2·I_c + ε) / ((P_c + O_c) + ε)) / 4)`. -/
def regionLoss (st : Fin 4 → Fin 3 → EReal) : EReal :=
  Ideal.ofBits .f32 0x3F800000#32 * (Ideal.ofBits .f32 0x3F800000#32 -
    Ideal.div (Ideal.ofBits .f32 0x00000000#32 + ∑ c : Fin 4,
        Ideal.div (Ideal.ofBits .f32 0x40000000#32 * st c 0 + Ideal.ofBits .f32 0x3727C5AC#32)
          ((st c 1 + st c 2) + Ideal.ofBits .f32 0x3727C5AC#32))
      (Ideal.ofBits .f32 0x40800000#32))

/-- From the four totals `(pos, neg, Σ_pos, Σ_neg)`: `1 · ((neg/(pos+neg))·Σ_pos + (pos/(pos+neg))·Σ_neg) / 4915200`. -/
def edgeLossK (E : Fin 4 → EReal) : EReal :=
  Ideal.ofBits .f32 0x3F800000#32 *
    Ideal.div (Ideal.div (E 1) (E 0 + E 1) * E 2 + Ideal.div (E 0) (E 0 + E 1) * E 3) (Ideal.ofBits .f32 0x4A960000#32)

/-- Voxel by voxel, given the two counts: `1 · (0 + ∑ weight · cross-entropy) / 4915200`. -/
def edgeLossR (e : Edg) (s : Lab) (pc nc : EReal) : EReal :=
  Ideal.ofBits .f32 0x3F800000#32 *
    Ideal.div (Ideal.ofBits .f32 0x00000000#32 + ∑ n : Fin 2, ∑ d : Fin 96, ∑ h : Fin 160, ∑ w : Fin 160,
        wgt (s n d h w) pc nc * bceR (e n d h w) (s n d h w))
      (Ideal.ofBits .f32 0x4A960000#32)

end Cert.Losses

end
-- ==== Proof.KDefs.lean ====
/-
  One accumulation step of each running total, as a function of what the accumulator held and of the point's blocks.

  The 4×3 accumulator holds, per class (row), the three dice totals so far; a step replaces row `c` by that row plus
  the tile's three totals of class `c`. The 1×4 accumulator holds the four edge totals; a step adds the tile's four.
  Also: the tile's logits and labels read off the loaded blocks by coordinates.
-/
import proofs.«420524_j90795608638213_4_alg».proof.Proof.Gen.KernelIdeal.Skeleton
import proofs.«420524_j90795608638213_4_alg».proof.Proof.Spec

noncomputable section

namespace Cert.KernelIdeal.Step

open Cert.KernelIdeal Cert.KernelIdeal.Gen Idealize.ShloMosaic Idealize.ShloMosaic.ValueIdx

variable {F : FTy → Type} [FloatOps F]

/-- Row `c` of the 4×3 accumulator as a 1×3 vector. -/
def loadRow (xs : Vec F S4x3 .f32) (c : Fin 4) : Vec F S1x3 .f32 := fun y => xs (ix2 c (y 1))

/-- The new row `c`: the row found plus the tile's three totals of class `c` (each class by its own stretch of the body). -/
def rowPay (x0 : Vec F S1x4x8x25600 .f32) (x1 : Vec F S1x1x8x25600 .i32) (v : Vec F S1x3 .f32) : Fin 4 → FVec F S1x3 .f32
  | 0 => k0_pay14 (k0_pay11 x0 x1) (k0_pay12 x0) (k0_pay13 x1) v
  | 1 => k0_pay15 (k0_pay6 x1) (k0_pay7 x0) (k0_pay8 x0) v
  | 2 => k0_pay18 (k0_pay16 (k0_pay7 x0) (k0_pay8 x0)) (k0_pay17 (k0_pay6 x1)) v
  | 3 => k0_pay20 (k0_pay19 (k0_pay6 x1) (k0_pay7 x0) (k0_pay8 x0)) v

/-- One step of the 4×3 accumulator. -/
def diceStep (xs : Vec F S4x3 .f32) (x0 : Vec F S1x4x8x25600 .f32) (x1 : Vec F S1x1x8x25600 .i32) : Vec F S4x3 .f32 :=
  fun y => rowPay x0 x1 (loadRow xs (y 0)) (y 0) (ix2 0 (y 1))

/-- One step of the 1×4 accumulator. -/
def edgeStep (xs : Vec F S1x4 .f32) (x2 : Vec F S1x1x8x25600 .f32) (x3 : Vec F S1x1x8x25600 .i32) : Vec F S1x4 .f32 :=
  k0_pay1 (k0_pay24 x3) (k0_pay25 x3) (k0_pay26 x3) (k0_pay27 x2) (k0_pay28 x2 x3) xs

/-- The tile's class logits, labels and edge logits by coordinates `(class, row, lane)`. -/
def segOf (x0 : Vec Ideal S1x4x8x25600 .f32) : Fin 4 → Fin 8 → Fin 25600 → EReal := fun c r l => x0 (ix4 0 c r l)
def labOf (x1 : Vec Ideal S1x1x8x25600 .i32) : Fin 8 → Fin 25600 → BitVec 32 := fun r l => x1 (ix4 0 0 r l)
def edgOf (x2 : Vec Ideal S1x1x8x25600 .f32) : Fin 8 → Fin 25600 → EReal := fun r l => x2 (ix4 0 0 r l)

end Cert.KernelIdeal.Step

end
-- ==== Proof.KPieces.lean ====
/-
  What each control case of the kernel body leaves in the two running totals and, in the last case, in the two outputs,
  as one step function of what the totals held before and of the point's blocks.
-/
import proofs.«420524_j90795608638213_4_alg».proof.Proof.Gen.KernelIdeal.Frame
import proofs.«420524_j90795608638213_4_alg».proof.Proof.KDefs
import Idealize.ShloMosaic.Lib.Pipeline.Value
import Idealize.ShloMosaic.Lib.Pipeline.FrameBody

set_option maxRecDepth 16384

noncomputable section

namespace Cert.KernelIdeal.Pieces

open Cert.KernelIdeal Cert.KernelIdeal.Gen Cert.KernelIdeal.Step Idealize.ShloMosaic Idealize.ShloMosaic.ValueIdx
open Idealize.ShloMosaic.Tactic Idealize.SL.Sem

variable {F : FTy → Type} [FloatOps F]

/-- The zero offsets at ranks two, three and four. -/
theorem hz2 : (![0, 0] : Fin 2 → ℕ) = fun _ => 0 := by funext a; fin_cases a <;> rfl
theorem hz3 : (![0, 0, 0] : Fin 3 → ℕ) = fun _ => 0 := by funext a; fin_cases a <;> rfl
theorem hz4 : (![0, 0, 0, 0] : Fin 4 → ℕ) = fun _ => 0 := by funext a; fin_cases a <;> rfl

section Rows

variable {Val : EltTy → Type} [∀ e, Nonempty (Val e)] {e : EltTy}

/-- Row `o` of a 4×3 array read through its 1×3 rectangle: the array at `(o, ·)`. -/
theorem ld_row (X : S4x3.Idx → Val e) (o : ℕ) (c : Fin 4) (hc : c.val = o)
    (inb : ∀ a, (![o, 0] : Fin 2 → ℕ) a + S1x3.size a ≤ S4x3.size a) :
    View.ld X (Rect.unit ![o, 0] S1x3.size inb) = fun y => X (ix2 c (y 1)) := by
  funext y
  refine congrArg X ?_
  funext a; apply Fin.ext
  match a with
  | ⟨0, _⟩ =>
    have h : (y 0).val < 1 := (y 0).isLt
    show o + 1 * (y 0).val = c.val
    omega
  | ⟨1, _⟩ =>
    show 0 + 1 * (y 1).val = (y 1).val
    omega

/-- An index of row `o'` is outside the rectangle of another row `o`. -/
theorem row_not_mem (o o' : ℕ) (hne : o ≠ o') (c : Fin 4) (hc : c.val = o') (q : Fin 3)
    (inb : ∀ a, (![o, 0] : Fin 2 → ℕ) a + (![1, 3] : Fin 2 → ℕ) a ≤ S4x3.size a) :
    ix2 c q ∉ (Rect.unit (s := S4x3) ![o, 0] ![1, 3] inb).set := by
  intro hm
  obtain ⟨h1, h2⟩ := Rect.mem_set_unit.mp hm (0 : Fin 2)
  have h1' : o ≤ c.val := h1
  have h2' : c.val < o + 1 := h2
  omega

/-- Row `o`'s rectangle places its local index `(0, q)` at `(o, q)`. -/
theorem row_emb (o : ℕ) (c : Fin 4) (hc : c.val = o) (q : Fin 3)
    (inb : ∀ a, (![o, 0] : Fin 2 → ℕ) a + (![1, 3] : Fin 2 → ℕ) a ≤ S4x3.size a) :
    (Rect.unit (s := S4x3) ![o, 0] ![1, 3] inb).emb (ix2 (0 : Fin 1) q) = ix2 c q := by
  funext a; apply Fin.ext
  match a with
  | ⟨0, _⟩ =>
    show o + 1 * 0 = c.val
    omega
  | ⟨1, _⟩ =>
    show 0 + 1 * q.val = q.val
    omega

variable (w0 w1 w2 w3 : S1x3.Idx → Val e) (L : List (View.Piece Val S4x3 e))
  (inb0 : ∀ a, (![0, 0] : Fin 2 → ℕ) a + (![1, 3] : Fin 2 → ℕ) a ≤ S4x3.size a)
  (inb1 : ∀ a, (![1, 0] : Fin 2 → ℕ) a + (![1, 3] : Fin 2 → ℕ) a ≤ S4x3.size a)
  (inb2 : ∀ a, (![2, 0] : Fin 2 → ℕ) a + (![1, 3] : Fin 2 → ℕ) a ≤ S4x3.size a)
  (inb3 : ∀ a, (![3, 0] : Fin 2 → ℕ) a + (![1, 3] : Fin 2 → ℕ) a ≤ S4x3.size a)

/-- Four row stores, row 3's last: what they leave at an index of row 3 is row 3's payload, -/
theorem canon_row3 (c : Fin 4) (hc : c.val = 3) (q : Fin 3) :
    View.canon ((⟨Rect.unit ![3, 0] ![1, 3] inb3, w3⟩ : View.Piece Val S4x3 e) :: ⟨Rect.unit ![2, 0] ![1, 3] inb2, w2⟩
      :: ⟨Rect.unit ![1, 0] ![1, 3] inb1, w1⟩ :: ⟨Rect.unit ![0, 0] ![1, 3] inb0, w0⟩ :: L) (ix2 c q) = w3 (ix2 0 q) :=
  ((congrArg (View.canon _) (row_emb 3 c hc q inb3).symm).trans (View.canon_cons_emb (Rect.unit (s := S4x3) ![3, 0] ![1, 3] inb3) w3 _ (ix2 0 q)))

/-- of row 2 row 2's, -/
theorem canon_row2 (c : Fin 4) (hc : c.val = 2) (q : Fin 3) :
    View.canon ((⟨Rect.unit ![3, 0] ![1, 3] inb3, w3⟩ : View.Piece Val S4x3 e) :: ⟨Rect.unit ![2, 0] ![1, 3] inb2, w2⟩
      :: ⟨Rect.unit ![1, 0] ![1, 3] inb1, w1⟩ :: ⟨Rect.unit ![0, 0] ![1, 3] inb0, w0⟩ :: L) (ix2 c q) = w2 (ix2 0 q) :=
  (View.canon_cons_of_not_mem (⟨Rect.unit ![3, 0] ![1, 3] inb3, w3⟩ : View.Piece Val S4x3 e) _ (row_not_mem 3 2 (by decide) c hc q inb3)).trans
    ((congrArg (View.canon _) (row_emb 2 c hc q inb2).symm).trans (View.canon_cons_emb (Rect.unit (s := S4x3) ![2, 0] ![1, 3] inb2) w2 _ (ix2 0 q)))

/-- of row 1 row 1's, -/
theorem canon_row1 (c : Fin 4) (hc : c.val = 1) (q : Fin 3) :
    View.canon ((⟨Rect.unit ![3, 0] ![1, 3] inb3, w3⟩ : View.Piece Val S4x3 e) :: ⟨Rect.unit ![2, 0] ![1, 3] inb2, w2⟩
      :: ⟨Rect.unit ![1, 0] ![1, 3] inb1, w1⟩ :: ⟨Rect.unit ![0, 0] ![1, 3] inb0, w0⟩ :: L) (ix2 c q) = w1 (ix2 0 q) :=
  (View.canon_cons_of_not_mem (⟨Rect.unit ![3, 0] ![1, 3] inb3, w3⟩ : View.Piece Val S4x3 e) _ (row_not_mem 3 1 (by decide) c hc q inb3)).trans
    ((View.canon_cons_of_not_mem (⟨Rect.unit ![2, 0] ![1, 3] inb2, w2⟩ : View.Piece Val S4x3 e) _ (row_not_mem 2 1 (by decide) c hc q inb2)).trans
      ((congrArg (View.canon _) (row_emb 1 c hc q inb1).symm).trans (View.canon_cons_emb (Rect.unit (s := S4x3) ![1, 0] ![1, 3] inb1) w1 _ (ix2 0 q))))

/-- and of row 0 row 0's — whatever was stored before them. -/
theorem canon_row0 (c : Fin 4) (hc : c.val = 0) (q : Fin 3) :
    View.canon ((⟨Rect.unit ![3, 0] ![1, 3] inb3, w3⟩ : View.Piece Val S4x3 e) :: ⟨Rect.unit ![2, 0] ![1, 3] inb2, w2⟩
      :: ⟨Rect.unit ![1, 0] ![1, 3] inb1, w1⟩ :: ⟨Rect.unit ![0, 0] ![1, 3] inb0, w0⟩ :: L) (ix2 c q) = w0 (ix2 0 q) :=
  (View.canon_cons_of_not_mem (⟨Rect.unit ![3, 0] ![1, 3] inb3, w3⟩ : View.Piece Val S4x3 e) _ (row_not_mem 3 0 (by decide) c hc q inb3)).trans
    ((View.canon_cons_of_not_mem (⟨Rect.unit ![2, 0] ![1, 3] inb2, w2⟩ : View.Piece Val S4x3 e) _ (row_not_mem 2 0 (by decide) c hc q inb2)).trans
      ((View.canon_cons_of_not_mem (⟨Rect.unit ![1, 0] ![1, 3] inb1, w1⟩ : View.Piece Val S4x3 e) _ (row_not_mem 1 0 (by decide) c hc q inb1)).trans
        ((congrArg (View.canon _) (row_emb 0 c hc q inb0).symm).trans (View.canon_cons_emb (Rect.unit (s := S4x3) ![0, 0] ![1, 3] inb0) w0 _ (ix2 0 q)))))

end Rows

section Whole

variable {Val : EltTy → Type} [∀ e, Nonempty (Val e)] {e : EltTy} {S : Shape}
  {sig' : RefSig} {κ : Kind} {sp : Space}

/-- A load of the whole buffer after a list of stores reads what the stores left. -/
theorem readCov_whole (v : View sig' κ sp S e) {off : Fin S.rank → ℕ} (h : off = fun _ => 0)
    (inb : ∀ a, off a + S.size a ≤ S.size a) (L : List (View.Piece Val S e)) :
    v.readCov L (Rect.unit off S.size inb).toLoadRect = View.canon L :=
  (View.readCov_eq_canon' v L _).trans (View.ld_unit_zero (S := S) h inb (View.canon L))

end Whole

section RowLoads

variable {Val : EltTy → Type} [∀ e, Nonempty (Val e)] {e : EltTy} {sig' : RefSig} {κ : Kind} {sp : Space}

/-- A load of row `o'` passes over a later store into another row `o`. -/
theorem readCov_row_skip (v : View sig' κ sp S4x3 e) (o o' : ℕ) (h : o + 1 ≤ o' ∨ o' + 1 ≤ o)
    (w : S1x3.Idx → Val e) (L : List (View.Piece Val S4x3 e))
    (inb : ∀ a, (![o, 0] : Fin 2 → ℕ) a + S1x3.size a ≤ S4x3.size a)
    (inb' : ∀ a, (![o', 0] : Fin 2 → ℕ) a + S1x3.size a ≤ S4x3.size a) :
    v.readCov ((⟨Rect.unit (s := S4x3) ![o, 0] S1x3.size inb, w⟩ : View.Piece Val S4x3 e) :: L)
        (Rect.unit (s := S4x3) ![o', 0] S1x3.size inb').toLoadRect
      = v.readCov L (Rect.unit (s := S4x3) ![o', 0] S1x3.size inb').toLoadRect :=
  View.readCov_cons_of_disjoint v (⟨Rect.unit (s := S4x3) ![o, 0] S1x3.size inb, w⟩ : View.Piece Val S4x3 e) L
    (Rect.unit (s := S4x3) ![o', 0] S1x3.size inb').toLoadRect (Rect.unit_disjoint (inb := inb) (inb' := inb') 0 h)

/-- A load of row `o` after a store of the whole array reads that store's row `o`. -/
theorem readCov_whole_row (v : View sig' κ sp S4x3 e) (P : S4x3.Idx → Val e) (L : List (View.Piece Val S4x3 e))
    (inbP : ∀ a, (![0, 0] : Fin 2 → ℕ) a + S4x3.size a ≤ S4x3.size a) (o : ℕ) (c : Fin 4) (hc : c.val = o)
    (inb : ∀ a, (![o, 0] : Fin 2 → ℕ) a + S1x3.size a ≤ S4x3.size a) :
    v.readCov ((⟨Rect.unit (s := S4x3) ![0, 0] S4x3.size inbP, P⟩ : View.Piece Val S4x3 e) :: L)
        (Rect.unit (s := S4x3) ![o, 0] S1x3.size inb).toLoadRect
      = fun y => P (ix2 c (y 1)) := by
  rw [View.readCov_eq_canon', View.canon_cons_unit_zero (S := S4x3) hz2]
  exact ld_row P o c hc inb

end RowLoads

/-- First depth tile: the 4×3 totals are set to the zero constant and each row is then replaced by itself plus the tile's
    three totals of its class, so what is left is one step from the zero constant. -/
theorem sout_A_0 (c : Dev nD) (i : grid0.Coords) (arg2 : Memref sig .tc .vmem S1x4x8x25600 .f32) (harg2 : arg2.IsWhole) (arg3 : Memref sig .tc .vmem S1x1x8x25600 .i32) (harg3 : arg3.IsWhole) (arg4 : Memref sig .tc .vmem S1x1x8x25600 .f32) (harg4 : arg4.IsWhole) (arg5 : Memref sig .tc .vmem S1x1x8x25600 .i32) (harg5 : arg5.IsWhole) (arg6 : Memref sig .tc .vmem S1x4x3 .f32) (harg6 : arg6.IsWhole) (arg7 : Memref sig .tc .vmem S1x1x4 .f32) (harg7 : arg7.IsWhole) (arg8 : Memref sig .tc .vmem S4x3 .f32) (harg8 : arg8.IsWhole) (arg9 : Memref sig .tc .vmem S1x4 .f32) (harg9 : arg9.IsWhole) (hc0 : cond0_0 i) (hc1 : ¬cond0_1 i)
    (x0 : Vec F S1x4x8x25600 .f32) (x1 : Vec F S1x1x8x25600 .i32) (x2 : Vec F S1x1x8x25600 .f32) (x3 : Vec F S1x1x8x25600 .i32) :
    sout0_A_0 (F := F) c i arg2 harg2 arg3 harg3 arg4 harg4 arg5 harg5 arg6 harg6 arg7 harg7 arg8 harg8 arg9 harg9 hc0 hc1 x0 x1 x2 x3 = Step.diceStep (k0_pay4 (F := F)) x0 x1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  simp only [View.readAt_eq_ld, Memref.IsWhole.read_unread, View.ld_unit_zero (S := S1x4x8x25600) hz4,
    View.ld_unit_zero (S := S1x1x8x25600) hz4,
    readCov_row_skip (Val := Elt F) _ 0 1 (by omega), readCov_row_skip (Val := Elt F) _ 0 2 (by omega),
    readCov_row_skip (Val := Elt F) _ 0 3 (by omega), readCov_row_skip (Val := Elt F) _ 1 2 (by omega),
    readCov_row_skip (Val := Elt F) _ 1 3 (by omega), readCov_row_skip (Val := Elt F) _ 2 3 (by omega),
    readCov_whole_row (Val := Elt F) _ _ _ _ 0 0 rfl, readCov_whole_row (Val := Elt F) _ _ _ _ 1 1 rfl,
    readCov_whole_row (Val := Elt F) _ _ _ _ 2 2 rfl, readCov_whole_row (Val := Elt F) _ _ _ _ 3 3 rfl]
  funext y
  obtain ⟨c, q, rfl⟩ : ∃ c q, y = ix2 c q := ⟨y 0, y 1, eq_ix2 y⟩
  fin_cases c
  · exact (canon_row0 _ _ _ _ _ _ _ _ _ _ rfl q).trans rfl
  · exact (canon_row1 _ _ _ _ _ _ _ _ _ _ rfl q).trans rfl
  · exact (canon_row2 _ _ _ _ _ _ _ _ _ _ rfl q).trans rfl
  · exact (canon_row3 _ _ _ _ _ _ _ _ _ _ rfl q).trans rfl

/-- First depth tile: the 1×4 totals are set to the zero constant and the tile's four edge totals added. -/
theorem sout_A_1 (c : Dev nD) (i : grid0.Coords) (arg2 : Memref sig .tc .vmem S1x4x8x25600 .f32) (harg2 : arg2.IsWhole) (arg3 : Memref sig .tc .vmem S1x1x8x25600 .i32) (harg3 : arg3.IsWhole) (arg4 : Memref sig .tc .vmem S1x1x8x25600 .f32) (harg4 : arg4.IsWhole) (arg5 : Memref sig .tc .vmem S1x1x8x25600 .i32) (harg5 : arg5.IsWhole) (arg6 : Memref sig .tc .vmem S1x4x3 .f32) (harg6 : arg6.IsWhole) (arg7 : Memref sig .tc .vmem S1x1x4 .f32) (harg7 : arg7.IsWhole) (arg8 : Memref sig .tc .vmem S4x3 .f32) (harg8 : arg8.IsWhole) (arg9 : Memref sig .tc .vmem S1x4 .f32) (harg9 : arg9.IsWhole) (hc0 : cond0_0 i) (hc1 : ¬cond0_1 i)
    (x0 : Vec F S1x4x8x25600 .f32) (x1 : Vec F S1x1x8x25600 .i32) (x2 : Vec F S1x1x8x25600 .f32) (x3 : Vec F S1x1x8x25600 .i32) :
    sout0_A_1 (F := F) c i arg2 harg2 arg3 harg3 arg4 harg4 arg5 harg5 arg6 harg6 arg7 harg7 arg8 harg8 arg9 harg9 hc0 hc1 x0 x1 x2 x3 = Step.edgeStep (k0_pay5 (F := F)) x2 x3 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x4) hz2, readCov_whole (S := S1x4) _ hz2, View.canon_unit_zero (S := S1x4) hz2]
  simp only [View.readAt_eq_ld, Memref.IsWhole.read_unread, View.ld_unit_zero (S := S1x1x8x25600) hz4,
    View.ld_unit_zero (S := S1x4) hz2]
  rfl

/-- A middle depth tile: each row of the 4×3 totals found is replaced by itself plus the tile's three totals of its class
    (a row's load reads the totals found, the earlier rows' stores lying elsewhere). -/
theorem sout_B_0 (c : Dev nD) (i : grid0.Coords) (arg2 : Memref sig .tc .vmem S1x4x8x25600 .f32) (harg2 : arg2.IsWhole) (arg3 : Memref sig .tc .vmem S1x1x8x25600 .i32) (harg3 : arg3.IsWhole) (arg4 : Memref sig .tc .vmem S1x1x8x25600 .f32) (harg4 : arg4.IsWhole) (arg5 : Memref sig .tc .vmem S1x1x8x25600 .i32) (harg5 : arg5.IsWhole) (arg6 : Memref sig .tc .vmem S1x4x3 .f32) (harg6 : arg6.IsWhole) (arg7 : Memref sig .tc .vmem S1x1x4 .f32) (harg7 : arg7.IsWhole) (arg8 : Memref sig .tc .vmem S4x3 .f32) (harg8 : arg8.IsWhole) (arg9 : Memref sig .tc .vmem S1x4 .f32) (harg9 : arg9.IsWhole) (hc0 : ¬cond0_0 i) (hc1 : ¬cond0_1 i)
    (x0 : Vec F S1x4x8x25600 .f32) (x1 : Vec F S1x1x8x25600 .i32) (x2 : Vec F S1x1x8x25600 .f32) (x3 : Vec F S1x1x8x25600 .i32) (xs0 : Vec F S4x3 .f32) (xs1 : Vec F S1x4 .f32) :
    sout0_B_0 (F := F) c i arg2 harg2 arg3 harg3 arg4 harg4 arg5 harg5 arg6 harg6 arg7 harg7 arg8 harg8 arg9 harg9 hc0 hc1 x0 x1 x2 x3 xs0 xs1 = Step.diceStep xs0 x0 x1 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  simp only [View.readAt_eq_ld, Memref.IsWhole.read_unread, View.ld_unit_zero (S := S1x4x8x25600) hz4,
    View.ld_unit_zero (S := S1x1x8x25600) hz4,
    ld_row (Val := Elt F) _ 0 0 rfl, ld_row (Val := Elt F) _ 1 1 rfl, ld_row (Val := Elt F) _ 2 2 rfl,
    ld_row (Val := Elt F) _ 3 3 rfl]
  funext y
  obtain ⟨c, q, rfl⟩ : ∃ c q, y = ix2 c q := ⟨y 0, y 1, eq_ix2 y⟩
  fin_cases c
  · exact (canon_row0 _ _ _ _ _ _ _ _ _ _ rfl q).trans rfl
  · exact (canon_row1 _ _ _ _ _ _ _ _ _ _ rfl q).trans rfl
  · exact (canon_row2 _ _ _ _ _ _ _ _ _ _ rfl q).trans rfl
  · exact (canon_row3 _ _ _ _ _ _ _ _ _ _ rfl q).trans rfl

/-- A middle depth tile: the 1×4 totals found plus the tile's four edge totals. -/
theorem sout_B_1 (c : Dev nD) (i : grid0.Coords) (arg2 : Memref sig .tc .vmem S1x4x8x25600 .f32) (harg2 : arg2.IsWhole) (arg3 : Memref sig .tc .vmem S1x1x8x25600 .i32) (harg3 : arg3.IsWhole) (arg4 : Memref sig .tc .vmem S1x1x8x25600 .f32) (harg4 : arg4.IsWhole) (arg5 : Memref sig .tc .vmem S1x1x8x25600 .i32) (harg5 : arg5.IsWhole) (arg6 : Memref sig .tc .vmem S1x4x3 .f32) (harg6 : arg6.IsWhole) (arg7 : Memref sig .tc .vmem S1x1x4 .f32) (harg7 : arg7.IsWhole) (arg8 : Memref sig .tc .vmem S4x3 .f32) (harg8 : arg8.IsWhole) (arg9 : Memref sig .tc .vmem S1x4 .f32) (harg9 : arg9.IsWhole) (hc0 : ¬cond0_0 i) (hc1 : ¬cond0_1 i)
    (x0 : Vec F S1x4x8x25600 .f32) (x1 : Vec F S1x1x8x25600 .i32) (x2 : Vec F S1x1x8x25600 .f32) (x3 : Vec F S1x1x8x25600 .i32) (xs0 : Vec F S4x3 .f32) (xs1 : Vec F S1x4 .f32) :
    sout0_B_1 (F := F) c i arg2 harg2 arg3 harg3 arg4 harg4 arg5 harg5 arg6 harg6 arg7 harg7 arg8 harg8 arg9 harg9 hc0 hc1 x0 x1 x2 x3 xs0 xs1 = Step.edgeStep xs1 x2 x3 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero (S := S1x4) hz2]
  simp only [View.readAt_eq_ld, Memref.IsWhole.read_unread, View.ld_unit_zero (S := S1x1x8x25600) hz4,
    View.ld_unit_zero (S := S1x4) hz2]
  rfl

/-- The last depth tile leaves the 4×3 totals one step on, as a middle tile does, -/
theorem sout_C_0 (c : Dev nD) (i : grid0.Coords) (arg2 : Memref sig .tc .vmem S1x4x8x25600 .f32) (harg2 : arg2.IsWhole) (arg3 : Memref sig .tc .vmem S1x1x8x25600 .i32) (harg3 : arg3.IsWhole) (arg4 : Memref sig .tc .vmem S1x1x8x25600 .f32) (harg4 : arg4.IsWhole) (arg5 : Memref sig .tc .vmem S1x1x8x25600 .i32) (harg5 : arg5.IsWhole) (arg6 : Memref sig .tc .vmem S1x4x3 .f32) (harg6 : arg6.IsWhole) (arg7 : Memref sig .tc .vmem S1x1x4 .f32) (harg7 : arg7.IsWhole) (arg8 : Memref sig .tc .vmem S4x3 .f32) (harg8 : arg8.IsWhole) (arg9 : Memref sig .tc .vmem S1x4 .f32) (harg9 : arg9.IsWhole) (hc0 : ¬cond0_0 i) (hc1 : cond0_1 i)
    (x0 : Vec F S1x4x8x25600 .f32) (x1 : Vec F S1x1x8x25600 .i32) (x2 : Vec F S1x1x8x25600 .f32) (x3 : Vec F S1x1x8x25600 .i32) (xs0 : Vec F S4x3 .f32) (xs1 : Vec F S1x4 .f32) :
    sout0_C_0 (F := F) c i arg2 harg2 arg3 harg3 arg4 harg4 arg5 harg5 arg6 harg6 arg7 harg7 arg8 harg8 arg9 harg9 hc0 hc1 x0 x1 x2 x3 xs0 xs1 = Step.diceStep xs0 x0 x1 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  simp only [View.readAt_eq_ld, Memref.IsWhole.read_unread, View.ld_unit_zero (S := S1x4x8x25600) hz4,
    View.ld_unit_zero (S := S1x1x8x25600) hz4,
    ld_row (Val := Elt F) _ 0 0 rfl, ld_row (Val := Elt F) _ 1 1 rfl, ld_row (Val := Elt F) _ 2 2 rfl,
    ld_row (Val := Elt F) _ 3 3 rfl]
  funext y
  obtain ⟨c, q, rfl⟩ : ∃ c q, y = ix2 c q := ⟨y 0, y 1, eq_ix2 y⟩
  fin_cases c
  · exact (canon_row0 _ _ _ _ _ _ _ _ _ _ rfl q).trans rfl
  · exact (canon_row1 _ _ _ _ _ _ _ _ _ _ rfl q).trans rfl
  · exact (canon_row2 _ _ _ _ _ _ _ _ _ _ rfl q).trans rfl
  · exact (canon_row3 _ _ _ _ _ _ _ _ _ _ rfl q).trans rfl

/-- and the 1×4 totals likewise; -/
theorem sout_C_1 (c : Dev nD) (i : grid0.Coords) (arg2 : Memref sig .tc .vmem S1x4x8x25600 .f32) (harg2 : arg2.IsWhole) (arg3 : Memref sig .tc .vmem S1x1x8x25600 .i32) (harg3 : arg3.IsWhole) (arg4 : Memref sig .tc .vmem S1x1x8x25600 .f32) (harg4 : arg4.IsWhole) (arg5 : Memref sig .tc .vmem S1x1x8x25600 .i32) (harg5 : arg5.IsWhole) (arg6 : Memref sig .tc .vmem S1x4x3 .f32) (harg6 : arg6.IsWhole) (arg7 : Memref sig .tc .vmem S1x1x4 .f32) (harg7 : arg7.IsWhole) (arg8 : Memref sig .tc .vmem S4x3 .f32) (harg8 : arg8.IsWhole) (arg9 : Memref sig .tc .vmem S1x4 .f32) (harg9 : arg9.IsWhole) (hc0 : ¬cond0_0 i) (hc1 : cond0_1 i)
    (x0 : Vec F S1x4x8x25600 .f32) (x1 : Vec F S1x1x8x25600 .i32) (x2 : Vec F S1x1x8x25600 .f32) (x3 : Vec F S1x1x8x25600 .i32) (xs0 : Vec F S4x3 .f32) (xs1 : Vec F S1x4 .f32) :
    sout0_C_1 (F := F) c i arg2 harg2 arg3 harg3 arg4 harg4 arg5 harg5 arg6 harg6 arg7 harg7 arg8 harg8 arg9 harg9 hc0 hc1 x0 x1 x2 x3 xs0 xs1 = Step.edgeStep xs1 x2 x3 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S1x4) hz2]
  simp only [View.readAt_eq_ld, Memref.IsWhole.read_unread, View.ld_unit_zero (S := S1x1x8x25600) hz4,
    View.ld_unit_zero (S := S1x4) hz2]
  rfl

/-- the first output is the copy of the 4×3 totals after that step (the copy reads all four rows just stored), -/
theorem out_C_4 (c : Dev nD) (i : grid0.Coords) (arg2 : Memref sig .tc .vmem S1x4x8x25600 .f32) (harg2 : arg2.IsWhole) (arg3 : Memref sig .tc .vmem S1x1x8x25600 .i32) (harg3 : arg3.IsWhole) (arg4 : Memref sig .tc .vmem S1x1x8x25600 .f32) (harg4 : arg4.IsWhole) (arg5 : Memref sig .tc .vmem S1x1x8x25600 .i32) (harg5 : arg5.IsWhole) (arg6 : Memref sig .tc .vmem S1x4x3 .f32) (harg6 : arg6.IsWhole) (arg7 : Memref sig .tc .vmem S1x1x4 .f32) (harg7 : arg7.IsWhole) (arg8 : Memref sig .tc .vmem S4x3 .f32) (harg8 : arg8.IsWhole) (arg9 : Memref sig .tc .vmem S1x4 .f32) (harg9 : arg9.IsWhole) (hc0 : ¬cond0_0 i) (hc1 : cond0_1 i)
    (x0 : Vec F S1x4x8x25600 .f32) (x1 : Vec F S1x1x8x25600 .i32) (x2 : Vec F S1x1x8x25600 .f32) (x3 : Vec F S1x1x8x25600 .i32) (xs0 : Vec F S4x3 .f32) (xs1 : Vec F S1x4 .f32) :
    out0_C_4 (F := F) c i arg2 harg2 arg3 harg3 arg4 harg4 arg5 harg5 arg6 harg6 arg7 harg7 arg8 harg8 arg9 harg9 hc0 hc1 x0 x1 x2 x3 xs0 xs1 = k0_pay2 (Step.diceStep xs0 x0 x1) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S1x4x3) hz3, readCov_whole (S := S4x3) _ hz2]
  refine congrArg k0_pay2 ?_
  simp only [View.readAt_eq_ld, Memref.IsWhole.read_unread, View.ld_unit_zero (S := S1x4x8x25600) hz4,
    View.ld_unit_zero (S := S1x1x8x25600) hz4,
    ld_row (Val := Elt F) _ 0 0 rfl, ld_row (Val := Elt F) _ 1 1 rfl, ld_row (Val := Elt F) _ 2 2 rfl,
    ld_row (Val := Elt F) _ 3 3 rfl]
  funext y
  obtain ⟨c, q, rfl⟩ : ∃ c q, y = ix2 c q := ⟨y 0, y 1, eq_ix2 y⟩
  fin_cases c
  · exact (canon_row0 _ _ _ _ _ _ _ _ _ _ rfl q).trans rfl
  · exact (canon_row1 _ _ _ _ _ _ _ _ _ _ rfl q).trans rfl
  · exact (canon_row2 _ _ _ _ _ _ _ _ _ _ rfl q).trans rfl
  · exact (canon_row3 _ _ _ _ _ _ _ _ _ _ rfl q).trans rfl

/-- and the second output the copy of the 1×4 totals after theirs. -/
theorem out_C_5 (c : Dev nD) (i : grid0.Coords) (arg2 : Memref sig .tc .vmem S1x4x8x25600 .f32) (harg2 : arg2.IsWhole) (arg3 : Memref sig .tc .vmem S1x1x8x25600 .i32) (harg3 : arg3.IsWhole) (arg4 : Memref sig .tc .vmem S1x1x8x25600 .f32) (harg4 : arg4.IsWhole) (arg5 : Memref sig .tc .vmem S1x1x8x25600 .i32) (harg5 : arg5.IsWhole) (arg6 : Memref sig .tc .vmem S1x4x3 .f32) (harg6 : arg6.IsWhole) (arg7 : Memref sig .tc .vmem S1x1x4 .f32) (harg7 : arg7.IsWhole) (arg8 : Memref sig .tc .vmem S4x3 .f32) (harg8 : arg8.IsWhole) (arg9 : Memref sig .tc .vmem S1x4 .f32) (harg9 : arg9.IsWhole) (hc0 : ¬cond0_0 i) (hc1 : cond0_1 i)
    (x0 : Vec F S1x4x8x25600 .f32) (x1 : Vec F S1x1x8x25600 .i32) (x2 : Vec F S1x1x8x25600 .f32) (x3 : Vec F S1x1x8x25600 .i32) (xs0 : Vec F S4x3 .f32) (xs1 : Vec F S1x4 .f32) :
    out0_C_5 (F := F) c i arg2 harg2 arg3 harg3 arg4 harg4 arg5 harg5 arg6 harg6 arg7 harg7 arg8 harg8 arg9 harg9 hc0 hc1 x0 x1 x2 x3 xs0 xs1 = k0_pay3 (Step.edgeStep xs1 x2 x3) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero (S := S1x1x4) hz3, readCov_whole (S := S1x4) _ hz2, View.canon_unit_zero (S := S1x4) hz2]
  refine congrArg k0_pay3 ?_
  simp only [View.readAt_eq_ld, Memref.IsWhole.read_unread, View.ld_unit_zero (S := S1x1x8x25600) hz4,
    View.ld_unit_zero (S := S1x4) hz2]
  rfl

end Cert.KernelIdeal.Pieces

end
-- ==== Proof.KBlocks.lean ====
/-
  Each input block of a grid point is a tile of an argument array.

  Grid point `t` of the 2 × 12 grid is batch `t / 12`, depth tile `t % 12`. The region finds each argument re-laid
  from [2, C, 96, 160, 160] to [2, C, 96, 25600] (the same row-major position: lane `l` is `(l / 160, l % 160)`), and
  a window's block at `t` is rows `8·(t % 12) … + 7` of batch `t / 12`. So the block's element `(c, r, l)` is the
  argument's element `(t / 12, c, 8·(t % 12) + r, l / 160, l % 160)`.
-/
import proofs.«420524_j90795608638213_4_alg».proof.Proof.Gen.KernelIdeal.Frame
import proofs.«420524_j90795608638213_4_alg».proof.Proof.KDefs
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Step Cert.Losses

theorem N24 : cfg0.N = 24 := N_0

/-- The batch of grid point `t`. -/
def nOf (t : Fin cfg0.N) : Fin 2 := ⟨t.val / 12, by have := t.isLt; have := N24; omega⟩
/-- The depth tile of grid point `t`. -/
def diOf (t : Fin cfg0.N) : Fin 12 := ⟨t.val % 12, by omega⟩

/-! ## The re-laid arrays read at an index -/

section Relay
variable {α : Type}

/-- [2,4,96,160,160] re-laid as [2,4,96,25600] at `(n, k, d, l)`: the operand at `(n, k, d, l / 160, l % 160)`. -/
theorem relay4_apply (x : S2x4x96x160x160.Idx → α) (h : S2x4x96x160x160.ShapeCasts S2x4x96x25600)
    (n : Fin 2) (k : Fin 4) (d : Fin 96) (l : Fin 25600) :
    shapeCast S2x4x96x25600 x h (ix4 n k d l) = x (ix5 n k d (hOf l) (wOf l)) :=
  shapeCast_apply x h _ _ (by
    rw [Shape.rowMajor_val_five, Shape.rowMajor_val_four]
    show ((((n.val * 4 + k.val) * 96 + d.val) * 160 + l.val / 160) * 160 + l.val % 160)
      = ((n.val * 4 + k.val) * 96 + d.val) * 25600 + l.val
    omega)

/-- [2,1,96,160,160] re-laid as [2,1,96,25600] at `(n, 0, d, l)`: the operand at `(n, 0, d, l / 160, l % 160)`. -/
theorem relay1_apply (x : S2x1x96x160x160.Idx → α) (h : S2x1x96x160x160.ShapeCasts S2x1x96x25600)
    (n : Fin 2) (u : Fin 1) (d : Fin 96) (l : Fin 25600) :
    shapeCast S2x1x96x25600 x h (ix4 n u d l) = x (ix5 n (0 : Fin 1) d (hOf l) (wOf l)) :=
  shapeCast_apply x h _ _ (by
    have hu : u.val = 0 := by omega
    rw [Shape.rowMajor_val_five, Shape.rowMajor_val_four]
    show ((((n.val * 1 + 0) * 96 + d.val) * 160 + l.val / 160) * 160 + l.val % 160)
      = ((n.val * 1 + u.val) * 96 + d.val) * 25600 + l.val
    omega)

end Relay

variable {F : FTy → Type} [FloatOps F]
variable (m : (ℓ : Loc nD τ sig) → Buf (Elt F) ℓ)

/-! ## What the region finds: each argument re-laid -/

theorem V_v0 (c : Dev nD) : (V m c main_v0 : S2x4x96x25600.Idx → Elt F .f32)
    = shapeCast S2x4x96x25600 (m ((c : Thread nD τ).loc main_arg0)) Facts₀.shapeCasts_S2x4x96x160x160_S2x4x96x25600 := by
  show StableHlo.after hostOps0 (fun b => m (c, b)) (Proc.devRef .tc main_v0) = _
  after_results
  rfl

theorem V_v1 (c : Dev nD) : (V m c main_v1 : S2x1x96x25600.Idx → Elt F .i32)
    = shapeCast S2x1x96x25600 (m ((c : Thread nD τ).loc main_arg2)) Facts₀.shapeCasts_S2x1x96x160x160_S2x1x96x25600 := by
  show StableHlo.after hostOps0 (fun b => m (c, b)) (Proc.devRef .tc main_v1) = _
  after_results
  rfl

theorem V_v2 (c : Dev nD) : (V m c main_v2 : S2x1x96x25600.Idx → Elt F .f32)
    = shapeCast S2x1x96x25600 (m ((c : Thread nD τ).loc main_arg1)) Facts₀.shapeCasts_S2x1x96x160x160_S2x1x96x25600 := by
  show StableHlo.after hostOps0 (fun b => m (c, b)) (Proc.devRef .tc main_v2) = _
  after_results
  rfl

theorem V_v3 (c : Dev nD) : (V m c main_v3 : S2x1x96x25600.Idx → Elt F .i32)
    = shapeCast S2x1x96x25600 (m ((c : Thread nD τ).loc main_arg3)) Facts₀.shapeCasts_S2x1x96x160x160_S2x1x96x25600 := by
  show StableHlo.after hostOps0 (fun b => m (c, b)) (Proc.devRef .tc main_v3) = _
  after_results
  rfl

/-! ## Where the windows sit at a grid point -/

theorem idx0 : ∀ t : Fin cfg0.N, win0_0.index t (0 : Fin 4) = t.val / 12 ∧ win0_0.index t (1 : Fin 4) = 0
    ∧ win0_0.index t (2 : Fin 4) = t.val % 12 ∧ win0_0.index t (3 : Fin 4) = 0 :=
  (by decide +kernel : ∀ t : Fin grid0.N, _)
theorem idx1 : ∀ t : Fin cfg0.N, win0_1.index t (0 : Fin 4) = t.val / 12 ∧ win0_1.index t (1 : Fin 4) = 0
    ∧ win0_1.index t (2 : Fin 4) = t.val % 12 ∧ win0_1.index t (3 : Fin 4) = 0 :=
  (by decide +kernel : ∀ t : Fin grid0.N, _)
theorem idx2 : ∀ t : Fin cfg0.N, win0_2.index t (0 : Fin 4) = t.val / 12 ∧ win0_2.index t (1 : Fin 4) = 0
    ∧ win0_2.index t (2 : Fin 4) = t.val % 12 ∧ win0_2.index t (3 : Fin 4) = 0 :=
  (by decide +kernel : ∀ t : Fin grid0.N, _)
theorem idx3 : ∀ t : Fin cfg0.N, win0_3.index t (0 : Fin 4) = t.val / 12 ∧ win0_3.index t (1 : Fin 4) = 0
    ∧ win0_3.index t (2 : Fin 4) = t.val % 12 ∧ win0_3.index t (3 : Fin 4) = 0 :=
  (by decide +kernel : ∀ t : Fin grid0.N, _)

/-! ## A block's element is the found array's element -/

theorem blk0 (c : Dev nD) (t : Fin cfg0.N) (k : Fin 4) (r : Fin 8) (l : Fin 25600) :
    iblk m c 0 t (ix4 0 k r l) = V m c main_v0 (ix4 (nOf t) k (dOf (diOf t) r) l) := by
  have hi := idx0 t
  unfold iblk
  rw [View.read_apply]
  show V m c main_v0 _ = V m c main_v0 _
  congr 1
  funext a
  apply Fin.ext
  match a with
  | ⟨0, _⟩ => show win0_0.index t 0 * 1 + 1 * 0 = t.val / 12; rw [hi.1]; omega
  | ⟨1, _⟩ => show win0_0.index t 1 * 4 + 1 * k.val = k.val; rw [hi.2.1]; omega
  | ⟨2, _⟩ => show win0_0.index t 2 * 8 + 1 * r.val = 8 * (t.val % 12) + r.val; rw [hi.2.2.1]; omega
  | ⟨3, _⟩ => show win0_0.index t 3 * 25600 + 1 * l.val = l.val; rw [hi.2.2.2]; omega

theorem blk1 (c : Dev nD) (t : Fin cfg0.N) (r : Fin 8) (l : Fin 25600) :
    iblk m c 1 t (ix4 0 0 r l) = V m c main_v1 (ix4 (nOf t) 0 (dOf (diOf t) r) l) := by
  have hi := idx1 t
  unfold iblk
  rw [View.read_apply]
  show V m c main_v1 _ = V m c main_v1 _
  congr 1
  funext a
  apply Fin.ext
  match a with
  | ⟨0, _⟩ => show win0_1.index t 0 * 1 + 1 * 0 = t.val / 12; rw [hi.1]; omega
  | ⟨1, _⟩ => show win0_1.index t 1 * 1 + 1 * 0 = 0; rw [hi.2.1]
  | ⟨2, _⟩ => show win0_1.index t 2 * 8 + 1 * r.val = 8 * (t.val % 12) + r.val; rw [hi.2.2.1]; omega
  | ⟨3, _⟩ => show win0_1.index t 3 * 25600 + 1 * l.val = l.val; rw [hi.2.2.2]; omega

theorem blk2 (c : Dev nD) (t : Fin cfg0.N) (r : Fin 8) (l : Fin 25600) :
    iblk m c 2 t (ix4 0 0 r l) = V m c main_v2 (ix4 (nOf t) 0 (dOf (diOf t) r) l) := by
  have hi := idx2 t
  unfold iblk
  rw [View.read_apply]
  show V m c main_v2 _ = V m c main_v2 _
  congr 1
  funext a
  apply Fin.ext
  match a with
  | ⟨0, _⟩ => show win0_2.index t 0 * 1 + 1 * 0 = t.val / 12; rw [hi.1]; omega
  | ⟨1, _⟩ => show win0_2.index t 1 * 1 + 1 * 0 = 0; rw [hi.2.1]
  | ⟨2, _⟩ => show win0_2.index t 2 * 8 + 1 * r.val = 8 * (t.val % 12) + r.val; rw [hi.2.2.1]; omega
  | ⟨3, _⟩ => show win0_2.index t 3 * 25600 + 1 * l.val = l.val; rw [hi.2.2.2]; omega

theorem blk3 (c : Dev nD) (t : Fin cfg0.N) (r : Fin 8) (l : Fin 25600) :
    iblk m c 3 t (ix4 0 0 r l) = V m c main_v3 (ix4 (nOf t) 0 (dOf (diOf t) r) l) := by
  have hi := idx3 t
  unfold iblk
  rw [View.read_apply]
  show V m c main_v3 _ = V m c main_v3 _
  congr 1
  funext a
  apply Fin.ext
  match a with
  | ⟨0, _⟩ => show win0_3.index t 0 * 1 + 1 * 0 = t.val / 12; rw [hi.1]; omega
  | ⟨1, _⟩ => show win0_3.index t 1 * 1 + 1 * 0 = 0; rw [hi.2.1]
  | ⟨2, _⟩ => show win0_3.index t 2 * 8 + 1 * r.val = 8 * (t.val % 12) + r.val; rw [hi.2.2.1]; omega
  | ⟨3, _⟩ => show win0_3.index t 3 * 25600 + 1 * l.val = l.val; rw [hi.2.2.2]; omega

end Cert.KernelIdeal.Blocks

/-! ## At the ideal instance: the blocks are the tiles of the arguments -/

namespace Cert.KernelIdeal.Blocks

open Cert.KernelIdeal Cert.KernelIdeal.Gen Cert.KernelIdeal.Step Cert.Losses

variable (m : (ℓ : Loc nD τ sig) → Buf (Elt Ideal) ℓ)

/-- The class logits, class labels, edge logits and edge labels of core `c`'s arguments, by coordinates. -/
def segK (c : Dev nD) : Seg := fun n k d h w => m ((c : Thread nD τ).loc main_arg0) (ix5 n k d h w)
def labK (c : Dev nD) : Lab := fun n d h w => m ((c : Thread nD τ).loc main_arg2) (ix5 n 0 d h w)
def edgK (c : Dev nD) : Edg := fun n d h w => m ((c : Thread nD τ).loc main_arg1) (ix5 n 0 d h w)
def elabK (c : Dev nD) : Lab := fun n d h w => m ((c : Thread nD τ).loc main_arg3) (ix5 n 0 d h w)

theorem seg_tile (c : Dev nD) (t : Fin cfg0.N) :
    segOf (iblk m c 0 t) = segTile (segK m c) (nOf t) (diOf t) := by
  funext k r l
  show iblk m c 0 t (ix4 0 k r l) = _
  rw [blk0, V_v0, relay4_apply]
  rfl

theorem lab_tile (c : Dev nD) (t : Fin cfg0.N) :
    labOf (iblk m c 1 t) = labTile (labK m c) (nOf t) (diOf t) := by
  funext r l
  show iblk m c 1 t (ix4 0 0 r l) = _
  rw [blk1, V_v1, relay1_apply]
  rfl

theorem edg_tile (c : Dev nD) (t : Fin cfg0.N) :
    edgOf (iblk m c 2 t) = edgTile (edgK m c) (nOf t) (diOf t) := by
  funext r l
  show iblk m c 2 t (ix4 0 0 r l) = _
  rw [blk2, V_v2, relay1_apply]
  rfl

theorem elab_tile (c : Dev nD) (t : Fin cfg0.N) :
    labOf (iblk m c 3 t) = labTile (elabK m c) (nOf t) (diOf t) := by
  funext r l
  show iblk m c 3 t (ix4 0 0 r l) = _
  rw [blk3, V_v3, relay1_apply]
  rfl

end Cert.KernelIdeal.Blocks

end
-- ==== Proof.KInduct.lean ====
/-
  What the two running totals hold after each grid point.

  A grid point `n` is depth tile `n % 12` of batch `n / 12`. The first depth tile of a batch starts both totals from
  zero, every tile adds its own totals, so after point `n` each total is the sum of the tiles `n - n % 12 … n` of the
  batch — by induction on the point. At the last depth tile the totals are copied to the two output blocks.
-/
import proofs.«420524_j90795608638213_4_alg».proof.Proof.KPieces
import proofs.«420524_j90795608638213_4_alg».proof.Proof.KBlocks
import Mathlib.Algebra.BigOperators.Intervals

noncomputable section

open scoped BigOperators
open Idealize.ShloMosaic Idealize.ShloMosaic.TcCoe Idealize.SL.Sem Idealize.ShloMosaic.ValueIdx
open Idealize.ShloMosaic.Pipeline (Dat)

namespace Cert.KernelIdeal.Induct

open Cert.KernelIdeal Cert.KernelIdeal.Gen Cert.KernelIdeal.Step Cert.KernelIdeal.Blocks Cert.Losses

/-- A step of the 4×3 running total adds the tile's dice totals, entry by entry. -/
def DiceStepLaw : Prop :=
  ∀ (xs : Vec Ideal S4x3 .f32) (x0 : Vec Ideal S1x4x8x25600 .f32) (x1 : Vec Ideal S1x1x8x25600 .i32) (k : Fin 4) (j : Fin 3),
    Step.diceStep (F := Ideal) xs x0 x1 (ix2 k j) = xs (ix2 k j) + tileDice (segOf x0) (labOf x1) k j

/-- A step of the 1×4 running total adds the tile's edge totals, entry by entry. -/
def EdgeStepLaw : Prop :=
  ∀ (xs : Vec Ideal S1x4 .f32) (x2 : Vec Ideal S1x1x8x25600 .f32) (x3 : Vec Ideal S1x1x8x25600 .i32) (j : Fin 4),
    Step.edgeStep (F := Ideal) xs x2 x3 (ix2 0 j) = xs (ix2 0 j) + tileEdge (edgOf x2) (labOf x3) j

/-- The zero block the first depth tile stores into the 4×3 total. -/
theorem pay4_apply (y : S4x3.Idx) : k0_pay4 (F := Ideal) y = 0 := by
  unfold k0_pay4
  rw [shapeCast_self]
  exact Ideal.ofBits_zero_f32

/-- The zero block the first depth tile stores into the 1×4 total. -/
theorem pay5_apply (y : S1x4.Idx) : k0_pay5 (F := Ideal) y = 0 := by
  unfold k0_pay5
  rw [shapeCast_self]
  exact Ideal.ofBits_zero_f32

variable (m : (ℓ : Loc nD τ sig) → Buf (Elt Ideal) ℓ)

/-- The dice totals of the tile of grid point `t` (zero past the grid). -/
def Tdice (c : Dev nD) (t : ℕ) (k : Fin 4) (j : Fin 3) : EReal :=
  if h : t < cfg0.N then tileDice (segOf (iblk m c 0 ⟨t, h⟩)) (labOf (iblk m c 1 ⟨t, h⟩)) k j else 0

/-- The edge totals of the tile of grid point `t` (zero past the grid). -/
def Tedge (c : Dev nD) (t : ℕ) (j : Fin 4) : EReal :=
  if h : t < cfg0.N then tileEdge (edgOf (iblk m c 2 ⟨t, h⟩)) (labOf (iblk m c 3 ⟨t, h⟩)) j else 0

/-- One point's effect on the 4×3 total: from zero at a first depth tile, else from what the point before left. -/
theorem dice_step (hD : DiceStepLaw) (c : Dev nD) (n : ℕ) (h : n < cfg0.N) (k : Fin 4) (j : Fin 3) :
    (outsAt0 m c n h).2.2.1 (ix2 k j)
      = (if n % 12 = 0 then 0 else (outsAt0 m c (n - 1) (Nat.lt_of_le_of_lt (Nat.sub_le _ _) h)).2.2.1 (ix2 k j))
        + Tdice m c n k j := by
  have hT : Tdice m c n k j = tileDice (segOf (iblk m c 0 ⟨n, h⟩)) (labOf (iblk m c 1 ⟨n, h⟩)) k j := dif_pos h
  by_cases h0 : n % 12 = 0
  · have h1 : ¬ n % 12 = 11 := by omega
    rw [if_pos h0, hT, outsAt0_A m c ⟨n, h⟩ h0 h1]
    dsimp only
    rw [Pieces.sout_A_0, hD, pay4_apply]
  · rw [if_neg h0, hT]
    by_cases h1 : n % 12 = 11
    · rw [outsAt0_C m c ⟨n, h⟩ h0 h1]
      dsimp only
      rw [Pieces.sout_C_0, hD]
    · rw [outsAt0_B m c ⟨n, h⟩ h0 h1]
      dsimp only
      rw [Pieces.sout_B_0, hD]

/-- One point's effect on the 1×4 total. -/
theorem edge_step (hE : EdgeStepLaw) (c : Dev nD) (n : ℕ) (h : n < cfg0.N) (j : Fin 4) :
    (outsAt0 m c n h).2.2.2 (ix2 0 j)
      = (if n % 12 = 0 then 0 else (outsAt0 m c (n - 1) (Nat.lt_of_le_of_lt (Nat.sub_le _ _) h)).2.2.2 (ix2 0 j))
        + Tedge m c n j := by
  have hT : Tedge m c n j = tileEdge (edgOf (iblk m c 2 ⟨n, h⟩)) (labOf (iblk m c 3 ⟨n, h⟩)) j := dif_pos h
  by_cases h0 : n % 12 = 0
  · have h1 : ¬ n % 12 = 11 := by omega
    rw [if_pos h0, hT, outsAt0_A m c ⟨n, h⟩ h0 h1]
    dsimp only
    rw [Pieces.sout_A_1, hE, pay5_apply]
  · rw [if_neg h0, hT]
    by_cases h1 : n % 12 = 11
    · rw [outsAt0_C m c ⟨n, h⟩ h0 h1]
      dsimp only
      rw [Pieces.sout_C_1, hE]
    · rw [outsAt0_B m c ⟨n, h⟩ h0 h1]
      dsimp only
      rw [Pieces.sout_B_1, hE]

/-- A quantity that restarts from zero at the multiples of 12 and otherwise adds `T n` to its predecessor is, at `n`,
    the sum of `T` over the points `n - n % 12 … n`. -/
theorem run_sum (f T : ℕ → EReal) (N : ℕ)
    (hstep : ∀ n, n < N → f n = (if n % 12 = 0 then 0 else f (n - 1)) + T n) :
    ∀ n, n < N → f n = ∑ i ∈ Finset.range (n % 12 + 1), T (n - n % 12 + i) := by
  intro n
  induction n using Nat.strong_induction_on with
  | _ n ih =>
    intro hn
    rw [hstep n hn]
    by_cases h0 : n % 12 = 0
    · rw [if_pos h0, h0, zero_add, Nat.sub_zero, Finset.sum_range_one, Nat.add_zero]
    · rw [if_neg h0, ih (n - 1) (by omega) (by omega)]
      have e1 : (n - 1) % 12 + 1 = n % 12 := by omega
      have e2 : n - 1 - (n - 1) % 12 = n - n % 12 := by omega
      have e3 : n - n % 12 + n % 12 = n := by omega
      rw [e1, e2, Finset.sum_range_succ, e3]

/-- After point `n` the 4×3 total is the sum of the dice totals of the batch's tiles so far. -/
theorem dice_acc (hD : DiceStepLaw) (c : Dev nD) (k : Fin 4) (j : Fin 3) (n : ℕ) (h : n < cfg0.N) :
    (outsAt0 m c n h).2.2.1 (ix2 k j) = ∑ i ∈ Finset.range (n % 12 + 1), Tdice m c (n - n % 12 + i) k j := by
  have := run_sum (fun n => if h : n < cfg0.N then (outsAt0 m c n h).2.2.1 (ix2 k j) else 0) (fun n => Tdice m c n k j) cfg0.N
    (fun n hn => by
      have hn1 : n - 1 < cfg0.N := Nat.lt_of_le_of_lt (Nat.sub_le _ _) hn
      simp only [dif_pos hn, dif_pos hn1]
      exact dice_step m hD c n hn k j) n h
  simpa only [dif_pos h] using this

/-- After point `n` the 1×4 total is the sum of the edge totals of the batch's tiles so far. -/
theorem edge_acc (hE : EdgeStepLaw) (c : Dev nD) (j : Fin 4) (n : ℕ) (h : n < cfg0.N) :
    (outsAt0 m c n h).2.2.2 (ix2 0 j) = ∑ i ∈ Finset.range (n % 12 + 1), Tedge m c (n - n % 12 + i) j := by
  have := run_sum (fun n => if h : n < cfg0.N then (outsAt0 m c n h).2.2.2 (ix2 0 j) else 0) (fun n => Tedge m c n j) cfg0.N
    (fun n hn => by
      have hn1 : n - 1 < cfg0.N := Nat.lt_of_le_of_lt (Nat.sub_le _ _) hn
      simp only [dif_pos hn, dif_pos hn1]
      exact edge_step m hE c n hn j) n h
  simpa only [dif_pos h] using this

end Cert.KernelIdeal.Induct

end
-- ==== Proof.KFinal.lean ====
/-
  The two arrays the region leaves: per batch, the dice totals [2,4,3] and the edge totals [2,1,4].

  The only points that write a block back are the last depth tiles of the two batches (`n % 12 = 11`); the block of
  batch `n / 12` then holds the batch's totals over all twelve tiles, and the two blocks cover each array.
-/
import proofs.«420524_j90795608638213_4_alg».proof.Proof.KInduct
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Step Cert.KernelIdeal.Blocks Cert.KernelIdeal.Induct Cert.Losses

section AnyF
variable {F : FTy → Type} [FloatOps F]

/-- The 4×3 total re-laid as the 1×4×3 output block reads the same entries. -/
theorem pay2_apply (v : Vec F S4x3 .f32) (k : Fin 4) (j : Fin 3) : k0_pay2 v (ix3 0 k j) = v (ix2 k j) :=
  shapeCast_apply v _ _ _ (by
    rw [Shape.rowMajor_val_two, Shape.rowMajor_val_three]
    show k.val * 3 + j.val = (0 * 4 + k.val) * 3 + j.val
    omega)

/-- The 1×4 total re-laid as the 1×1×4 output block reads the same entries. -/
theorem pay3_apply (v : Vec F S1x4 .f32) (j : Fin 4) : k0_pay3 v (ix3 0 0 j) = v (ix2 0 j) :=
  shapeCast_apply v _ _ _ (by
    rw [Shape.rowMajor_val_two, Shape.rowMajor_val_three]
    show 0 * 4 + j.val = (0 * 1 + 0) * 4 + j.val
    omega)

variable (m : (ℓ : Loc nD τ sig) → Buf (Elt F) ℓ)

/-- At a last depth tile the two output blocks are the two totals just updated. -/
theorem out4_eq (c : Dev nD) (n : ℕ) (h : n < cfg0.N) (h1 : n % 12 = 11) :
    (outsAt0 m c n h).1 = k0_pay2 ((outsAt0 m c n h).2.2.1) := by
  have h0 : ¬ n % 12 = 0 := by omega
  rw [outsAt0_C m c ⟨n, h⟩ h0 h1]
  dsimp only
  rw [Pieces.out_C_4, Pieces.sout_C_0]

theorem out5_eq (c : Dev nD) (n : ℕ) (h : n < cfg0.N) (h1 : n % 12 = 11) :
    (outsAt0 m c n h).2.1 = k0_pay3 ((outsAt0 m c n h).2.2.2) := by
  have h0 : ¬ n % 12 = 0 := by omega
  rw [outsAt0_C m c ⟨n, h⟩ h0 h1]
  dsimp only
  rw [Pieces.out_C_5, Pieces.sout_C_1]

end AnyF

variable (m : (ℓ : Loc nD τ sig) → Buf (Elt Ideal) ℓ)

/-- The dice totals of batch `n`: the sum over its twelve depth tiles. -/
def diceN (c : Dev nD) (n : Fin 2) (k : Fin 4) (j : Fin 3) : EReal :=
  ∑ di : Fin 12, tileDice (segTile (segK m c) n di) (labTile (labK m c) n di) k j
/-- The edge totals of batch `n`. -/
def edgeN (c : Dev nD) (n : Fin 2) (j : Fin 4) : EReal :=
  ∑ di : Fin 12, tileEdge (edgTile (edgK m c) n di) (labTile (elabK m c) n di) j

/-- The dice-totals array the region leaves. -/
def G4 (c : Dev nD) : FVec Ideal S2x4x3 .f32 :=
  fun i => diceN m c (i 0) (i 1) (i 2)
/-- The edge-totals array the region leaves. -/
def G5 (c : Dev nD) : FVec Ideal S2x1x4 .f32 :=
  fun i => edgeN m c (i 0) (i 2)

/-- The tile of grid point `12·q + di` is tile `di` of batch `q`. -/
theorem Tdice_eq (c : Dev nD) (q : Fin 2) (di : Fin 12) (k : Fin 4) (j : Fin 3) :
    Tdice m c (12 * q.val + di.val) k j = tileDice (segTile (segK m c) q di) (labTile (labK m c) q di) k j := by
  have h : 12 * q.val + di.val < cfg0.N := by rw [N24]; omega
  have e1 : nOf ⟨12 * q.val + di.val, h⟩ = q := Fin.ext (by show (12 * q.val + di.val) / 12 = q.val; omega)
  have e2 : diOf ⟨12 * q.val + di.val, h⟩ = di := Fin.ext (by show (12 * q.val + di.val) % 12 = di.val; omega)
  rw [Tdice, dif_pos h, seg_tile, lab_tile, e1, e2]

theorem Tedge_eq (c : Dev nD) (q : Fin 2) (di : Fin 12) (j : Fin 4) :
    Tedge m c (12 * q.val + di.val) j = tileEdge (edgTile (edgK m c) q di) (labTile (elabK m c) q di) j := by
  have h : 12 * q.val + di.val < cfg0.N := by rw [N24]; omega
  have e1 : nOf ⟨12 * q.val + di.val, h⟩ = q := Fin.ext (by show (12 * q.val + di.val) / 12 = q.val; omega)
  have e2 : diOf ⟨12 * q.val + di.val, h⟩ = di := Fin.ext (by show (12 * q.val + di.val) % 12 = di.val; omega)
  rw [Tedge, dif_pos h, edg_tile, elab_tile, e1, e2]

/-- At a last depth tile the 4×3 total is the batch's dice totals. -/
theorem dice_last (hD : DiceStepLaw) (c : Dev nD) (k : Fin 4) (j : Fin 3) (n : ℕ) (h : n < cfg0.N) (h1 : n % 12 = 11) :
    (outsAt0 m c n h).2.2.1 (ix2 k j) = diceN m c (nOf ⟨n, h⟩) k j := by
  rw [dice_acc m hD c k j n h, h1, Finset.sum_range]
  unfold diceN
  refine Finset.sum_congr rfl fun di _ => ?_
  have e : n - 11 + di.val = 12 * (nOf ⟨n, h⟩).val + di.val := by show n - 11 + di.val = 12 * (n / 12) + di.val; omega
  rw [e, Tdice_eq]

theorem edge_last (hE : EdgeStepLaw) (c : Dev nD) (j : Fin 4) (n : ℕ) (h : n < cfg0.N) (h1 : n % 12 = 11) :
    (outsAt0 m c n h).2.2.2 (ix2 0 j) = edgeN m c (nOf ⟨n, h⟩) j := by
  rw [edge_acc m hE c j n h, h1, Finset.sum_range]
  unfold edgeN
  refine Finset.sum_congr rfl fun di _ => ?_
  have e : n - 11 + di.val = 12 * (nOf ⟨n, h⟩).val + di.val := by show n - 11 + di.val = 12 * (n / 12) + di.val; omega
  rw [e, Tedge_eq]

/-! ## Where the two output windows sit -/

theorem idx4 : ∀ t : Fin cfg0.N, win0_4.index t (0 : Fin 3) = t.val / 12 ∧ win0_4.index t (1 : Fin 3) = 0
    ∧ win0_4.index t (2 : Fin 3) = 0 :=
  (by decide +kernel : ∀ t : Fin grid0.N, _)
theorem idx5 : ∀ t : Fin cfg0.N, win0_5.index t (0 : Fin 3) = t.val / 12 ∧ win0_5.index t (1 : Fin 3) = 0
    ∧ win0_5.index t (2 : Fin 3) = 0 :=
  (by decide +kernel : ∀ t : Fin grid0.N, _)
theorem xs4 : ∀ t : Fin cfg0.N, win0_4.xsize (grid0.coords t) (0 : Fin 3) = 1 ∧ win0_4.xsize (grid0.coords t) (1 : Fin 3) = 4
    ∧ win0_4.xsize (grid0.coords t) (2 : Fin 3) = 3 :=
  (by decide +kernel : ∀ t : Fin grid0.N, _)
theorem xs5 : ∀ t : Fin cfg0.N, win0_5.xsize (grid0.coords t) (0 : Fin 3) = 1 ∧ win0_5.xsize (grid0.coords t) (1 : Fin 3) = 1
    ∧ win0_5.xsize (grid0.coords t) (2 : Fin 3) = 4 :=
  (by decide +kernel : ∀ t : Fin grid0.N, _)

/-! ## What a flushing point writes back is its block of the totals -/

theorem flushed_eq4 (hD : DiceStepLaw) (c : Dev nD) (t : Fin cfg0.N) (hf : (cfg0.win 4).flush t = true) :
    (dats m 0 c).flushed 4 t = ((cfg0.win 4).blk t).view.read (Elt Ideal) (G4 m c) := by
  have h1 : t.val % 12 = 11 := (flush0_4 t).mp hf
  have hi := idx4 t
  show (cfg0.win 4).cut (grid0.coords t) ((dats m 0 c).after 4 t) = _
  rw [after0_4, out4_eq m c t.val t.isLt h1]
  funext y
  rw [View.read_apply]
  obtain ⟨u, k, j, rfl⟩ : ∃ (u : Fin 1) (k : Fin 4) (j : Fin 3), y = ix3 u k j := ⟨y 0, y 1, y 2, eq_ix3 y⟩
  obtain rfl : u = 0 := Fin.ext (by omega)
  show k0_pay2 (F := Ideal) _ (ix3 0 k j) = G4 m c _
  rw [pay2_apply, dice_last m hD c k j t.val t.isLt h1]
  show diceN m c (nOf t) k j = diceN m c _ _ _
  congr 1
  · apply Fin.ext
    show t.val / 12 = win0_4.index t 0 * 1 + 1 * 0
    rw [hi.1]; omega
  · apply Fin.ext
    show k.val = win0_4.index t 1 * 4 + 1 * k.val
    rw [hi.2.1]; omega
  · apply Fin.ext
    show j.val = win0_4.index t 2 * 3 + 1 * j.val
    rw [hi.2.2]; omega

theorem flushed_eq5 (hE : EdgeStepLaw) (c : Dev nD) (t : Fin cfg0.N) (hf : (cfg0.win 5).flush t = true) :
    (dats m 0 c).flushed 5 t = ((cfg0.win 5).blk t).view.read (Elt Ideal) (G5 m c) := by
  have h1 : t.val % 12 = 11 := (flush0_5 t).mp hf
  have hi := idx5 t
  show (cfg0.win 5).cut (grid0.coords t) ((dats m 0 c).after 5 t) = _
  rw [after0_5, out5_eq m c t.val t.isLt h1]
  funext y
  rw [View.read_apply]
  obtain ⟨u, u', j, rfl⟩ : ∃ (u : Fin 1) (u' : Fin 1) (j : Fin 4), y = ix3 u u' j := ⟨y 0, y 1, y 2, eq_ix3 y⟩
  obtain rfl : u = 0 := Fin.ext (by omega)
  obtain rfl : u' = 0 := Fin.ext (by omega)
  show k0_pay3 (F := Ideal) _ (ix3 0 0 j) = G5 m c _
  rw [pay3_apply, edge_last m hE c j t.val t.isLt h1]
  show edgeN m c (nOf t) j = edgeN m c _ _
  congr 1
  · apply Fin.ext
    show t.val / 12 = win0_5.index t 0 * 1 + 1 * 0
    rw [hi.1]; omega
  · apply Fin.ext
    show j.val = win0_5.index t 2 * 4 + 1 * j.val
    rw [hi.2.2]; omega

/-! ## The flushing points cover the arrays -/

/-- The last depth tile of batch `q`. -/
def lastOf (q : Fin 2) : Fin cfg0.N := ⟨12 * q.val + 11, by rw [N24]; omega⟩

theorem cover4 (c : Dev nD) (i : S2x4x3.Idx) :
    ∃ t : Fin cfg0.N, (cfg0.win 4).flush t = true ∧ i ∈ ((cfg0.win 4).blk t).view.set := by
  refine ⟨lastOf (i 0), (flush0_4 _).mpr (by show (12 * (i 0).val + 11) % 12 = 11; omega), ?_⟩
  have hi := idx4 (lastOf (i 0))
  have hx := xs4 (lastOf (i 0))
  have hq : (lastOf (i 0)).val / 12 = (i 0).val := by show (12 * (i 0).val + 11) / 12 = (i 0).val; omega
  show i ∈ ((View.whole main_v4_0).slice (win0_4.rect (lastOf (i 0)))).set
  rw [View.set_slice_whole, Rect.mem_set_unit]
  intro a
  have h0 : (i 0 : Nat) < 2 := (i 0).isLt
  have h1 : (i 1 : Nat) < 4 := (i 1).isLt
  have h2 : (i 2 : Nat) < 3 := (i 2).isLt
  match a with
  | ⟨0, _⟩ =>
    show win0_4.index (lastOf (i 0)) 0 * 1 ≤ (i 0 : Nat) ∧ (i 0 : Nat) < win0_4.index (lastOf (i 0)) 0 * 1 + win0_4.xsize (grid0.coords (lastOf (i 0))) 0
    rw [hi.1, hx.1, hq]; omega
  | ⟨1, _⟩ =>
    show win0_4.index (lastOf (i 0)) 1 * 4 ≤ (i 1 : Nat) ∧ (i 1 : Nat) < win0_4.index (lastOf (i 0)) 1 * 4 + win0_4.xsize (grid0.coords (lastOf (i 0))) 1
    rw [hi.2.1, hx.2.1]; omega
  | ⟨2, _⟩ =>
    show win0_4.index (lastOf (i 0)) 2 * 3 ≤ (i 2 : Nat) ∧ (i 2 : Nat) < win0_4.index (lastOf (i 0)) 2 * 3 + win0_4.xsize (grid0.coords (lastOf (i 0))) 2
    rw [hi.2.2, hx.2.2]; omega

theorem cover5 (c : Dev nD) (i : S2x1x4.Idx) :
    ∃ t : Fin cfg0.N, (cfg0.win 5).flush t = true ∧ i ∈ ((cfg0.win 5).blk t).view.set := by
  refine ⟨lastOf (i 0), (flush0_5 _).mpr (by show (12 * (i 0).val + 11) % 12 = 11; omega), ?_⟩
  have hi := idx5 (lastOf (i 0))
  have hx := xs5 (lastOf (i 0))
  have hq : (lastOf (i 0)).val / 12 = (i 0).val := by show (12 * (i 0).val + 11) / 12 = (i 0).val; omega
  show i ∈ ((View.whole main_v4_1).slice (win0_5.rect (lastOf (i 0)))).set
  rw [View.set_slice_whole, Rect.mem_set_unit]
  intro a
  have h0 : (i 0 : Nat) < 2 := (i 0).isLt
  have h1 : (i 1 : Nat) < 1 := (i 1).isLt
  have h2 : (i 2 : Nat) < 4 := (i 2).isLt
  match a with
  | ⟨0, _⟩ =>
    show win0_5.index (lastOf (i 0)) 0 * 1 ≤ (i 0 : Nat) ∧ (i 0 : Nat) < win0_5.index (lastOf (i 0)) 0 * 1 + win0_5.xsize (grid0.coords (lastOf (i 0))) 0
    rw [hi.1, hx.1, hq]; omega
  | ⟨1, _⟩ =>
    show win0_5.index (lastOf (i 0)) 1 * 1 ≤ (i 1 : Nat) ∧ (i 1 : Nat) < win0_5.index (lastOf (i 0)) 1 * 1 + win0_5.xsize (grid0.coords (lastOf (i 0))) 1
    rw [hi.2.1, hx.2.1]; omega
  | ⟨2, _⟩ =>
    show win0_5.index (lastOf (i 0)) 2 * 4 ≤ (i 2 : Nat) ∧ (i 2 : Nat) < win0_5.index (lastOf (i 0)) 2 * 4 + win0_5.xsize (grid0.coords (lastOf (i 0))) 2
    rw [hi.2.2, hx.2.2]; omega

/-! ## The arrays after the region -/

theorem final4 (hD : DiceStepLaw) (c : Dev nD) : (dats m 0 c).arrAt 4 cfg0.N = G4 m c :=
  (dats m 0 c).arrAt_eq_of_cover 4 (G4 m c) (flushed_eq4 m hD c) (cover4 c)

theorem final5 (hE : EdgeStepLaw) (c : Dev nD) : (dats m 0 c).arrAt 5 cfg0.N = G5 m c :=
  (dats m 0 c).arrAt_eq_of_cover 5 (G5 m c) (flushed_eq5 m hE c) (cover5 c)

end Cert.KernelIdeal.Final

end
-- ==== Proof.KTailDefs.lean ====
/-
  The host lines after the region as two pure functions of the region's two result arrays.

  From the per-batch dice totals [2,4,3]: summed over the batch axis, its three columns (intersection, probability
  total, label total) taken apart, `(2·I + ε) / ((P + O) + ε)` per class, summed over the classes, divided by four,
  taken from one, times one. From the per-batch edge totals [2,1,4]: summed over the batch axis, its four entries taken
  apart, the two class-balancing weights formed by division, the weighted sum divided by the voxel count, times one.
-/
import proofs.«420524_j90795608638213_4_alg».proof.Proof.Gen.KernelIdeal
import Idealize.ShloMosaic.PureOps

noncomputable section

namespace Cert.KernelIdeal.Tail

open Cert.KernelIdeal Idealize.ShloMosaic
open Cert.KernelIdeal.Facts₀

variable {F : FTy → Type} [FloatOps F]

/-- The region loss from the per-batch dice totals. -/
def tailR (D : FVec F S2x4x3 .f32) : FVec F S_ .f32 :=
  mulf (constant S_ .f32 0x3F800000#32) (subf (constant S_ .f32 0x3F800000#32)
    (Host.divf
      (Host.reduceAdd
        (Host.divf
          (addf (mulf (broadcastInDim S4 ![] bcast_S_S4 (constant S_ .f32 0x40000000#32))
              (shapeCast S4 (extractStridedSlice S4x1 ![0, 0] (Host.reduceAdd D (constant S_ .f32 0x00000000#32) reducesTo_S2x4x3_S4x3_d0 h_S_) slices_S4x3_S4x1_0_0) shapeCasts_S4x1_S4))
            (broadcastInDim S4 ![] bcast_S_S4 (constant S_ .f32 0x3727C5AC#32)))
          (addf (addf
              (shapeCast S4 (extractStridedSlice S4x1 ![0, 1] (Host.reduceAdd D (constant S_ .f32 0x00000000#32) reducesTo_S2x4x3_S4x3_d0 h_S_) slices_S4x3_S4x1_0_1) shapeCasts_S4x1_S4)
              (shapeCast S4 (extractStridedSlice S4x1 ![0, 2] (Host.reduceAdd D (constant S_ .f32 0x00000000#32) reducesTo_S2x4x3_S4x3_d0 h_S_) slices_S4x3_S4x1_0_2) shapeCasts_S4x1_S4))
            (broadcastInDim S4 ![] bcast_S_S4 (constant S_ .f32 0x3727C5AC#32))))
        (constant S_ .f32 0x00000000#32) reducesTo_S4_S_d0 h_S_)
      (constant S_ .f32 0x40800000#32)))

/-- Entry `j` of the edge totals summed over the batch axis, as a scalar. -/
def edgeEntry (E : FVec F S2x1x4 .f32) (off : Fin 1 → Nat) (h : S4.Slices off S1) : FVec F S_ .f32 :=
  shapeCast S_ (extractStridedSlice S1 off
    (shapeCast S4 (Host.reduceAdd E (constant S_ .f32 0x00000000#32) reducesTo_S2x1x4_S1x4_d0 h_S_) shapeCasts_S1x4_S4) h) shapeCasts_S1_S_

/-- The edge loss from the per-batch edge totals. -/
def tailE (E : FVec F S2x1x4 .f32) : FVec F S_ .f32 :=
  mulf (constant S_ .f32 0x3F800000#32)
    (Host.divf
      (addf
        (mulf (Host.divf (edgeEntry E ![1] slices_S4_S1_1) (addf (edgeEntry E ![0] slices_S4_S1_0) (edgeEntry E ![1] slices_S4_S1_1)))
          (edgeEntry E ![2] slices_S4_S1_2))
        (mulf (Host.divf (edgeEntry E ![0] slices_S4_S1_0) (addf (edgeEntry E ![0] slices_S4_S1_0) (edgeEntry E ![1] slices_S4_S1_1)))
          (edgeEntry E ![3] slices_S4_S1_3)))
      (constant S_ .f32 0x4A960000#32))

end Cert.KernelIdeal.Tail

end
-- ==== Proof.KTail.lean ====
/-
  After the region: the two results are the host tail's two functions of the region's two result arrays.
-/
import proofs.«420524_j90795608638213_4_alg».proof.Proof.Gen.KernelIdeal.Frame
import proofs.«420524_j90795608638213_4_alg».proof.Proof.KTailDefs
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Tail

open Cert.KernelIdeal Cert.KernelIdeal.Gen

variable {F : FTy → Type} [FloatOps F]
variable (m : (ℓ : Loc nD τ sig) → Buf (Elt F) ℓ)

/-- What the lines after the region find in the dice-totals array: what the region left there. -/
theorem found4 (c : Dev nD) :
    Pipeline.withArrays (cfgs 0).spec c (V0 m c) (fun w => (dats m 0 c).arrAt w (cfgs 0).N) (Proc.devRef .tc main_v4_0)
      = (dats m 0 c).arrAt 4 cfg0.N :=
  Pipeline.withArrays_arr spec0 launch0.win.arr_inj c _ _ 4

/-- And in the edge-totals array. -/
theorem found5 (c : Dev nD) :
    Pipeline.withArrays (cfgs 0).spec c (V0 m c) (fun w => (dats m 0 c).arrAt w (cfgs 0).N) (Proc.devRef .tc main_v4_1)
      = (dats m 0 c).arrAt 5 cfg0.N :=
  Pipeline.withArrays_arr spec0 launch0.win.arr_inj c _ _ 5

set_option maxHeartbeats 16000000 in
/-- The first result: the region loss of the dice totals the region left. -/
theorem tail_region (c : Dev nD) :
    Pipeline.afterTail₀ cfgs (dats m) 0 (V0 m) [hostOps1] c main_v23 = tailR ((dats m 0 c).arrAt 4 cfg0.N) := by
  unfold Pipeline.afterTail₀
  show StableHlo.after hostOps1 _ (Proc.devRef .tc main_v23) = _
  after_results
  rw [found4]
  rfl

set_option maxHeartbeats 16000000 in
/-- The second result: the edge loss of the edge totals the region left. -/
theorem tail_edge (c : Dev nD) :
    Pipeline.afterTail₀ cfgs (dats m) 0 (V0 m) [hostOps1] c main_v41 = tailE ((dats m 0 c).arrAt 5 cfg0.N) := by
  unfold Pipeline.afterTail₀
  show StableHlo.after hostOps1 _ (Proc.devRef .tc main_v41) = _
  after_results
  rw [found5]
  rfl

end Cert.KernelIdeal.Tail

end
-- ==== Proof.LibSums.lean ====
/-
  General lemmas on sums, maxima and re-laid arrays at the ideal float instance, where a float is an extended
  real and an array of shape `S` is a function `S.Idx → EReal`. Indices are written by coordinates (`ix1` … `ix4`).

  * a sum (or a maximum) taken by the host over some axes of an array, read at an index as a `Fin`-indexed sum
    (a fold of `max`) over the coordinates on those axes;
  * the same for a vector reduction over one axis;
  * a row-major re-laying of an array (the flat position is preserved) read at an index, and the transport of a
    total sum along any bijection of index sets;
  * the split of a sum or a maximum over `m + n` coordinates into the two blocks;
  * a few identities of extended-real arithmetic: division by a power of two as a product, words of the f32 format
    evaluated, a difference of two scaled reals squared.
-/
import Idealize.ShloMosaic.Lib.ValueIdx
import Idealize.ShloMosaic.Lib.Pipeline.Value
import Idealize.ShloMosaic.PureOps.Ideal.Laws
import Mathlib.Algebra.BigOperators.Fin
import Mathlib.Order.Fin.Basic
import Mathlib.Tactic.Ring
import Mathlib.Tactic.NormNum

noncomputable section

open scoped BigOperators

namespace Idealize.ShloMosaic.LibSums

open Idealize.ShloMosaic Idealize.ShloMosaic.ValueIdx

/-! ## A sum over an index set, by coordinates -/

section ByCoordinates
variable {M : Type*} [AddCommMonoid M]

/-- A rank-1 index set is its one coordinate range … -/
def idxEquiv1 {n0 : Nat} : (⟨1, ![n0]⟩ : Shape).Idx ≃ Fin n0 where
  toFun i := i 0
  invFun a := ix1 a
  left_inv i := (eq_ix1 i).symm
  right_inv _ := rfl
/-- … so a sum over it is the sum over the coordinate. -/
theorem sum_idx1 {n0 : Nat} (f : (⟨1, ![n0]⟩ : Shape).Idx → M) : ∑ i, f i = ∑ a : Fin n0, f (ix1 a) := by
  rw [← Equiv.sum_comp (idxEquiv1 (n0 := n0)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl
/-- … so a sum over it is the fourfold sum over the coordinates. -/
theorem sum_idx4 {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

end ByCoordinates

/-! ## The host's float sum, read at an index -/

section HostSum
variable {φ : FTy}

/-- The host's float sum at the ideal instance is the initial value's element plus the exact sum of the operand's
    elements that reduce to the index. -/
theorem hostReduceAdd_apply {s t u : Shape} {axes : List (Fin s.rank)} (x : FVec Ideal s φ) (init : u.Idx → Ideal φ)
    (h' : s.ReducesTo axes t) (hu : 0 < u.numel) (j : t.Idx) :
    Host.reduceAdd x init h' hu j = Ideal.hostReduceAdd h' x (init (Shape.Idx.first hu)) j := rfl

/-- The sum over the operand indices that reduce to `j`, re-indexed: if `lift` lists those indices without
    repetition (`proj` recovers the label of each), the sum runs over the labels. -/
theorem hostReduceAdd_of_lift {s t : Shape} {axes : List (Fin s.rank)} (h' : s.ReducesTo axes t) (x : s.Idx → EReal)
    (init : EReal) (j : t.Idx) {κ : Type} [Fintype κ] (lift : κ → s.Idx) (proj : s.Idx → κ)
    (h1 : ∀ k, h'.drop (lift k) = j) (h2 : ∀ k, proj (lift k) = k) (h3 : ∀ i, h'.drop i = j → lift (proj i) = i) :
    Ideal.hostReduceAdd h' x init j = init + ∑ k, x (lift k) := by
  unfold Ideal.hostReduceAdd
  refine congrArg (init + ·) ?_
  refine Finset.sum_nbij' proj lift ?_ ?_ ?_ ?_ ?_
  · intro i _; exact Finset.mem_univ _
  · intro k _; exact Finset.mem_filter.2 ⟨Finset.mem_univ _, h1 k⟩
  · intro i hi; exact h3 i (Finset.mem_filter.1 hi).2
  · intro k _; exact h2 k
  · intro i hi; rw [h3 i (Finset.mem_filter.1 hi).2]

/-- The total sum of a rank-4 array: a host sum into a result whose axes all have size one (the rank-0 result of a sum
    over every axis: `ht := fun b => b.elim0`) is the initial value plus the sum over the four coordinates. -/
theorem hostSum_all4 {n0 n1 n2 n3 : Nat} {t u : Shape} {axes : List (Fin 4)}
    (x : FVec Ideal ⟨4, ![n0, n1, n2, n3]⟩ φ) (init : u.Idx → Ideal φ)
    (h' : Shape.ReducesTo ⟨4, ![n0, n1, n2, n3]⟩ axes t) (hu : 0 < u.numel) (ht : ∀ b, t.size b = 1) (j : t.Idx) :
    Host.reduceAdd x init h' hu j
      = init (Shape.Idx.first hu) + ∑ a : Fin n0, ∑ b : Fin n1, ∑ c : Fin n2, ∑ d : Fin n3, x (ix4 a b c d) := by
  rw [hostReduceAdd_apply, Ideal.hostReduceAdd_total h' ht, sum_idx4]

/-- The total sum of a rank-3 array. -/
theorem hostSum_all3 {n0 n1 n2 : Nat} {t u : Shape} {axes : List (Fin 3)}
    (x : FVec Ideal ⟨3, ![n0, n1, n2]⟩ φ) (init : u.Idx → Ideal φ)
    (h' : Shape.ReducesTo ⟨3, ![n0, n1, n2]⟩ axes t) (hu : 0 < u.numel) (ht : ∀ b, t.size b = 1) (j : t.Idx) :
    Host.reduceAdd x init h' hu j
      = init (Shape.Idx.first hu) + ∑ a : Fin n0, ∑ b : Fin n1, ∑ c : Fin n2, x (ix3 a b c) := by
  rw [hostReduceAdd_apply, Ideal.hostReduceAdd_total h' ht, sum_idx3]

/-- The total sum of a rank-2 array. -/
theorem hostSum_all2 {n0 n1 : Nat} {t u : Shape} {axes : List (Fin 2)}
    (x : FVec Ideal ⟨2, ![n0, n1]⟩ φ) (init : u.Idx → Ideal φ)
    (h' : Shape.ReducesTo ⟨2, ![n0, n1]⟩ axes t) (hu : 0 < u.numel) (ht : ∀ b, t.size b = 1) (j : t.Idx) :
    Host.reduceAdd x init h' hu j = init (Shape.Idx.first hu) + ∑ a : Fin n0, ∑ b : Fin n1, x (ix2 a b) := by
  rw [hostReduceAdd_apply, Ideal.hostReduceAdd_total h' ht, sum_idx2]

/-- The total sum of a rank-1 array. -/
theorem hostSum_all1 {n0 : Nat} {t u : Shape} {axes : List (Fin 1)}
    (x : FVec Ideal ⟨1, ![n0]⟩ φ) (init : u.Idx → Ideal φ)
    (h' : Shape.ReducesTo ⟨1, ![n0]⟩ axes t) (hu : 0 < u.numel) (ht : ∀ b, t.size b = 1) (j : t.Idx) :
    Host.reduceAdd x init h' hu j = init (Shape.Idx.first hu) + ∑ a : Fin n0, x (ix1 a) := by
  rw [hostReduceAdd_apply, Ideal.hostReduceAdd_total h' ht, sum_idx1]

/-- The sum over axis 1 of a rank-4 array, at `(b, h, w)`: the initial value plus the sum over the coordinate `c` on
    that axis of the operand at `(b, c, h, w)`. -/
theorem hostSum_axis1_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (j : (⟨3, ![n0, n2, n3]⟩ : Shape).Idx) :
    Host.reduceAdd x init h' hu j = init (Shape.Idx.first hu) + ∑ c : Fin n1, x (ix4 (j 0) c (j 1) (j 2)) := by
  rw [hostReduceAdd_apply]
  refine hostReduceAdd_of_lift h' x _ j (fun c => ix4 (j 0) c (j 1) (j 2)) (fun i => i 1) ?_ (fun _ => rfl) ?_
  · intro c; funext b
    match b with
    | ⟨0, _⟩ => rfl
    | ⟨1, _⟩ => rfl
    | ⟨2, _⟩ => rfl
  · intro i hi; subst hi; funext a
    match a with
    | ⟨0, _⟩ => rfl
    | ⟨1, _⟩ => rfl
    | ⟨2, _⟩ => rfl
    | ⟨3, _⟩ => rfl

/-- The sum over axes 2 and 3 of a rank-4 array, at `(b, c)`: the initial value plus the double sum over the
    coordinates `(h, w)` on those axes of the operand at `(b, c, h, w)`. -/
theorem hostSum_axes23_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [2, 3] ⟨2, ![n0, n1]⟩) (hu : 0 < u.numel)
    (j : (⟨2, ![n0, n1]⟩ : Shape).Idx) :
    Host.reduceAdd x init h' hu j
      = init (Shape.Idx.first hu) + ∑ h : Fin n2, ∑ w : Fin n3, x (ix4 (j 0) (j 1) h w) := by
  rw [hostReduceAdd_apply, ← Fintype.sum_prod_type (f := fun p : Fin n2 × Fin n3 => x (ix4 (j 0) (j 1) p.1 p.2))]
  refine hostReduceAdd_of_lift h' x _ j (fun p : Fin n2 × Fin n3 => ix4 (j 0) (j 1) p.1 p.2) (fun i => (i 2, i 3)) ?_
    (fun _ => rfl) ?_
  · intro p; funext b
    match b with
    | ⟨0, _⟩ => rfl
    | ⟨1, _⟩ => rfl
  · intro i hi; subst hi; funext a
    match a with
    | ⟨0, _⟩ => rfl
    | ⟨1, _⟩ => rfl
    | ⟨2, _⟩ => rfl
    | ⟨3, _⟩ => rfl

end HostSum

/-! ## The host's float maximum over one axis, read at an index -/

section HostMax
variable {φ : FTy}

/-- The fold of a commutative and associative operation over the operand indices that reduce to `j`, re-indexed: if
    `lift` lists those indices without repetition (`proj` recovers the label of each), the fold runs over the labels. -/
theorem fold_filter_drop_of_lift {α : Type} {s t : Shape} {axes : List (Fin s.rank)} (h' : s.ReducesTo axes t)
    (op : α → α → α) [Std.Commutative op] [Std.Associative op] (init : α) (x : s.Idx → α) (j : t.Idx)
    {κ : Type} [Fintype κ] (lift : κ → s.Idx) (proj : s.Idx → κ)
    (h1 : ∀ k, h'.drop (lift k) = j) (h2 : ∀ k, proj (lift k) = k) (h3 : ∀ i, h'.drop i = j → lift (proj i) = i) :
    (Finset.univ.filter fun i => h'.drop i = j).fold op init x
      = (Finset.univ : Finset κ).fold op init (fun k => x (lift k)) := by
  classical
  have himg : (Finset.univ.filter fun i => h'.drop i = j) = Finset.univ.image lift := by
    ext i
    simp only [Finset.mem_filter, Finset.mem_univ, true_and, Finset.mem_image]
    exact ⟨fun hi => ⟨proj i, h3 i hi⟩, fun ⟨k, hk⟩ => by rw [← hk]; exact h1 k⟩
  rw [himg, Finset.fold_image (fun k _ k' _ e => by rw [← h2 k, ← h2 k', e])]
  rfl

/-- The host's maximum over axis 1 of a rank-4 array, at `(b, h, w)`: the fold of `max`, from the initial value's
    element, over the coordinate `c` on that axis of the operand at `(b, c, h, w)`. -/
theorem hostMax_axis1_of4_fold {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (j : (⟨3, ![n0, n2, n3]⟩ : Shape).Idx) :
    Host.reduce (FloatOps.maximumf (F := Ideal) (φ := φ)) x init h' hu j
      = (Finset.univ : Finset (Fin n1)).fold max (init (Shape.Idx.first hu)) (fun c => x (ix4 (j 0) c (j 1) (j 2))) := by
  rw [Host.reduce_eq_fold]
  refine fold_filter_drop_of_lift h' _ _ x j (fun c => ix4 (j 0) c (j 1) (j 2)) (fun i => i 1) ?_ (fun _ => rfl) ?_
  · intro c; funext b
    match b with
    | ⟨0, _⟩ => rfl
    | ⟨1, _⟩ => rfl
    | ⟨2, _⟩ => rfl
  · intro i hi; subst hi; funext a
    match a with
    | ⟨0, _⟩ => rfl
    | ⟨1, _⟩ => rfl
    | ⟨2, _⟩ => rfl
    | ⟨3, _⟩ => rfl

/-- A fold of `max` from the least element is the supremum of the family. -/
theorem fold_max_bot {κ : Type} (S : Finset κ) (f : κ → EReal) : S.fold max ⊥ f = S.sup f := rfl

/-- A fold of `max` from any start is the maximum of the start and the supremum of the family. -/
theorem fold_max_eq_sup {κ : Type} (S : Finset κ) (b : EReal) (f : κ → EReal) : S.fold max b f = max b (S.sup f) := by
  classical
  induction S using Finset.induction_on with
  | empty => simp
  | insert a S ha ih => rw [Finset.fold_insert ha, ih, Finset.sup_insert]; exact max_left_comm _ _ _

/-- So, from the initial value `-∞`, the host's maximum over axis 1 is the supremum over the coordinate on that axis. -/
theorem hostMax_axis1_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (hinit : init (Shape.Idx.first hu) = ⊥) (j : (⟨3, ![n0, n2, n3]⟩ : Shape).Idx) :
    Host.reduce (FloatOps.maximumf (F := Ideal) (φ := φ)) x init h' hu j
      = (Finset.univ : Finset (Fin n1)).sup (fun c => x (ix4 (j 0) c (j 1) (j 2))) := by
  rw [hostMax_axis1_of4_fold, hinit, fold_max_bot]

end HostMax

/-! ## The same readings at an index written by coordinates -/

section AtCoordinates
variable {φ : FTy}

/-- The host's sum over axis 1 of a rank-4 array at `(r, s, w)`. -/
theorem hostSum_axis1_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (r : Fin n0) (s : Fin n2) (w : Fin n3) :
    Host.reduceAdd x init h' hu (ix3 r s w) = init (Shape.Idx.first hu) + ∑ c : Fin n1, x (ix4 r c s w) :=
  hostSum_axis1_of4 x init h' hu (ix3 r s w)

/-- The host's sum over axes 2 and 3 of a rank-4 array at `(r, c)`. -/
theorem hostSum_axes23_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [2, 3] ⟨2, ![n0, n1]⟩) (hu : 0 < u.numel)
    (r : Fin n0) (c : Fin n1) :
    Host.reduceAdd x init h' hu (ix2 r c)
      = init (Shape.Idx.first hu) + ∑ s : Fin n2, ∑ w : Fin n3, x (ix4 r c s w) :=
  hostSum_axes23_of4 x init h' hu (ix2 r c)

/-- The host's maximum over axis 1 of a rank-4 array, from `-∞`, at `(r, s, w)`. -/
theorem hostMax_axis1_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (hinit : init (Shape.Idx.first hu) = ⊥) (r : Fin n0) (s : Fin n2) (w : Fin n3) :
    Host.reduce (FloatOps.maximumf (F := Ideal) (φ := φ)) x init h' hu (ix3 r s w)
      = (Finset.univ : Finset (Fin n1)).sup (fun c => x (ix4 r c s w)) :=
  hostMax_axis1_of4 x init h' hu hinit (ix3 r s w)

end AtCoordinates

/-! ## A sum or a maximum over `m + n` coordinates, split into the two blocks -/

section Split

/-- A sum over `N = m + n` coordinates is the sum over the first `m` plus the sum over the last `n`. -/
theorem sum_split {M : Type*} [AddCommMonoid M] {N : Nat} (m n : Nat) (hN : N = m + n) (f : Fin N → M) :
    ∑ c : Fin N, f c
      = ∑ c : Fin m, f ⟨c.val, by omega⟩ + ∑ c : Fin n, f ⟨m + c.val, by omega⟩ := by
  subst hN
  exact Fin.sum_univ_add f

/-- A sum over 256 coordinates is the sum over the first 128 plus the sum over the last 128. -/
theorem sum_split_256 {M : Type*} [AddCommMonoid M] (f : Fin 256 → M) :
    ∑ c : Fin 256, f c = ∑ c : Fin 128, f ⟨c.val, by omega⟩ + ∑ c : Fin 128, f ⟨128 + c.val, by omega⟩ :=
  sum_split 128 128 rfl f

/-- A supremum over `N = m + n` coordinates is the maximum of the supremum over the first `m` and the supremum over
    the last `n`. -/
theorem sup_split {N : Nat} (m n : Nat) (hN : N = m + n) (f : Fin N → EReal) :
    (Finset.univ : Finset (Fin N)).sup f
      = max ((Finset.univ : Finset (Fin m)).sup fun c => f ⟨c.val, by omega⟩)
          ((Finset.univ : Finset (Fin n)).sup fun c => f ⟨m + c.val, by omega⟩) := by
  apply le_antisymm
  · refine Finset.sup_le fun c _ => ?_
    by_cases hc : c.val < m
    · exact le_max_of_le_left
        (Finset.le_sup (f := fun c : Fin m => f ⟨c.val, by omega⟩) (Finset.mem_univ (⟨c.val, hc⟩ : Fin m)))
    · have hlt : c.val - m < n := by have := c.isLt; omega
      have hle := Finset.le_sup (f := fun c : Fin n => f ⟨m + c.val, by omega⟩) (Finset.mem_univ (⟨c.val - m, hlt⟩ : Fin n))
      have hcc : (⟨m + (c.val - m), by omega⟩ : Fin N) = c := Fin.ext (by show m + (c.val - m) = c.val; omega)
      simp only [hcc] at hle
      exact le_max_of_le_right hle
  · exact max_le (Finset.sup_le fun c _ => Finset.le_sup (Finset.mem_univ _))
      (Finset.sup_le fun c _ => Finset.le_sup (Finset.mem_univ _))

/-- A supremum over 256 coordinates is the maximum of the suprema over the first and the last 128. -/
theorem sup_split_256 (f : Fin 256 → EReal) :
    (Finset.univ : Finset (Fin 256)).sup f
      = max ((Finset.univ : Finset (Fin 128)).sup fun c => f ⟨c.val, by omega⟩)
          ((Finset.univ : Finset (Fin 128)).sup fun c => f ⟨128 + c.val, by omega⟩) :=
  sup_split 128 128 rfl f

/-- Starting a running maximum from `-∞` changes nothing. -/
theorem max_max_bot (a b : EReal) : max (max ⊥ a) b = max a b := by rw [max_eq_right (bot_le : (⊥ : EReal) ≤ a)]

/-- The maximum of `-∞` and `a` is `a`. -/
theorem max_bot_left (a : EReal) : max ⊥ a = a := max_eq_right bot_le

/-- Starting a running sum from `0` changes nothing. -/
theorem zero_add_ereal (a : EReal) : 0 + a = a := zero_add a

end Split

/-! ## A row-major re-laying of an array: the flat position is preserved -/

section Relay

/-- The flat position of `(p, q)` in an `a' × b'` grid is below `a' * b'`. -/
theorem flat_lt {a' b' : Nat} (p : Fin a') (q : Fin b') : p.val * b' + q.val < a' * b' := by
  have h1 : p.val * b' + q.val < p.val * b' + b' := Nat.add_lt_add_left q.isLt _
  have h2 : p.val * b' + b' = (p.val + 1) * b' := by rw [Nat.add_mul, Nat.one_mul]
  have h3 : (p.val + 1) * b' ≤ a' * b' := Nat.mul_le_mul_right _ p.isLt
  omega

/-- The row of the flat position `p * b' + q` in a grid of row length `b'` is `p`. -/
theorem flat_div {a' b' : Nat} (p : Fin a') (q : Fin b') : (p.val * b' + q.val) / b' = p.val := by
  have hb : 0 < b' := Nat.lt_of_le_of_lt (Nat.zero_le _) q.isLt
  rw [Nat.add_comm, Nat.add_mul_div_right _ _ hb, Nat.div_eq_of_lt q.isLt, Nat.zero_add]

/-- The column of the flat position `p * b' + q` in a grid of row length `b'` is `q`. -/
theorem flat_mod {a' b' : Nat} (p : Fin a') (q : Fin b') : (p.val * b' + q.val) % b' = q.val := by
  rw [Nat.add_comm, Nat.add_mul_mod_self_right, Nat.mod_eq_of_lt q.isLt]

/-- A grid with an element has a positive row length. -/
theorem pos_of_lt_mul {a b k : Nat} (hk : k < a * b) : 0 < b := by
  rcases Nat.eq_zero_or_pos b with h | h
  · subst h; simp at hk
  · exact h

/-- The row, in the `a × b` grid, of the element at `(p, q)` of an `a' × b'` grid with as many elements: the two have
    the same flat position. -/
def relayRow {a b a' b' : Nat} (hab : a * b = a' * b') (p : Fin a') (q : Fin b') : Fin a :=
  ⟨(p.val * b' + q.val) / b, Nat.div_lt_of_lt_mul (by have h := flat_lt p q; rw [← hab, Nat.mul_comm a b] at h; exact h)⟩

/-- The column, in the `a × b` grid, of the element at `(p, q)` of an `a' × b'` grid with as many elements. -/
def relayCol {a b a' b' : Nat} (hab : a * b = a' * b') (p : Fin a') (q : Fin b') : Fin b :=
  ⟨(p.val * b' + q.val) % b, Nat.mod_lt _ (pos_of_lt_mul (hab ▸ flat_lt p q))⟩

theorem relayRow_val {a b a' b' : Nat} (hab : a * b = a' * b') (p : Fin a') (q : Fin b') :
    (relayRow hab p q).val = (p.val * b' + q.val) / b := rfl

theorem relayCol_val {a b a' b' : Nat} (hab : a * b = a' * b') (p : Fin a') (q : Fin b') :
    (relayCol hab p q).val = (p.val * b' + q.val) % b := rfl

/-- The re-laid element has the same flat position. -/
theorem relay_flat {a b a' b' : Nat} (hab : a * b = a' * b') (p : Fin a') (q : Fin b') :
    (relayRow hab p q).val * b + (relayCol hab p q).val = p.val * b' + q.val :=
  Nat.div_add_mod' _ _

/-- Re-laying back gives the row again … -/
theorem relayRow_relay {a b a' b' : Nat} (hab : a * b = a' * b') (p : Fin a') (q : Fin b') :
    relayRow hab.symm (relayRow hab p q) (relayCol hab p q) = p :=
  Fin.ext (by rw [relayRow_val, relay_flat, flat_div])

/-- … and the column. -/
theorem relayCol_relay {a b a' b' : Nat} (hab : a * b = a' * b') (p : Fin a') (q : Fin b') :
    relayCol hab.symm (relayRow hab p q) (relayCol hab p q) = q :=
  Fin.ext (by rw [relayCol_val, relay_flat, flat_mod])

/-- Two grids with as many elements correspond by flat position. -/
def relayEquiv {a b a' b' : Nat} (hab : a * b = a' * b') : Fin a' × Fin b' ≃ Fin a × Fin b where
  toFun pq := (relayRow hab pq.1 pq.2, relayCol hab pq.1 pq.2)
  invFun rs := (relayRow hab.symm rs.1 rs.2, relayCol hab.symm rs.1 rs.2)
  left_inv pq := Prod.ext (relayRow_relay hab pq.1 pq.2) (relayCol_relay hab pq.1 pq.2)
  right_inv rs := Prod.ext (relayRow_relay hab.symm rs.1 rs.2) (relayCol_relay hab.symm rs.1 rs.2)

/-- THE SUM TRANSPORT over two grids with as many elements: summing over `(p, q)` the term at the re-laid position is
    summing over every `(r, s)`. At `a = b = 64`, `a' = 32`, `b' = 128`:
    `∑ p : Fin 32, ∑ q : Fin 128, F ((p·128+q)/64) ((p·128+q)%64) = ∑ r : Fin 64, ∑ s : Fin 64, F r s`. -/
theorem sum_relay {M : Type*} [AddCommMonoid M] {a b a' b' : Nat} (hab : a * b = a' * b') (F : Fin a → Fin b → M) :
    ∑ p : Fin a', ∑ q : Fin b', F (relayRow hab p q) (relayCol hab p q) = ∑ r : Fin a, ∑ s : Fin b, F r s :=
  (Fintype.sum_prod_type' (fun p q => F (relayRow hab p q) (relayCol hab p q))).symm.trans
    ((Fintype.sum_equiv (relayEquiv hab) (fun pq => F (relayRow hab pq.1 pq.2) (relayCol hab pq.1 pq.2))
      (fun rs => F rs.1 rs.2) (fun _ => rfl)).trans (Fintype.sum_prod_type' F))

/-- The same transport for a term given as a function of the flat position:
    `∑ p q, g (p·b' + q) = ∑ r s, g (r·b + s)`. -/
theorem sum_flat_relay {M : Type*} [AddCommMonoid M] {a b a' b' : Nat} (hab : a * b = a' * b') (g : Nat → M) :
    ∑ p : Fin a', ∑ q : Fin b', g (p.val * b' + q.val) = ∑ r : Fin a, ∑ s : Fin b, g (r.val * b + s.val) := by
  rw [← sum_relay hab (fun r s => g (r.val * b + s.val))]
  exact Finset.sum_congr rfl fun p _ => Finset.sum_congr rfl fun q _ => congrArg g (relay_flat hab p q).symm

/-- The total sum is carried along any bijection of index sets: if `y` reads `x` through `e`, their sums agree. -/
theorem sum_eq_of_equiv {ι κ M : Type*} [Fintype ι] [Fintype κ] [AddCommMonoid M] (e : ι ≃ κ) (y : ι → M) (x : κ → M)
    (h : ∀ i, y i = x (e i)) : ∑ i, y i = ∑ k, x k :=
  Fintype.sum_equiv e y x h

/-- A re-laid array has the same total sum. -/
theorem sum_shapeCast {M : Type} [AddCommMonoid M] {s t : Shape} (x : s.Idx → M) (h : s.ShapeCasts t) :
    ∑ j, shapeCast t x h j = ∑ i, x i :=
  Fintype.sum_equiv (Shape.reshapeEquiv h) _ _ (fun _ => rfl)

variable {α : Type}

/-- A rank-4 array whose two inner axes `a × b` are re-laid as `a' × b'` (as many elements) reads, at `(i0, i1, p, q)`,
    the operand at `(i0, i1)` and the inner position with the same flat position: `[8,256,64,64]` as `[8,256,32,128]`
    at `(b, c, p, q)` is the operand at `(b, c, (p·128+q)/64, (p·128+q)%64)`, and the other way round. -/
theorem shapeCast4_inner_apply {n0 n1 a b a' b' : Nat} (hab : a * b = a' * b')
    (x : (⟨4, ![n0, n1, a, b]⟩ : Shape).Idx → α)
    (h : (⟨4, ![n0, n1, a, b]⟩ : Shape).ShapeCasts ⟨4, ![n0, n1, a', b']⟩)
    (i0 : Fin n0) (i1 : Fin n1) (p : Fin a') (q : Fin b') :
    shapeCast ⟨4, ![n0, n1, a', b']⟩ x h (ix4 i0 i1 p q) = x (ix4 i0 i1 (relayRow hab p q) (relayCol hab p q)) :=
  shapeCast_apply x h _ _ (by
    rw [Shape.rowMajor_val_four, Shape.rowMajor_val_four]
    show ((i0.val * n1 + i1.val) * a + (relayRow hab p q).val) * b + (relayCol hab p q).val
        = ((i0.val * n1 + i1.val) * a' + p.val) * b' + q.val
    have hf := relay_flat hab p q
    calc ((i0.val * n1 + i1.val) * a + (relayRow hab p q).val) * b + (relayCol hab p q).val
        = (i0.val * n1 + i1.val) * (a * b) + ((relayRow hab p q).val * b + (relayCol hab p q).val) := by ring
      _ = (i0.val * n1 + i1.val) * (a' * b') + (p.val * b' + q.val) := by rw [hab, hf]
      _ = ((i0.val * n1 + i1.val) * a' + p.val) * b' + q.val := by ring)

/-- A rank-4 array `[n0, 1, a, b]` re-laid as the rank-3 array `[n0, a', b']` (as many inner elements) reads, at
    `(i0, p, q)`, the operand at `(i0, 0)` and the inner position with the same flat position. -/
theorem shapeCast_n1ab_nab_apply {n0 a b a' b' : Nat} (hab : a * b = a' * b')
    (x : (⟨4, ![n0, 1, a, b]⟩ : Shape).Idx → α)
    (h : (⟨4, ![n0, 1, a, b]⟩ : Shape).ShapeCasts ⟨3, ![n0, a', b']⟩)
    (i0 : Fin n0) (p : Fin a') (q : Fin b') :
    shapeCast ⟨3, ![n0, a', b']⟩ x h (ix3 i0 p q)
      = x (ix4 i0 (0 : Fin 1) (relayRow hab p q) (relayCol hab p q)) :=
  shapeCast_apply x h _ _ (by
    rw [Shape.rowMajor_val_four, Shape.rowMajor_val_three]
    show ((i0.val * 1 + 0) * a + (relayRow hab p q).val) * b + (relayCol hab p q).val
        = (i0.val * a' + p.val) * b' + q.val
    have hf := relay_flat hab p q
    calc ((i0.val * 1 + 0) * a + (relayRow hab p q).val) * b + (relayCol hab p q).val
        = i0.val * (a * b) + ((relayRow hab p q).val * b + (relayCol hab p q).val) := by ring
      _ = i0.val * (a' * b') + (p.val * b' + q.val) := by rw [hab, hf]
      _ = (i0.val * a' + p.val) * b' + q.val := by ring)

/-- A rank-3 array `[n0, a, b]` re-laid as the rank-4 array `[n0, 1, a', b']` (as many inner elements) reads, at
    `(i0, u, p, q)`, the operand at `i0` and the inner position with the same flat position. -/
theorem shapeCast_nab_n1ab_apply {n0 a b a' b' : Nat} (hab : a * b = a' * b')
    (x : (⟨3, ![n0, a, b]⟩ : Shape).Idx → α)
    (h : (⟨3, ![n0, a, b]⟩ : Shape).ShapeCasts ⟨4, ![n0, 1, a', b']⟩)
    (i0 : Fin n0) (u : Fin 1) (p : Fin a') (q : Fin b') :
    shapeCast ⟨4, ![n0, 1, a', b']⟩ x h (ix4 i0 u p q) = x (ix3 i0 (relayRow hab p q) (relayCol hab p q)) :=
  shapeCast_apply x h _ _ (by
    have hu : u.val = 0 := by omega
    rw [Shape.rowMajor_val_four, Shape.rowMajor_val_three]
    show (i0.val * a + (relayRow hab p q).val) * b + (relayCol hab p q).val
        = ((i0.val * 1 + u.val) * a' + p.val) * b' + q.val
    have hf := relay_flat hab p q
    rw [hu]
    calc (i0.val * a + (relayRow hab p q).val) * b + (relayCol hab p q).val
        = i0.val * (a * b) + ((relayRow hab p q).val * b + (relayCol hab p q).val) := by ring
      _ = i0.val * (a' * b') + (p.val * b' + q.val) := by rw [hab, hf]
      _ = ((i0.val * 1 + 0) * a' + p.val) * b' + q.val := by ring)

/-- A rank-4 array `[n0, m, 1, n]` flattened to `[n0, N]` with `N = m * n` reads, at `(i0, k)`, the operand at
    `(i0, k / n, 0, k % n)`: `[8,2,1,128]` as `[8,256]` at `(b, c)` is the operand at `(b, c / 128, 0, c % 128)`. -/
theorem shapeCast_nm1k_nN_apply {n0 m n N : Nat} (hN : N = m * n)
    (x : (⟨4, ![n0, m, 1, n]⟩ : Shape).Idx → α)
    (h : (⟨4, ![n0, m, 1, n]⟩ : Shape).ShapeCasts ⟨2, ![n0, N]⟩)
    (i0 : Fin n0) (k : Fin N) :
    shapeCast ⟨2, ![n0, N]⟩ x h (ix2 i0 k)
      = x (ix4 i0 ⟨k.val / n, Nat.div_lt_of_lt_mul (by rw [Nat.mul_comm, ← hN]; exact k.isLt)⟩ (0 : Fin 1)
          ⟨k.val % n, Nat.mod_lt _ (pos_of_lt_mul (a := m) (by rw [← hN]; exact k.isLt))⟩) :=
  shapeCast_apply x h _ _ (by
    rw [Shape.rowMajor_val_four, Shape.rowMajor_val_two]
    show ((i0.val * m + k.val / n) * 1 + 0) * n + k.val % n = i0.val * N + k.val
    have hf : k.val / n * n + k.val % n = k.val := Nat.div_add_mod' _ _
    calc ((i0.val * m + k.val / n) * 1 + 0) * n + k.val % n
        = i0.val * (m * n) + (k.val / n * n + k.val % n) := by ring
      _ = i0.val * N + k.val := by rw [hf, ← hN])

end Relay

/-! ## A vector reduction over one axis, read at an index -/

section VectorReduce

/-- A vector sum over axis 0 of a rank-3 vector, at `(r, c)`: the sum over the coordinate `k` on that axis of the
    source at `(k, r, c)`. The accumulator's fact is typed as the printed program's proof of it is. -/
theorem vecSum_axis0_of3 {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0x00000000#32 : BitVec 32) = 0x00000000#32) (j : (⟨2, ![n1, n2]⟩ : Shape).Idx) :
    multiReduction .add [0] ⟨2, ![n1, n2]⟩ x 0x00000000#32 h hφ hacc j = ∑ k : Fin n0, x (ix3 k (j 0) (j 1)) :=
  (Ideal.multiReduction_add_single x 0x00000000#32 h hφ hacc j).trans
    (Finset.sum_congr rfl fun k _ => congrArg x (funext fun a => Fin.ext (by
      match a with
      | ⟨0, _⟩ => rfl
      | ⟨1, _⟩ => rfl
      | ⟨2, _⟩ => rfl)))

/-- The same at an index written by coordinates. -/
theorem vecSum_axis0_of3_ix {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0x00000000#32 : BitVec 32) = 0x00000000#32) (r : Fin n1) (c : Fin n2) :
    multiReduction .add [0] ⟨2, ![n1, n2]⟩ x 0x00000000#32 h hφ hacc (ix2 r c) = ∑ k : Fin n0, x (ix3 k r c) :=
  vecSum_axis0_of3 x h hφ hacc (ix2 r c)

/-- A vector sum over axis 2 of a rank-3 vector, at `(r, c)`: the sum over `k` of the source at `(r, c, k)`. -/
theorem vecSum_axis2_of3 {n0 n1 n2 : Nat} (x : FVec Ideal ⟨3, ![n0, n1, n2]⟩ .f32)
    (h : Shape.Reduces ⟨3, ![n0, n1, n2]⟩ [2] ⟨2, ![n0, n1]⟩) (hφ : FKind.Formats .f32)
    (hacc : (0x00000000#32 : BitVec 32) = 0x00000000#32) (j : (⟨2, ![n0, n1]⟩ : Shape).Idx) :
    multiReduction .add [2] ⟨2, ![n0, n1]⟩ x 0x00000000#32 h hφ hacc j = ∑ k : Fin n2, x (ix3 (j 0) (j 1) k) :=
  (Ideal.multiReduction_add_single x 0x00000000#32 h hφ hacc j).trans
    (Finset.sum_congr rfl fun k _ => congrArg x (funext fun a => Fin.ext (by
      match a with
      | ⟨0, _⟩ => rfl
      | ⟨1, _⟩ => rfl
      | ⟨2, _⟩ => rfl)))

/-- The same at an index written by coordinates. -/
theorem vecSum_axis2_of3_ix {n0 n1 n2 : Nat} (x : FVec Ideal ⟨3, ![n0, n1, n2]⟩ .f32)
    (h : Shape.Reduces ⟨3, ![n0, n1, n2]⟩ [2] ⟨2, ![n0, n1]⟩) (hφ : FKind.Formats .f32)
    (hacc : (0x00000000#32 : BitVec 32) = 0x00000000#32) (r : Fin n0) (c : Fin n1) :
    multiReduction .add [2] ⟨2, ![n0, n1]⟩ x 0x00000000#32 h hφ hacc (ix2 r c) = ∑ k : Fin n2, x (ix3 r c k) :=
  vecSum_axis2_of3 x h hφ hacc (ix2 r c)

/-- A vector sum over axis 1 of a rank-2 vector, at `r`: the sum over `k` of the source at `(r, k)`. -/
theorem vecSum_axis1_of2 {n0 n1 : Nat} (x : FVec Ideal ⟨2, ![n0, n1]⟩ .f32)
    (h : Shape.Reduces ⟨2, ![n0, n1]⟩ [1] ⟨1, ![n0]⟩) (hφ : FKind.Formats .f32)
    (hacc : (0x00000000#32 : BitVec 32) = 0x00000000#32) (j : (⟨1, ![n0]⟩ : Shape).Idx) :
    multiReduction .add [1] ⟨1, ![n0]⟩ x 0x00000000#32 h hφ hacc j = ∑ k : Fin n1, x (ix2 (j 0) k) :=
  (Ideal.multiReduction_add_single x 0x00000000#32 h hφ hacc j).trans
    (Finset.sum_congr rfl fun k _ => congrArg x (funext fun a => Fin.ext (by
      match a with
      | ⟨0, _⟩ => rfl
      | ⟨1, _⟩ => rfl)))

/-- The same at an index written by its coordinate. -/
theorem vecSum_axis1_of2_ix {n0 n1 : Nat} (x : FVec Ideal ⟨2, ![n0, n1]⟩ .f32)
    (h : Shape.Reduces ⟨2, ![n0, n1]⟩ [1] ⟨1, ![n0]⟩) (hφ : FKind.Formats .f32)
    (hacc : (0x00000000#32 : BitVec 32) = 0x00000000#32) (r : Fin n0) :
    multiReduction .add [1] ⟨1, ![n0]⟩ x 0x00000000#32 h hφ hacc (ix1 r) = ∑ k : Fin n1, x (ix2 r k) :=
  vecSum_axis1_of2 x h hφ hacc (ix1 r)

/-- A vector sum over axis 0 of a rank-2 vector, at `c`: the sum over `k` of the source at `(k, c)`. -/
theorem vecSum_axis0_of2 {n0 n1 : Nat} (x : FVec Ideal ⟨2, ![n0, n1]⟩ .f32)
    (h : Shape.Reduces ⟨2, ![n0, n1]⟩ [0] ⟨1, ![n1]⟩) (hφ : FKind.Formats .f32)
    (hacc : (0x00000000#32 : BitVec 32) = 0x00000000#32) (j : (⟨1, ![n1]⟩ : Shape).Idx) :
    multiReduction .add [0] ⟨1, ![n1]⟩ x 0x00000000#32 h hφ hacc j = ∑ k : Fin n0, x (ix2 k (j 0)) :=
  (Ideal.multiReduction_add_single x 0x00000000#32 h hφ hacc j).trans
    (Finset.sum_congr rfl fun k _ => congrArg x (funext fun a => Fin.ext (by
      match a with
      | ⟨0, _⟩ => rfl
      | ⟨1, _⟩ => rfl)))

/-- The same at an index written by its coordinate. -/
theorem vecSum_axis0_of2_ix {n0 n1 : Nat} (x : FVec Ideal ⟨2, ![n0, n1]⟩ .f32)
    (h : Shape.Reduces ⟨2, ![n0, n1]⟩ [0] ⟨1, ![n1]⟩) (hφ : FKind.Formats .f32)
    (hacc : (0x00000000#32 : BitVec 32) = 0x00000000#32) (c : Fin n1) :
    multiReduction .add [0] ⟨1, ![n1]⟩ x 0x00000000#32 h hφ hacc (ix1 c) = ∑ k : Fin n0, x (ix2 k c) :=
  vecSum_axis0_of2 x h hφ hacc (ix1 c)

/-- The f32 word of `-∞` is the least extended real. -/
theorem ofBits_neg_inf_f32 : Ideal.ofBits .f32 0xFF800000#32 = ⊥ := by
  simp [Ideal.ofBits, Ideal.ieee]

/-- A vector maximum over axis 0 of a rank-3 vector from the accumulator `-∞`, at `(r, c)`: the supremum over the
    coordinate `k` on that axis of the source at `(k, r, c)`. -/
theorem vecMax_axis0_of3 {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0xFF800000#32 : BitVec 32) = 0xFF800000#32) (j : (⟨2, ![n1, n2]⟩ : Shape).Idx) :
    multiReduction .maximumf [0] ⟨2, ![n1, n2]⟩ x 0xFF800000#32 h hφ hacc j
      = (Finset.univ : Finset (Fin n0)).sup (fun k => x (ix3 k (j 0) (j 1))) := by
  refine (Ideal.multiReduction_maximumf_single x 0xFF800000#32 h hφ hacc j).trans ?_
  have hb : (FloatOps.ofBits .f32 0xFF800000#32 : Ideal .f32) = ⊥ := ofBits_neg_inf_f32
  rw [hb]
  refine (fold_max_bot _ _).trans (congrArg (Finset.univ : Finset (Fin n0)).sup (funext fun k => congrArg x (funext fun a => Fin.ext (by
      match a with
      | ⟨0, _⟩ => rfl
      | ⟨1, _⟩ => rfl
      | ⟨2, _⟩ => rfl))))

/-- The same at an index written by coordinates. -/
theorem vecMax_axis0_of3_ix {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0xFF800000#32 : BitVec 32) = 0xFF800000#32) (r : Fin n1) (c : Fin n2) :
    multiReduction .maximumf [0] ⟨2, ![n1, n2]⟩ x 0xFF800000#32 h hφ hacc (ix2 r c)
      = (Finset.univ : Finset (Fin n0)).sup (fun k => x (ix3 k r c)) :=
  vecMax_axis0_of3 x h hφ hacc (ix2 r c)

end VectorReduce

/-! ## A trailing unit axis added to a vector, and a tile's total by two one-axis sums -/

section UnitAxis
variable {α : Type}

/-- An `[a]` vector cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` vector cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The total of an `[n0, n1]` tile taken as a vector sum over axis 1, a cast of the `[n0]` result to `[n0, 1]`, and a vector
    sum over axis 0: the double sum over the tile. -/
theorem vecSum_all2 {n0 n1 : Nat} (x : FVec Ideal ⟨2, ![n0, n1]⟩ .f32)
    (h1 : Shape.Reduces ⟨2, ![n0, n1]⟩ [1] ⟨1, ![n0]⟩) (hc : (⟨1, ![n0]⟩ : Shape).ShapeCasts ⟨2, ![n0, 1]⟩)
    (h0 : Shape.Reduces ⟨2, ![n0, 1]⟩ [0] ⟨1, ![1]⟩) (hφ hφ' : FKind.Formats .f32)
    (hacc hacc' : (0x00000000#32 : BitVec 32) = 0x00000000#32) (j : (⟨1, ![1]⟩ : Shape).Idx) :
    multiReduction .add [0] ⟨1, ![1]⟩
        (shapeCast ⟨2, ![n0, 1]⟩ (multiReduction .add [1] ⟨1, ![n0]⟩ x 0x00000000#32 h1 hφ hacc) hc)
        0x00000000#32 h0 hφ' hacc' j
      = ∑ r : Fin n0, ∑ c : Fin n1, x (ix2 r c) :=
  (vecSum_axis0_of2 _ h0 hφ' hacc' j).trans (Finset.sum_congr rfl fun r _ =>
    (shapeCast_a_a1_apply _ hc r (j 0)).trans (vecSum_axis1_of2_ix x h1 hφ hacc r))

end UnitAxis

/-! ## Extended-real arithmetic: division by a power of two, words evaluated, a scaled difference squared -/

section Arithmetic

/-- Division by a power of two is the product with its reciprocal, at every extended real (the infinities included). -/
theorem div_two_pow (x : EReal) (k : ℕ) :
    Ideal.div x (((2 : ℝ) ^ k : ℝ) : EReal) = x * ((1 / (2 : ℝ) ^ k : ℝ) : EReal) :=
  Ideal.div_coe (pow_ne_zero k two_ne_zero) x

/-- Division by `4096` is the product with `1/4096`. -/
theorem div_4096 (x : EReal) : Ideal.div x ((4096 : ℝ) : EReal) = x * ((1 / 4096 : ℝ) : EReal) :=
  Ideal.div_coe (by norm_num) x

/-- Division by `256` is the product with `1/256`. -/
theorem div_256 (x : EReal) : Ideal.div x ((256 : ℝ) : EReal) = x * ((1 / 256 : ℝ) : EReal) :=
  Ideal.div_coe (by norm_num) x

/-- The f32 word `0x39800000` denotes `1/4096`. -/
theorem ofBits_f32_39800000 : Ideal.ofBits .f32 0x39800000#32 = ((1 / 4096 : ℝ) : EReal) := by
  simp [Ideal.ofBits, Ideal.ieee, -EReal.coe_mul] <;> norm_num

/-- The f32 word `0x45800000` denotes `4096`. -/
theorem ofBits_f32_45800000 : Ideal.ofBits .f32 0x45800000#32 = ((4096 : ℝ) : EReal) := by
  simp [Ideal.ofBits, Ideal.ieee, -EReal.coe_mul] <;> norm_num

/-- The f32 word `0x3B800000` denotes `1/256`. -/
theorem ofBits_f32_3B800000 : Ideal.ofBits .f32 0x3B800000#32 = ((1 / 256 : ℝ) : EReal) := by
  simp [Ideal.ofBits, Ideal.ieee, -EReal.coe_mul] <;> norm_num

/-- The f32 word `0x43800000` denotes `256`. -/
theorem ofBits_f32_43800000 : Ideal.ofBits .f32 0x43800000#32 = ((256 : ℝ) : EReal) := by
  simp [Ideal.ofBits, Ideal.ieee, -EReal.coe_mul] <;> norm_num

/-- The f32 word `0x45000000` denotes `2048`. -/
theorem ofBits_f32_45000000 : Ideal.ofBits .f32 0x45000000#32 = ((2048 : ℝ) : EReal) := by
  simp [Ideal.ofBits, Ideal.ieee, -EReal.coe_mul] <;> norm_num

/-- The f32 word `0x4B000000` denotes `8388608`. -/
theorem ofBits_f32_4B000000 : Ideal.ofBits .f32 0x4B000000#32 = ((8388608 : ℝ) : EReal) := by
  simp [Ideal.ofBits, Ideal.ieee, -EReal.coe_mul] <;> norm_num

/-- The f32 word `0x47000000` denotes `32768`. -/
theorem ofBits_f32_47000000 : Ideal.ofBits .f32 0x47000000#32 = ((32768 : ℝ) : EReal) := by
  simp [Ideal.ofBits, Ideal.ieee, -EReal.coe_mul] <;> norm_num

/-- The f32 word `0x49000000` denotes `524288`. -/
theorem ofBits_f32_49000000 : Ideal.ofBits .f32 0x49000000#32 = ((524288 : ℝ) : EReal) := by
  simp [Ideal.ofBits, Ideal.ieee, -EReal.coe_mul] <;> norm_num

/-- The f32 word `0x3F000000` denotes `1/2`. -/
theorem ofBits_f32_3F000000 : Ideal.ofBits .f32 0x3F000000#32 = ((1 / 2 : ℝ) : EReal) := by
  simp [Ideal.ofBits, Ideal.ieee, -EReal.coe_mul] <;> norm_num

/-- The f32 word `0x3F800000` denotes `1`. -/
theorem ofBits_f32_3F800000 : Ideal.ofBits .f32 0x3F800000#32 = ((1 : ℝ) : EReal) := by
  simp [Ideal.ofBits, Ideal.ieee, -EReal.coe_mul] <;> norm_num

/-- The f32 word `0x40000000` denotes `2`. -/
theorem ofBits_f32_40000000 : Ideal.ofBits .f32 0x40000000#32 = ((2 : ℝ) : EReal) := by
  simp [Ideal.ofBits, Ideal.ieee, -EReal.coe_mul] <;> norm_num

/-- The f32 word `0x40800000` denotes `4`. -/
theorem ofBits_f32_40800000 : Ideal.ofBits .f32 0x40800000#32 = ((4 : ℝ) : EReal) := by
  simp [Ideal.ofBits, Ideal.ieee, -EReal.coe_mul] <;> norm_num

/-- Division by the word of `4096` is the product with the word of `1/4096`, at every extended real. -/
theorem div_word_4096 (x : EReal) :
    Ideal.div x (Ideal.ofBits .f32 0x45800000#32) = x * Ideal.ofBits .f32 0x39800000#32 := by
  rw [ofBits_f32_45800000, ofBits_f32_39800000]; exact div_4096 x

/-- Division by the word of `256` is the product with the word of `1/256`, at every extended real. -/
theorem div_word_256 (x : EReal) :
    Ideal.div x (Ideal.ofBits .f32 0x43800000#32) = x * Ideal.ofBits .f32 0x3B800000#32 := by
  rw [ofBits_f32_43800000, ofBits_f32_3B800000]; exact div_256 x

/-- For reals, the difference of two numbers scaled by the same factor, squared, is the squared difference times the
    squared factor. -/
theorem scaled_diff_sq_real (s t k : ℝ) : (s * k - t * k) * (s * k - t * k) = (s - t) * (s - t) * (k * k) := by ring

/-- The same among the extended reals, for finite entries. -/
theorem scaled_diff_sq (s t k : ℝ) :
    ((s : EReal) * (k : EReal) - (t : EReal) * (k : EReal)) * ((s : EReal) * (k : EReal) - (t : EReal) * (k : EReal))
      = ((s : EReal) - (t : EReal)) * ((s : EReal) - (t : EReal)) * ((k : EReal) * (k : EReal)) := by
  have h := congrArg (fun r : ℝ => (r : EReal)) (scaled_diff_sq_real s t k)
  simpa only [EReal.coe_mul, EReal.coe_sub] using h

end Arithmetic

end Idealize.ShloMosaic.LibSums

end
-- ==== Proof.KTailRead.lean ====
/-
  The host lines after the region, read as the closing formulas of the specification.

  Summing the per-batch totals over the batch axis from the zero word gives, at each class and column, the plain sum
  over the two batches (the zero word is the real number zero and drops out). Cutting one column out of the [4,3] array
  and re-laying the [4,1] result as [4] reads that column; re-laying [1,4] as [4], cutting one entry and re-laying [1] as
  a scalar reads that entry. Every other line is pointwise arithmetic against constants, whose words are left as they
  are printed, and the sum over the four classes is the initial word plus the sum of the four quotients.
-/
import proofs.«420524_j90795608638213_4_alg».proof.Proof.KTailDefs
import proofs.«420524_j90795608638213_4_alg».proof.Proof.Spec
import proofs.«420524_j90795608638213_4_alg».proof.Proof.LibSums
import Idealize.ShloMosaic.Lib.ValueIdx
import Idealize.ShloMosaic.Lib.Pipeline.Value
import Idealize.ShloMosaic.PureOps.Ideal.Laws

noncomputable section

open scoped BigOperators

namespace Cert.KernelIdeal.Tail

open Cert.KernelIdeal Cert.Losses Idealize.ShloMosaic Idealize.ShloMosaic.ValueIdx Idealize.ShloMosaic.LibSums
open Cert.KernelIdeal.Facts₀

/-! ## General readings -/

section General
variable {φ : FTy} {α : Type}

/-- The host's sum over axis 0 of a rank-3 array, at an index (b, c) of the result: the initial value plus the sum over
    the coordinate a on that axis of the operand at (a, b, c). -/
theorem hostSum_axis0_of3 {n0 n1 n2 : Nat} {u : Shape}
    (x : FVec Ideal ⟨3, ![n0, n1, n2]⟩ φ) (init : u.Idx → Ideal φ)
    (h' : Shape.ReducesTo ⟨3, ![n0, n1, n2]⟩ [0] ⟨2, ![n1, n2]⟩) (hu : 0 < u.numel)
    (j : (⟨2, ![n1, n2]⟩ : Shape).Idx) :
    Host.reduceAdd x init h' hu j = init (Shape.Idx.first hu) + ∑ a : Fin n0, x (ix3 a (j 0) (j 1)) := by
  rw [hostReduceAdd_apply]
  refine hostReduceAdd_of_lift h' x _ j (fun a => ix3 a (j 0) (j 1)) (fun i => i 0) ?_ (fun _ => rfl) ?_
  · intro a; funext b
    match b with
    | ⟨0, _⟩ => rfl
    | ⟨1, _⟩ => rfl
  · intro i hi; subst hi; funext a
    match a with
    | ⟨0, _⟩ => rfl
    | ⟨1, _⟩ => rfl
    | ⟨2, _⟩ => rfl

/-- The same at coordinates. -/
theorem hostSum_axis0_of3_ix {n0 n1 n2 : Nat} {u : Shape}
    (x : FVec Ideal ⟨3, ![n0, n1, n2]⟩ φ) (init : u.Idx → Ideal φ)
    (h' : Shape.ReducesTo ⟨3, ![n0, n1, n2]⟩ [0] ⟨2, ![n1, n2]⟩) (hu : 0 < u.numel) (b : Fin n1) (c : Fin n2) :
    Host.reduceAdd x init h' hu (ix2 b c) = init (Shape.Idx.first hu) + ∑ a : Fin n0, x (ix3 a b c) :=
  hostSum_axis0_of3 x init h' hu (ix2 b c)

/-- A host quotient at an index divides the elements. -/
theorem hostDivf_apply {s : Shape} (a b : FVec Ideal s φ) (i : s.Idx) : Host.divf a b i = Ideal.div (a i) (b i) := rfl

/-- A scalar constant laid along a vector reads the constant's extended real everywhere. -/
theorem bcast_const_apply {t : Shape} (dims : Fin S_.rank → Fin t.rank) (h : S_.BroadcastsInDim t dims)
    (w : BitVec 32) (i : t.Idx) :
    broadcastInDim t dims h (constant (F := Ideal) S_ .f32 w) i = Ideal.ofBits .f32 w := rfl

/-- One column cut out of an [a, b] array and re-laid as a vector reads that column. -/
theorem column_apply {a b : Nat} (y : (⟨2, ![a, b]⟩ : Shape).Idx → α) (off : Fin 2 → Nat)
    (hs : Shape.Slices (⟨2, ![a, b]⟩ : Shape) off ⟨2, ![a, 1]⟩) (hc : (⟨2, ![a, 1]⟩ : Shape).ShapeCasts ⟨1, ![a]⟩)
    (k : Fin a) (j : Fin b) (h0 : off 0 = 0) (h1 : off 1 = j.val) :
    shapeCast ⟨1, ![a]⟩ (extractStridedSlice ⟨2, ![a, 1]⟩ off y hs) hc (ix1 k) = y (ix2 k j) := by
  rw [shapeCast_a1_a_apply]
  refine extractStridedSlice_apply off y hs _ (ix2 k j) ?_
  intro d
  match d with
  | ⟨0, _⟩ => show k.val = off 0 + k.val; omega
  | ⟨1, _⟩ => show j.val = off 1 + 0; omega

end General

/-! ## The region loss -/

/-- The batch sum of the dice totals at class k, column j. -/
theorem batchD_apply (D : FVec Ideal S2x4x3 .f32) (k : Fin 4) (j : Fin 3) :
    Host.reduceAdd D (constant S_ .f32 0x00000000#32) reducesTo_S2x4x3_S4x3_d0 h_S_ (ix2 k j)
      = ∑ n : Fin 2, D (ix3 n k j) := by
  rw [hostSum_axis0_of3_ix]
  show Ideal.ofBits .f32 0x00000000#32 + _ = _
  rw [Ideal.ofBits_zero_f32, zero_add]

/-- Column j of the batch sum, re-laid as a vector, at class k: the sum over the two batches of the totals there. -/
theorem colD_apply (D : FVec Ideal S2x4x3 .f32) (jv : Nat) (j : Fin 3) (hj : j.val = jv)
    (hs : S4x3.Slices ![0, jv] S4x1) (k : Fin 4) :
    shapeCast S4 (extractStridedSlice S4x1 ![0, jv]
        (Host.reduceAdd D (constant S_ .f32 0x00000000#32) reducesTo_S2x4x3_S4x3_d0 h_S_) hs) shapeCasts_S4x1_S4 (ix1 k)
      = ∑ n : Fin 2, D (ix3 n k j) :=
  (column_apply _ ![0, jv] hs shapeCasts_S4x1_S4 k j rfl (by show jv = j.val; omega)).trans (batchD_apply D k j)

/-- The host lines after the region, on the per-batch dice totals, are the region loss of the totals summed over the
    two batches. -/
theorem tailR_eq (D : FVec Ideal S2x4x3 .f32) (i : S_.Idx) :
    tailR (F := Ideal) D i = Cert.Losses.regionLoss (fun k j => ∑ n : Fin 2, D (ix3 n k j)) := by
  unfold tailR
  rw [mulf_apply, subf_apply, hostDivf_apply, hostSum_all1 _ _ _ _ (fun b => b.elim0)]
  simp only [hostDivf_apply, addf_apply, mulf_apply, constant_apply, bcast_const_apply,
    colD_apply D 0 0 rfl, colD_apply D 1 1 rfl, colD_apply D 2 2 rfl]
  rfl

/-! ## The edge loss -/

/-- The batch sum of the edge totals at entry j. -/
theorem batchE_apply (E : FVec Ideal S2x1x4 .f32) (j : Fin 4) :
    Host.reduceAdd E (constant S_ .f32 0x00000000#32) reducesTo_S2x1x4_S1x4_d0 h_S_ (ix2 (0 : Fin 1) j)
      = ∑ n : Fin 2, E (ix3 n 0 j) := by
  rw [hostSum_axis0_of3_ix]
  show Ideal.ofBits .f32 0x00000000#32 + _ = _
  rw [Ideal.ofBits_zero_f32, zero_add]

/-- Entry j of the batch sum as a scalar: the sum over the two batches of the totals there. -/
theorem edgeEntry_apply (E : FVec Ideal S2x1x4 .f32) (jv : Nat) (j : Fin 4) (hj : j.val = jv)
    (h : S4.Slices ![jv] S1) (i : S_.Idx) :
    edgeEntry (F := Ideal) E ![jv] h i = ∑ n : Fin 2, E (ix3 n 0 j) := by
  unfold edgeEntry
  refine (shapeCast_apply _ shapeCasts_S1_S_ i (ix1 (0 : Fin 1)) ?_).trans ?_
  · rw [Shape.rowMajor_val_one]
    have hlt := (Shape.rowMajor S_ i).isLt
    have hn : S_.numel = 1 := rfl
    show 0 = _
    omega
  · refine (extractStridedSlice_apply _ _ h _ (ix1 j) ?_).trans ?_
    · intro d
      match d with
      | ⟨0, _⟩ => show j.val = jv + 0; omega
    · refine (shapeCast_apply _ shapeCasts_S1x4_S4 (ix1 j) (ix2 (0 : Fin 1) j) ?_).trans (batchE_apply E j)
      rw [Shape.rowMajor_val_two, Shape.rowMajor_val_one]
      show 0 * 4 + j.val = j.val
      omega

/-- The host lines after the region, on the per-batch edge totals, are the edge loss of the totals summed over the two
    batches. -/
theorem tailE_eq (E : FVec Ideal S2x1x4 .f32) (i : S_.Idx) :
    tailE (F := Ideal) E i = Cert.Losses.edgeLossK (fun j => ∑ n : Fin 2, E (ix3 n 0 j)) := by
  unfold tailE
  simp only [hostDivf_apply, addf_apply, mulf_apply, constant_apply,
    edgeEntry_apply E 0 0 rfl, edgeEntry_apply E 1 1 rfl, edgeEntry_apply E 2 2 rfl, edgeEntry_apply E 3 3 rfl]
  rfl

end Cert.KernelIdeal.Tail

end
-- ==== Proof.KTileDice.lean ====
/-
  One step of the 4×3 running total of the soft-dice loss, read entry by entry.

  A tile holds the four class logits and the class label of 8 × 25600 voxels. At a voxel the softmax numerator of class
  `c` is `exp (x_c - max x)`, the reciprocal denominator is `1 / Σ_c' exp (x_c' - max x)`, and the probability of `c` is
  their product. For each class the three totals over the tile (probability times indicator of the label, probability,
  indicator) are laid side by side as a 1×3 row and added to the row found, the row found on the left of the sum.
  The result: entry `(c, j)` after the step is the entry before plus the tile's `j`-th dice total of class `c`.

  Order of the file: layout operations read at an index; the total of a tile as a double sum over rows and lanes; the
  comparison word as an indicator; the numerators, denominators, probabilities and indicators at a voxel; one class's
  row; the four classes; the step.
-/
import proofs.«420524_j90795608638213_4_alg».proof.Proof.KDefs
import proofs.«420524_j90795608638213_4_alg».proof.Proof.LibSums
import Idealize.ShloMosaic.Lib.ValueLayout
import Idealize.ShloMosaic.Lib.StableHlo.Predicate

set_option maxRecDepth 8192

noncomputable section

open scoped BigOperators

namespace Cert.KernelIdeal.TileDice

open Cert.KernelIdeal Cert.KernelIdeal.Gen Cert.KernelIdeal.Step Cert.Losses Idealize.ShloMosaic Idealize.ShloMosaic.ValueIdx

/-! ## Layout operations read at an index -/

section Layout
variable {α : Type}

/-- A `[1, 1, a, b]` array cast to `[a, b]` reads, at `(i, j)`, the operand at `(0, 0, i, j)`: both unit axes carry
    the coordinate zero and the flat position is unchanged. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- One `[1, a, b]` slab broadcast over `m` slabs reads, at `(c, i, j)`, the slab at `(i, j)`. -/
theorem broadcastTo_1ab_mab_apply {m a b : ℕ} (v : (⟨3, ![1, a, b]⟩ : Shape).Idx → α)
    (h : (⟨3, ![1, a, b]⟩ : Shape).Broadcasts ⟨3, ![m, a, b]⟩) (c : Fin m) (i : Fin a) (j : Fin b) :
    broadcastTo ⟨3, ![m, a, b]⟩ v h (ix3 c i j) = v (ix3 (0 : Fin 1) i j) := by
  refine broadcastTo_apply v h (ix3 c i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- Slab `k` cut out of `m` slabs (offsets `[k, 0, 0]`, sizes `[1, a, b]`) reads, at `(u, i, j)`, the source at
    `(k, i, j)`. -/
theorem slab_apply {m a b : ℕ} (o : ℕ) (X : (⟨3, ![m, a, b]⟩ : Shape).Idx → α)
    (h : (⟨3, ![m, a, b]⟩ : Shape).Slices ![o, 0, 0] ⟨3, ![1, a, b]⟩)
    (u : Fin 1) (i : Fin a) (j : Fin b) (k : Fin m) (hk : k.val = o) :
    extractStridedSlice ⟨3, ![1, a, b]⟩ ![o, 0, 0] X h (ix3 u i j) = X (ix3 k i j) :=
  extractStridedSlice_apply _ _ _ _ _ (fun ax => by
    match ax with
    | ⟨0, _⟩ =>
      have hu : u.val = 0 := by omega
      show k.val = o + u.val
      rw [hu, hk, Nat.add_zero]
    | ⟨1, _⟩ => exact (Nat.zero_add _).symm
    | ⟨2, _⟩ => exact (Nat.zero_add _).symm)

/-- Three `[1, 1]` pieces laid side by side along axis 1 read, at `(0, j)`, the `j`-th piece's one element. -/
theorem concat3_apply (p q r : (⟨2, ![1, 1]⟩ : Shape).Idx → α)
    (h : Shape.Concatenates (([⟨⟨2, ![1, 1]⟩, p⟩, ⟨⟨2, ![1, 1]⟩, q⟩, ⟨⟨2, ![1, 1]⟩, r⟩] :
        List ((s : Shape) × (s.Idx → α))).map (·.1)) ⟨2, ![1, 3]⟩ 1) (j : Fin 3) :
    concatenate ⟨2, ![1, 3]⟩ 1 [⟨⟨2, ![1, 1]⟩, p⟩, ⟨⟨2, ![1, 1]⟩, q⟩, ⟨⟨2, ![1, 1]⟩, r⟩] h (ix2 (0 : Fin 1) j)
      = ![p (ix2 0 0), q (ix2 0 0), r (ix2 0 0)] j := by
  have hi : ∀ jj : Fin 3, ∀ b : Fin (⟨2, ![1, 1]⟩ : Shape).rank, b.cast (rfl : (2 : ℕ) = 2) ≠ (1 : Fin 2) →
      ((ix2 (0 : Fin 1) (0 : Fin 1)) b).val = ((ix2 (0 : Fin 1) jj) (b.cast rfl)).val := fun jj b hb => by
    match b with
    | ⟨0, _⟩ => rfl
    | ⟨1, _⟩ => exact absurd rfl hb
  match j with
  | ⟨0, _⟩ =>
    exact concatenate_apply_piece 1 _ h _ 0 (by simp) ⟨2, ![1, 1]⟩ p rfl rfl 0 rfl (ix2 0 0) (hi _) rfl
  | ⟨1, _⟩ =>
    exact concatenate_apply_piece 1 _ h _ 1 (by simp) ⟨2, ![1, 1]⟩ q rfl rfl 1 rfl (ix2 0 0) (hi _) rfl
  | ⟨2, _⟩ =>
    exact concatenate_apply_piece 1 _ h _ 2 (by simp) ⟨2, ![1, 1]⟩ r rfl rfl 2 rfl (ix2 0 0) (hi _) rfl

end Layout

/-! ## The total of a tile -/

/-- An `[8, 25600]` tile cast to `[1, 8, 25600]`, summed over its two inner axes into `[1]`, cast to `[1, 1, 1]`, its one
    element taken and spread over `[1, 1]`: everywhere the double sum over the tile's rows and lanes. -/
theorem tileTotal (v : FVec Ideal ⟨2, ![8, 25600]⟩ .f32)
    (h1 : (⟨2, ![8, 25600]⟩ : Shape).ShapeCasts ⟨3, ![1, 8, 25600]⟩)
    (h2 : Shape.Reduces ⟨3, ![1, 8, 25600]⟩ [1, 2] ⟨1, ![1]⟩) (hφ : FKind.Formats .f32)
    (hacc : (0x00000000#32 : BitVec FTy.f32.bits) = FKind.add.neutral .f32 hφ)
    (h3 : (⟨1, ![1]⟩ : Shape).ShapeCasts ⟨3, ![1, 1, 1]⟩)
    (h4 : ∀ a, (![0, 0, 0] : Fin 3 → ℕ) a < (⟨3, ![1, 1, 1]⟩ : Shape).size a) (i : (⟨2, ![1, 1]⟩ : Shape).Idx) :
    broadcast ⟨2, ![1, 1]⟩ (extractAt ![0, 0, 0]
        (shapeCast ⟨3, ![1, 1, 1]⟩ (multiReduction .add [1, 2] ⟨1, ![1]⟩ (shapeCast ⟨3, ![1, 8, 25600]⟩ v h1)
          0x00000000#32 h2 hφ hacc) h3) h4) i
      = ∑ r : Fin 8, ∑ l : Fin 25600, v (ix2 r l) := by
  show multiReduction .add [1, 2] ⟨1, ![1]⟩ (shapeCast ⟨3, ![1, 8, 25600]⟩ v h1) 0x00000000#32 h2 hφ hacc _ = _
  rw [Ideal.multiReduction_add_total _ _ h2 (fun b => by match b with | ⟨0, _⟩ => rfl) hφ hacc, LibSums.sum_idx3,
    Fin.sum_univ_one]
  exact Finset.sum_congr rfl fun r _ => Finset.sum_congr rfl fun l _ => shapeCast_ab_1ab_apply v h1 0 r l

/-! ## The indicator word -/

/-- The comparison bit of `t = k`, widened to 32 bits and read as a signed integer, is the indicator of `t = k`. -/
theorem ind_word (t k : BitVec 32) :
    (FloatOps.sitofp (F := Ideal) .f32 ((IntOp.cmpi .eq t k).setWidth 32) : Ideal .f32) = ind t k := by
  show (((((IntOp.cmpi .eq t k).setWidth 32).toInt : ℤ) : ℝ) : EReal) = ind t k
  unfold ind
  by_cases h : t = k
  · rw [if_pos h, StableHlo.Predicate.cmpi_eq_iff.2 h]
    show ((((1#32 : BitVec 32).toInt : ℤ) : ℝ) : EReal) = 1
    norm_num
  · rw [if_neg h, eq_zero_of_ne_one (fun h1 => h (StableHlo.Predicate.cmpi_eq_iff.1 h1))]
    show ((((0#32 : BitVec 32).toInt : ℤ) : ℝ) : EReal) = 0
    norm_num

/-! ## The softmax pieces at a voxel -/

/-- The tile's numerators: at class `c`, row `r`, lane `l` the exponential of that logit minus the largest of the
    voxel's four logits. The maximum over the class axis starts from `-∞`, is cast to one slab and spread back over the
    four classes. -/
theorem pay7_apply (x0 : Vec Ideal S1x4x8x25600 .f32) (c : Fin 4) (r : Fin 8) (l : Fin 25600) :
    k0_pay7 (F := Ideal) x0 (ix3 c r l) = smExp (fun c' => x0 (ix4 0 c' r l)) c := by
  have hmax : ∀ (h1 : S1x4x8x25600.ShapeCasts S4x8x25600) (h2 : S4x8x25600.Reduces [0] S8x25600)
      (hφ : FKind.Formats .f32) (hacc : (0xFF800000#32 : BitVec 32) = 0xFF800000#32)
      (h3 : S8x25600.ShapeCasts S1x8x25600) (h4 : S1x8x25600.Broadcasts S4x8x25600),
      broadcastTo S4x8x25600 (shapeCast S1x8x25600 (multiReduction (F := Ideal) .maximumf [0] S8x25600
        (shapeCast S4x8x25600 x0 h1) 0xFF800000#32 h2 hφ hacc) h3) h4 (ix3 c r l)
        = smMax (fun c' => x0 (ix4 0 c' r l)) := fun h1 h2 hφ hacc h3 h4 =>
    (broadcastTo_1ab_mab_apply _ h4 c r l).trans <|
      (shapeCast_ab_1ab_apply _ h3 0 r l).trans <|
        (LibSums.vecMax_axis0_of3_ix _ h2 hφ hacc r l).trans <|
          congrArg (Finset.univ : Finset (Fin 4)).sup (funext fun k => shapeCast_1abc_abc_apply x0 h1 k r l)
  exact congrArg Ideal.exp (congrArg₂ (· - ·) (shapeCast_1abc_abc_apply x0 _ c r l) (hmax _ _ _ _ _ _))

/-- The tile's reciprocal denominators: at row `r`, lane `l` one over the sum of the voxel's four numerators. -/
theorem pay8_apply (x0 : Vec Ideal S1x4x8x25600 .f32) (u : Fin 1) (r : Fin 8) (l : Fin 25600) :
    k0_pay8 (F := Ideal) x0 (ix3 u r l) = Ideal.div 1 (smSum (fun c' => x0 (ix4 0 c' r l))) := by
  have hs : ∀ (h2 : S4x8x25600.Reduces [0] S8x25600) (hφ : FKind.Formats .f32)
      (hacc : (0x00000000#32 : BitVec 32) = 0x00000000#32) (h3 : S8x25600.ShapeCasts S1x8x25600),
      shapeCast S1x8x25600 (multiReduction (F := Ideal) .add [0] S8x25600 (k0_pay7 (F := Ideal) x0)
        0x00000000#32 h2 hφ hacc) h3 (ix3 u r l) = smSum (fun c' => x0 (ix4 0 c' r l)) := fun h2 hφ hacc h3 =>
    (shapeCast_ab_1ab_apply _ h3 u r l).trans <|
      (LibSums.vecSum_axis0_of3_ix _ h2 hφ hacc r l).trans <|
        Finset.sum_congr rfl fun k _ => pay7_apply x0 k r l
  have h1 : Ideal.ofBits .f32 0x3F800000#32 = 1 := LibSums.ofBits_f32_3F800000.trans EReal.coe_one
  unfold k0_pay8
  simp only [divf_apply, broadcast_apply]
  exact congrArg₂ Ideal.div h1 (hs _ _ _ _)

/-- The probability of class `c` over the tile: slab `c` of the numerators times the reciprocal denominators. -/
theorem probTile_apply (x0 : Vec Ideal S1x4x8x25600 .f32) (o : ℕ) (c : Fin 4) (hc : c.val = o)
    (hs : S4x8x25600.Slices ![o, 0, 0] S1x8x25600) (h1 h1' : S1x8x25600.ShapeCasts S8x25600)
    (r : Fin 8) (l : Fin 25600) :
    mulf (shapeCast S8x25600 (extractStridedSlice S1x8x25600 ![o, 0, 0] (k0_pay7 (F := Ideal) x0) hs) h1)
        (shapeCast S8x25600 (k0_pay8 (F := Ideal) x0) h1') (ix2 r l)
      = probK (fun c' => segOf x0 c' r l) c := by
  rw [mulf_apply]
  exact congrArg₂ (· * ·)
    ((shapeCast_1ab_ab_apply _ h1 r l).trans ((slab_apply o _ hs 0 r l c hc).trans (pay7_apply x0 c r l)))
    ((shapeCast_1ab_ab_apply _ h1' r l).trans (pay8_apply x0 0 r l))

/-- The indicator of label `k` over the tile: the comparison bit widened and converted. -/
theorem indTile_apply (x1 : Vec Ideal S1x1x8x25600 .i32) (k : BitVec 32) (h : 1 < 32) (r : Fin 8) (l : Fin 25600) :
    sitofp (F := Ideal) .f32 (extui 32 (cmpi .eq (k0_pay6 (F := Ideal) x1) (broadcast S8x25600 k)) h) (ix2 r l)
      = ind (labOf x1 r l) k := by
  have hl : k0_pay6 (F := Ideal) x1 (ix2 r l) = x1 (ix4 0 0 r l) := shapeCast_11ab_ab_apply x1 _ r l
  show FloatOps.sitofp (F := Ideal) .f32 ((IntOp.cmpi .eq (k0_pay6 (F := Ideal) x1 (ix2 r l)) k).setWidth 32) = _
  rw [hl]
  exact ind_word _ k

/-! ## A row of three totals added to the row found -/

/-- The three dice terms of a voxel, one by one. -/
theorem diceTermK_zero (c : Fin 4) (x : Fin 4 → EReal) (t : BitVec 32) :
    diceTermK ⟨0, by omega⟩ c x t = probK x c * ind t (cls c) := rfl
theorem diceTermK_one (c : Fin 4) (x : Fin 4 → EReal) (t : BitVec 32) :
    diceTermK ⟨1, by omega⟩ c x t = probK x c := rfl
theorem diceTermK_two (c : Fin 4) (x : Fin 4 → EReal) (t : BitVec 32) :
    diceTermK ⟨2, by omega⟩ c x t = ind t (cls c) := rfl

/-- The row found plus three `[1, 1]` pieces laid side by side, where the pieces hold a class's three totals over the
    tile (of probability times indicator, of probability, of indicator): the row found plus the tile's dice totals. -/
theorem class_row (x0 : Vec Ideal S1x4x8x25600 .f32) (x1 : Vec Ideal S1x1x8x25600 .i32) (c : Fin 4)
    (P I : FVec Ideal S8x25600 .f32)
    (hP : ∀ r l, P (ix2 r l) = probK (fun c' => segOf x0 c' r l) c)
    (hI : ∀ r l, I (ix2 r l) = ind (labOf x1 r l) (cls c))
    (A B C : FVec Ideal S1x1 .f32)
    (hA : A (ix2 0 0) = ∑ r : Fin 8, ∑ l : Fin 25600, mulf P I (ix2 r l))
    (hB : B (ix2 0 0) = ∑ r : Fin 8, ∑ l : Fin 25600, P (ix2 r l))
    (hC : C (ix2 0 0) = ∑ r : Fin 8, ∑ l : Fin 25600, I (ix2 r l))
    (v : Vec Ideal S1x3 .f32)
    (hc : Shape.Concatenates (([⟨S1x1, A⟩, ⟨S1x1, B⟩, ⟨S1x1, C⟩] :
        List ((s : Shape) × (s.Idx → Ideal .f32))).map (·.1)) S1x3 1)
    (hs : S1x3.ShapeCasts S1x3) (j : Fin 3) :
    shapeCast S1x3 (addf v (concatenate S1x3 1 [⟨S1x1, A⟩, ⟨S1x1, B⟩, ⟨S1x1, C⟩] hc)) hs (ix2 0 j)
      = v (ix2 0 j) + tileDice (segOf x0) (labOf x1) c j := by
  rw [shapeCast_self, addf_apply]
  refine congrArg (v (ix2 0 j) + ·) ((concat3_apply A B C hc j).trans ?_)
  unfold tileDice
  match j with
  | ⟨0, _⟩ =>
    show A (ix2 0 0) = _
    rw [hA]
    refine Finset.sum_congr rfl fun r _ => Finset.sum_congr rfl fun l _ => ?_
    rw [diceTermK_zero, mulf_apply, hP, hI]
  | ⟨1, _⟩ =>
    show B (ix2 0 0) = _
    rw [hB]
    refine Finset.sum_congr rfl fun r _ => Finset.sum_congr rfl fun l _ => ?_
    rw [diceTermK_one, hP]
  | ⟨2, _⟩ =>
    show C (ix2 0 0) = _
    rw [hC]
    refine Finset.sum_congr rfl fun r _ => Finset.sum_congr rfl fun l _ => ?_
    rw [diceTermK_two, hI]

/-! ## The four classes -/

/-- Class 1: its row plus its three totals. -/
theorem class1_apply (x0 : Vec Ideal S1x4x8x25600 .f32) (x1 : Vec Ideal S1x1x8x25600 .i32) (v : Vec Ideal S1x3 .f32)
    (j : Fin 3) :
    k0_pay15 (F := Ideal) (k0_pay6 x1) (k0_pay7 x0) (k0_pay8 x0) v (ix2 0 j)
      = v (ix2 0 j) + tileDice (segOf x0) (labOf x1) 1 j := by
  unfold k0_pay15
  exact class_row x0 x1 1 _ _ (fun r l => probTile_apply x0 1 1 rfl _ _ _ r l) (fun r l => indTile_apply x1 1#32 _ r l)
    _ _ _ (tileTotal _ _ _ _ _ _ _ _) (tileTotal _ _ _ _ _ _ _ _) (tileTotal _ _ _ _ _ _ _ _) v _ _ j

/-- Class 0: its row plus its three totals. -/
theorem class0_apply (x0 : Vec Ideal S1x4x8x25600 .f32) (x1 : Vec Ideal S1x1x8x25600 .i32) (v : Vec Ideal S1x3 .f32)
    (j : Fin 3) :
    k0_pay14 (F := Ideal) (k0_pay11 x0 x1) (k0_pay12 x0) (k0_pay13 x1) v (ix2 0 j)
      = v (ix2 0 j) + tileDice (segOf x0) (labOf x1) 0 j := by
  unfold k0_pay14
  exact class_row x0 x1 0 (k0_pay9 (F := Ideal) x0) (k0_pay10 (F := Ideal) x1)
    (fun r l => probTile_apply x0 0 0 rfl _ _ _ r l) (fun r l => indTile_apply x1 0#32 _ r l)
    _ _ _ (tileTotal _ _ _ _ _ _ _ _) (tileTotal _ _ _ _ _ _ _ _) (tileTotal _ _ _ _ _ _ _ _) v _ _ j

/-- Class 2: its row plus its three totals. -/
theorem class2_apply (x0 : Vec Ideal S1x4x8x25600 .f32) (x1 : Vec Ideal S1x1x8x25600 .i32) (v : Vec Ideal S1x3 .f32)
    (j : Fin 3) :
    k0_pay18 (F := Ideal) (k0_pay16 (k0_pay7 x0) (k0_pay8 x0)) (k0_pay17 (k0_pay6 x1)) v (ix2 0 j)
      = v (ix2 0 j) + tileDice (segOf x0) (labOf x1) 2 j := by
  unfold k0_pay18
  exact class_row x0 x1 2 (k0_pay16 (F := Ideal) (k0_pay7 x0) (k0_pay8 x0))
    (sitofp (F := Ideal) .f32 (k0_pay17 (k0_pay6 x1)))
    (fun r l => probTile_apply x0 2 2 rfl _ _ _ r l) (fun r l => indTile_apply x1 2#32 (by decide) r l)
    _ _ _ (tileTotal _ _ _ _ _ _ _ _) (tileTotal _ _ _ _ _ _ _ _) (tileTotal _ _ _ _ _ _ _ _) v _ _ j

/-- Class 3: its row plus its three totals. -/
theorem class3_apply (x0 : Vec Ideal S1x4x8x25600 .f32) (x1 : Vec Ideal S1x1x8x25600 .i32) (v : Vec Ideal S1x3 .f32)
    (j : Fin 3) :
    k0_pay20 (F := Ideal) (k0_pay19 (k0_pay6 x1) (k0_pay7 x0) (k0_pay8 x0)) v (ix2 0 j)
      = v (ix2 0 j) + tileDice (segOf x0) (labOf x1) 3 j := by
  unfold k0_pay20 k0_pay19
  exact class_row x0 x1 3 _ _ (fun r l => probTile_apply x0 3 3 rfl _ _ _ r l) (fun r l => indTile_apply x1 3#32 _ r l)
    _ _ _ (tileTotal _ _ _ _ _ _ _ _) (tileTotal _ _ _ _ _ _ _ _) (tileTotal _ _ _ _ _ _ _ _) v _ _ j

/-! ## One step of the 4×3 running total -/

/-- After one grid point, entry `(c, j)` of the 4×3 running total is what it held plus the tile's `j`-th dice total of
    class `c`. -/
theorem diceStep_apply (xs : Vec Ideal S4x3 .f32) (x0 : Vec Ideal S1x4x8x25600 .f32) (x1 : Vec Ideal S1x1x8x25600 .i32)
    (c : Fin 4) (j : Fin 3) :
    Step.diceStep (F := Ideal) xs x0 x1 (ix2 c j)
      = xs (ix2 c j) + Cert.Losses.tileDice (Step.segOf x0) (Step.labOf x1) c j := by
  show rowPay x0 x1 (loadRow xs c) c (ix2 0 j) = _
  match c with
  | ⟨0, _⟩ => exact class0_apply x0 x1 (loadRow xs 0) j
  | ⟨1, _⟩ => exact class1_apply x0 x1 (loadRow xs 1) j
  | ⟨2, _⟩ => exact class2_apply x0 x1 (loadRow xs 2) j
  | ⟨3, _⟩ => exact class3_apply x0 x1 (loadRow xs 3) j

end Cert.KernelIdeal.TileDice

end
-- ==== Proof.KTileEdge.lean ====
/-
  One step of the 1×4 edge accumulator, read at each of its four entries.

  A tile is 8 rows of 25600 lanes of edge logits `x` and edge label words `t`. The step forms four totals over
  the tile — how many labels are `1`, how many are `0`, the stable cross-entropy against the label `1` summed
  where the label is `1`, and against the label `0` summed where it is `0` —, lays them side by side as a 1×4
  row, and adds that row to the row found. Entry `j` of the result is therefore the entry found plus the tile's
  `j`-th edge total.

  The road: (1) a total over the tile, taken as a sum over both axes of the tile seen as a 1×8×25600 array and
  then passed through a one-element array, is the double sum over rows and lanes; (2) each of the four per-voxel
  terms, read at a row and a lane, is the corresponding term of the specification; (3) the row of four
  one-element pieces read at column `j` is piece `j`.
-/
import proofs.«420524_j90795608638213_4_alg».proof.Proof.KDefs
import proofs.«420524_j90795608638213_4_alg».proof.Proof.LibSums
import Idealize.ShloMosaic.Lib.ValueLayout
import Idealize.ShloMosaic.Lib.KernelVsHost
import Idealize.ShloMosaic.Lib.StableHlo.Predicate

noncomputable section

open scoped BigOperators

namespace Cert.KernelIdeal.TileEdge

open Cert.KernelIdeal Cert.KernelIdeal.Gen Cert.KernelIdeal.Step Cert.Losses Idealize.ShloMosaic
  Idealize.ShloMosaic.ValueIdx

/-! ## A total over the tile -/

/-- The sum over both tile axes of a 1×8×25600 array, passed through a one-element array and spread over a 1×1
    array, is at its one index the double sum over rows and lanes. -/
theorem total3_apply (w : FVec Ideal S1x8x25600 .f32)
    (h2 : S1x8x25600.Reduces [1, 2] S1) (hφ : FKind.Formats .f32)
    (hacc : (0x00000000#32 : BitVec 32) = FKind.add.neutral .f32 hφ)
    (h3 : S1.ShapeCasts S1x1x1) (h4 : ∀ a, (![0, 0, 0] : Fin 3 → Nat) a < S1x1x1.size a) (i : S1x1.Idx) :
    broadcast S1x1 (extractAt ![0, 0, 0]
        (shapeCast S1x1x1 (multiReduction .add [1, 2] S1 w 0x00000000#32 h2 hφ hacc) h3) h4) i
      = ∑ r : Fin 8, ∑ l : Fin 25600, w (ix3 (0 : Fin 1) r l) := by
  show multiReduction .add [1, 2] S1 w 0x00000000#32 h2 hφ hacc _ = _
  refine (Ideal.multiReduction_add_total w 0x00000000#32 h2 (fun b => ?_) hφ hacc _).trans ?_
  · match b with
    | ⟨0, _⟩ => rfl
  · rw [LibSums.sum_idx3, Fin.sum_univ_one]

/-- The same for an 8×25600 array first seen as 1×8×25600. -/
theorem tileTotal_apply (v : FVec Ideal S8x25600 .f32) (h1 : S8x25600.ShapeCasts S1x8x25600)
    (h2 : S1x8x25600.Reduces [1, 2] S1) (hφ : FKind.Formats .f32)
    (hacc : (0x00000000#32 : BitVec 32) = FKind.add.neutral .f32 hφ)
    (h3 : S1.ShapeCasts S1x1x1) (h4 : ∀ a, (![0, 0, 0] : Fin 3 → Nat) a < S1x1x1.size a) (i : S1x1.Idx) :
    broadcast S1x1 (extractAt ![0, 0, 0]
        (shapeCast S1x1x1 (multiReduction .add [1, 2] S1 (shapeCast S1x8x25600 v h1) 0x00000000#32 h2 hφ hacc) h3) h4) i
      = ∑ r : Fin 8, ∑ l : Fin 25600, v (ix2 r l) :=
  (total3_apply (shapeCast S1x8x25600 v h1) h2 hφ hacc h3 h4 i).trans
    (Finset.sum_congr rfl fun r _ => Finset.sum_congr rfl fun l _ => shapeCast_ab_1ab_apply v h1 0 r l)

/-! ## The per-voxel terms -/

/-- A 1×1×8×25600 block seen as 8×25600 reads, at row `r` and lane `l`, the block at `(0, 0, r, l)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    rw [Nat.zero_mul, Nat.zero_add])

/-- The comparison bit of `t = k`, widened to 32 bits and read as a signed integer, is the indicator of `t = k`. -/
theorem sitofp_bit_eq_ind (t k : BitVec 32) :
    (FloatOps.sitofp (F := Ideal) .f32 ((IntOp.cmpi .eq t k).setWidth 32) : Ideal .f32) = ind t k := by
  show ((((IntOp.cmpi .eq t k).setWidth 32).toInt : ℝ) : EReal) = ind t k
  rw [toInt_setWidth_bit]
  unfold ind
  by_cases h : t = k
  · rw [if_pos h, StableHlo.Predicate.cmpi_eq_iff.2 h]
    norm_num
  · rw [if_neg h, eq_zero_of_ne_one fun e => h (StableHlo.Predicate.cmpi_eq_iff.1 e)]
    norm_num

/-- A choice on the comparison bit of `t = k` is the choice on `t = k`. -/
theorem select_cmpi_eq {α : Type} (t k : BitVec 32) (a b : α) :
    Scalar.select (IntOp.cmpi .eq t k) a b = if t = k then a else b := by
  by_cases h : t = k
  · rw [if_pos h, StableHlo.Predicate.cmpi_eq_iff.2 h, select_one]
  · rw [if_neg h, eq_zero_of_ne_one fun e => h (StableHlo.Predicate.cmpi_eq_iff.1 e), select_zero]

/-- The tile's logits as an 8×25600 array, at `(r, l)`. -/
theorem pay21_apply (x2 : Vec Ideal S1x1x8x25600 .f32) (r : Fin 8) (l : Fin 25600) :
    k0_pay21 (F := Ideal) x2 (ix2 r l) = edgOf x2 r l :=
  shapeCast_11ab_ab_apply x2 _ r l

/-- The tile's labels as an 8×25600 array, at `(r, l)`. -/
theorem pay22_apply (x3 : Vec Ideal S1x1x8x25600 .i32) (r : Fin 8) (l : Fin 25600) :
    k0_pay22 (F := Ideal) x3 (ix2 r l) = labOf x3 r l :=
  shapeCast_11ab_ab_apply x3 _ r l

/-- The stable cross-entropy against the label `0`, at `(r, l)`. -/
theorem pay27_apply (x2 : Vec Ideal S1x1x8x25600 .f32) (r : Fin 8) (l : Fin 25600) :
    k0_pay27 (F := Ideal) x2 (ix2 r l) = bce0 (edgOf x2 r l) := by
  show max (k0_pay21 (F := Ideal) x2 (ix2 r l)) (Ideal.ofBits .f32 0x00000000#32)
      + Ideal.log1p (Ideal.exp (Ideal.ofBits .f32 0x00000000#32
          - max (k0_pay21 (F := Ideal) x2 (ix2 r l)) (-(k0_pay21 (F := Ideal) x2 (ix2 r l))))) = _
  rw [pay21_apply, Ideal.ofBits_zero_f32]
  rfl

/-- The comparison bit of "label is one", at `(r, l)`. -/
theorem pay23_apply (x3 : Vec Ideal S1x1x8x25600 .i32) (r : Fin 8) (l : Fin 25600) :
    k0_pay23 (F := Ideal) x3 (ix2 r l) = IntOp.cmpi .eq (labOf x3 r l) 1#32 := by
  show IntOp.cmpi .eq (k0_pay22 (F := Ideal) x3 (ix2 r l)) 1#32 = _
  rw [pay22_apply]

/-- The comparison bit of "label is zero", at `(r, l)`. -/
theorem pay24_apply (x3 : Vec Ideal S1x1x8x25600 .i32) (r : Fin 8) (l : Fin 25600) :
    k0_pay24 (F := Ideal) x3 (ix2 r l) = IntOp.cmpi .eq (labOf x3 r l) 0#32 := by
  show IntOp.cmpi .eq (k0_pay22 (F := Ideal) x3 (ix2 r l)) 0#32 = _
  rw [pay22_apply]

/-! ## The four totals -/

/-- How many labels of the tile are one. -/
theorem pay25_apply (x3 : Vec Ideal S1x1x8x25600 .i32) (i : S1x1.Idx) :
    k0_pay25 (F := Ideal) x3 i = ∑ r : Fin 8, ∑ l : Fin 25600, ind (labOf x3 r l) 1#32 := by
  refine (tileTotal_apply (sitofp .f32 (extui 32 (k0_pay23 (F := Ideal) x3) (by decide))) _ _ _ _ _ _ i).trans ?_
  refine Finset.sum_congr rfl fun r _ => Finset.sum_congr rfl fun l _ => ?_
  show FloatOps.sitofp (F := Ideal) .f32 ((k0_pay23 (F := Ideal) x3 (ix2 r l)).setWidth 32) = _
  rw [pay23_apply]
  exact sitofp_bit_eq_ind _ _

/-- How many labels of the tile are zero. -/
theorem pay26_apply (x3 : Vec Ideal S1x1x8x25600 .i32) (i : S1x1.Idx) :
    k0_pay26 (F := Ideal) x3 i = ∑ r : Fin 8, ∑ l : Fin 25600, ind (labOf x3 r l) 0#32 := by
  refine (tileTotal_apply (sitofp .f32 (extui 32 (k0_pay24 (F := Ideal) x3) (by decide))) _ _ _ _ _ _ i).trans ?_
  refine Finset.sum_congr rfl fun r _ => Finset.sum_congr rfl fun l _ => ?_
  show FloatOps.sitofp (F := Ideal) .f32 ((k0_pay24 (F := Ideal) x3 (ix2 r l)).setWidth 32) = _
  rw [pay24_apply]
  exact sitofp_bit_eq_ind _ _

/-- The cross-entropy against the label one where the label is one, zero elsewhere, at `(r, l)`. -/
theorem posTerm_apply (x2 : Vec Ideal S1x1x8x25600 .f32) (x3 : Vec Ideal S1x1x8x25600 .i32) (r : Fin 8)
    (l : Fin 25600) :
    select (k0_pay23 (F := Ideal) x3) (subf (k0_pay27 (F := Ideal) x2) (k0_pay21 (F := Ideal) x2))
        (broadcast S8x25600 (Scalar.ofBits (F := Ideal) .f32 0x00000000#32)) (ix2 r l)
      = if labOf x3 r l = 1#32 then bce1 (edgOf x2 r l) else 0 := by
  show Scalar.select (k0_pay23 (F := Ideal) x3 (ix2 r l))
      (k0_pay27 (F := Ideal) x2 (ix2 r l) - k0_pay21 (F := Ideal) x2 (ix2 r l)) (Ideal.ofBits .f32 0x00000000#32) = _
  rw [pay23_apply, pay27_apply, pay21_apply, Ideal.ofBits_zero_f32, select_cmpi_eq]
  rfl

/-- The cross-entropy against the label zero where the label is zero, zero elsewhere, at `(r, l)`. -/
theorem negTerm_apply (x2 : Vec Ideal S1x1x8x25600 .f32) (x3 : Vec Ideal S1x1x8x25600 .i32) (r : Fin 8)
    (l : Fin 25600) :
    select (k0_pay24 (F := Ideal) x3) (k0_pay27 (F := Ideal) x2)
        (broadcast S8x25600 (Scalar.ofBits (F := Ideal) .f32 0x00000000#32)) (ix2 r l)
      = if labOf x3 r l = 0#32 then bce0 (edgOf x2 r l) else 0 := by
  show Scalar.select (k0_pay24 (F := Ideal) x3 (ix2 r l)) (k0_pay27 (F := Ideal) x2 (ix2 r l))
      (Ideal.ofBits .f32 0x00000000#32) = _
  rw [pay24_apply, pay27_apply, Ideal.ofBits_zero_f32, select_cmpi_eq]

/-! ## The row of four one-element pieces -/

section Row
variable {α : Type} (a b c d : S1x1.Idx → α)
  (h : Shape.Concatenates (([⟨S1x1, a⟩, ⟨S1x1, b⟩, ⟨S1x1, c⟩, ⟨S1x1, d⟩] :
      List ((s : Shape) × (s.Idx → α))).map (·.1)) S1x4 1)

/-- Off the axis of concatenation a piece's one index and the row's index `(0, j)` agree. -/
theorem row_off_axis (j : Fin 4) (e : Fin S1x1.rank) (he : e.cast (rfl : S1x1.rank = S1x4.rank) ≠ (1 : Fin 2)) :
    ((ix2 (0 : Fin 1) (0 : Fin 1) : S1x1.Idx) e).val = ((ix2 (0 : Fin 1) j : S1x4.Idx) (e.cast rfl)).val := by
  match e with
  | ⟨0, _⟩ => rfl
  | ⟨1, _⟩ => exact absurd rfl he

/-- Four 1×1 pieces laid side by side read, at column 0, the first piece at its one index. -/
theorem row4_at0 : concatenate S1x4 1 [⟨S1x1, a⟩, ⟨S1x1, b⟩, ⟨S1x1, c⟩, ⟨S1x1, d⟩] h (ix2 0 0) = a (ix2 0 0) :=
  concatenate_apply_piece 1 _ h _ 0 (by simp) S1x1 a rfl rfl 0 rfl (ix2 0 0) (row_off_axis _) rfl

/-- At column 1, the second piece. -/
theorem row4_at1 : concatenate S1x4 1 [⟨S1x1, a⟩, ⟨S1x1, b⟩, ⟨S1x1, c⟩, ⟨S1x1, d⟩] h (ix2 0 1) = b (ix2 0 0) :=
  concatenate_apply_piece 1 _ h _ 1 (by simp) S1x1 b rfl rfl 1 rfl (ix2 0 0) (row_off_axis _) rfl

/-- At column 2, the third piece. -/
theorem row4_at2 : concatenate S1x4 1 [⟨S1x1, a⟩, ⟨S1x1, b⟩, ⟨S1x1, c⟩, ⟨S1x1, d⟩] h (ix2 0 2) = c (ix2 0 0) :=
  concatenate_apply_piece 1 _ h _ 2 (by simp) S1x1 c rfl rfl 2 rfl (ix2 0 0) (row_off_axis _) rfl

/-- At column 3, the fourth piece. -/
theorem row4_at3 : concatenate S1x4 1 [⟨S1x1, a⟩, ⟨S1x1, b⟩, ⟨S1x1, c⟩, ⟨S1x1, d⟩] h (ix2 0 3) = d (ix2 0 0) :=
  concatenate_apply_piece 1 _ h _ 3 (by simp) S1x1 d rfl rfl 3 rfl (ix2 0 0) (row_off_axis _) rfl

end Row

/-! ## The new row, entry by entry, over any pieces -/

section NewRow
variable (m : IVec S8x25600 1) (p q : FVec Ideal S1x1 .f32) (u : FVec Ideal S8x25600 .f32)
  (w : FVec Ideal S1x8x25600 .f32) (xs : Vec Ideal S1x4 .f32)

/-- Entry 0: the entry found plus the first count. -/
theorem pay1_at0 : k0_pay1 (F := Ideal) m p q u w xs (ix2 0 0) = xs (ix2 0 0) + p (ix2 0 0) := by
  unfold k0_pay1
  refine (congrFun (shapeCast_self _ _) (ix2 (0 : Fin 1) (0 : Fin 4))).trans ?_
  exact congrArg (xs (ix2 0 0) + ·) (row4_at0 _ _ _ _ _)

/-- Entry 1: the entry found plus the second count. -/
theorem pay1_at1 : k0_pay1 (F := Ideal) m p q u w xs (ix2 0 1) = xs (ix2 0 1) + q (ix2 0 0) := by
  unfold k0_pay1
  refine (congrFun (shapeCast_self _ _) (ix2 (0 : Fin 1) (1 : Fin 4))).trans ?_
  exact congrArg (xs (ix2 0 1) + ·) (row4_at1 _ _ _ _ _)

/-- Entry 2: the entry found plus the total of the 1×8×25600 array handed in. -/
theorem pay1_at2 :
    k0_pay1 (F := Ideal) m p q u w xs (ix2 0 2) = xs (ix2 0 2) + ∑ r : Fin 8, ∑ l : Fin 25600, w (ix3 (0 : Fin 1) r l) := by
  unfold k0_pay1
  refine (congrFun (shapeCast_self _ _) (ix2 (0 : Fin 1) (2 : Fin 4))).trans ?_
  exact congrArg (xs (ix2 0 2) + ·) ((row4_at2 _ _ _ _ _).trans (total3_apply w _ _ _ _ _ _))

/-- Entry 3: the entry found plus the total of the 8×25600 array `u` kept where the mask `m` is set, zero elsewhere. -/
theorem pay1_at3 :
    k0_pay1 (F := Ideal) m p q u w xs (ix2 0 3)
      = xs (ix2 0 3) + ∑ r : Fin 8, ∑ l : Fin 25600,
          select m u (broadcast S8x25600 (Scalar.ofBits (F := Ideal) .f32 0x00000000#32)) (ix2 r l) := by
  unfold k0_pay1
  refine (congrFun (shapeCast_self _ _) (ix2 (0 : Fin 1) (3 : Fin 4))).trans ?_
  exact congrArg (xs (ix2 0 3) + ·) ((row4_at3 _ _ _ _ _).trans (tileTotal_apply _ _ _ _ _ _ _ _))

end NewRow

/-! ## The step -/

/-- The third piece handed to the new row, at `(0, r, l)`. -/
theorem pay28_apply (x2 : Vec Ideal S1x1x8x25600 .f32) (x3 : Vec Ideal S1x1x8x25600 .i32) (r : Fin 8)
    (l : Fin 25600) :
    k0_pay28 (F := Ideal) x2 x3 (ix3 (0 : Fin 1) r l)
      = if labOf x3 r l = 1#32 then bce1 (edgOf x2 r l) else 0 := by
  unfold k0_pay28
  exact (shapeCast_ab_1ab_apply _ _ 0 r l).trans (posTerm_apply x2 x3 r l)

/-- **The step, entry by entry**: entry `j` of the new 1×4 row is the entry found plus the tile's `j`-th edge
    total. -/
theorem edgeStep_apply (xs : Vec Ideal S1x4 .f32) (x2 : Vec Ideal S1x1x8x25600 .f32)
    (x3 : Vec Ideal S1x1x8x25600 .i32) (j : Fin 4) :
    Step.edgeStep (F := Ideal) xs x2 x3 (ix2 0 j)
      = xs (ix2 0 j) + Cert.Losses.tileEdge (Step.edgOf x2) (Step.labOf x3) j := by
  unfold Step.edgeStep
  fin_cases j
  · refine (pay1_at0 _ _ _ _ _ xs).trans (congrArg (xs (ix2 0 0) + ·) ?_)
    exact pay25_apply x3 _
  · refine (pay1_at1 _ _ _ _ _ xs).trans (congrArg (xs (ix2 0 1) + ·) ?_)
    exact pay26_apply x3 _
  · refine (pay1_at2 _ _ _ _ _ xs).trans (congrArg (xs (ix2 0 2) + ·) ?_)
    exact Finset.sum_congr rfl fun r _ => Finset.sum_congr rfl fun l _ => pay28_apply x2 x3 r l
  · refine (pay1_at3 _ _ _ _ _ xs).trans (congrArg (xs (ix2 0 3) + ·) ?_)
    exact Finset.sum_congr rfl fun r _ => Finset.sum_congr rfl fun l _ => negTerm_apply x2 x3 r l

end Cert.KernelIdeal.TileEdge

end
-- ==== Proof.KRun.lean ====
/-
  The idealized kernel's run, read: every weakly fair execution ends with the first result at the region loss of the
  dice totals taken tile by tile, the second at the edge loss of the edge totals taken tile by tile, the arguments
  unchanged.
-/
import proofs.«420524_j90795608638213_4_alg».proof.Proof.KFinal
import proofs.«420524_j90795608638213_4_alg».proof.Proof.KTail
import proofs.«420524_j90795608638213_4_alg».proof.Proof.KTailRead
import proofs.«420524_j90795608638213_4_alg».proof.Proof.KTileDice
import proofs.«420524_j90795608638213_4_alg».proof.Proof.KTileEdge

noncomputable section

open scoped BigOperators
open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.KernelIdeal.Blocks Cert.KernelIdeal.Induct Cert.KernelIdeal.Final Cert.Losses

/-- A step of the 4×3 running total adds the tile's dice totals. -/
theorem diceLaw : DiceStepLaw := fun xs x0 x1 k j => TileDice.diceStep_apply xs x0 x1 k j
/-- A step of the 1×4 running total adds the tile's edge totals. -/
theorem edgeLaw : EdgeStepLaw := fun xs x2 x3 j => TileEdge.edgeStep_apply xs x2 x3 j

variable (m : (ℓ : Loc nD τ sig) → Buf (Elt Ideal) ℓ) (ρ : Dev nD → PrngReg)

/-- The run with the two results as the host tail of the two arrays the region leaves. -/
theorem run_arrays : θ_run defs (onTc (τ := τ) (main (F := Ideal))) ⟨m, fun _ => 0, ρ⟩ (fun r => ∀ c : Dev nD,
      r.2.mem ((c.tc : Thread nD τ).loc main_v23) = Tail.tailR (F := Ideal) (G4 m c)
      ∧ r.2.mem ((c.tc : Thread nD τ).loc main_v41) = Tail.tailE (F := Ideal) (G5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v23 (Pipeline.mem_restRefs_of main_v23 (by decide) (by decide))).trans
        ((Tail.tail_region m c).trans (congrArg Tail.tailR (final4 m diceLaw c))),
      ((h c).2 main_v41 (Pipeline.mem_restRefs_of main_v41 (by decide) (by decide))).trans
        ((Tail.tail_edge m c).trans (congrArg Tail.tailE (final5 m edgeLaw c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-- Summed over the two batches, the dice-totals array is the tile-by-tile dice totals. -/
theorem sum_G4 (c : Dev nD) :
    (fun k j => ∑ n : Fin 2, G4 m c (ix3 n k j)) = diceK (segK m c) (labK m c) :=
  funext fun k => funext fun j => Finset.sum_congr rfl fun n _ => rfl

/-- Summed over the two batches, the edge-totals array is the tile-by-tile edge totals. -/
theorem sum_G5 (c : Dev nD) :
    (fun j => ∑ n : Fin 2, G5 m c (ix3 n 0 j)) = edgeK (edgK m c) (elabK m c) :=
  funext fun j => Finset.sum_congr rfl fun n _ => rfl

/-- The first result as a value. -/
theorem region_value (c : Dev nD) :
    Tail.tailR (F := Ideal) (G4 m c) = fun _ => regionLoss (diceK (segK m c) (labK m c)) := by
  funext i
  exact (Tail.tailR_eq _ i).trans (congrArg regionLoss (sum_G4 m c))

/-- The second result as a value. -/
theorem edge_value (c : Dev nD) :
    Tail.tailE (F := Ideal) (G5 m c) = fun _ => edgeLossK (edgeK (edgK m c) (elabK m c)) := by
  funext i
  exact (Tail.tailE_eq _ i).trans (congrArg edgeLossK (sum_G5 m c))

/-- The run with the two results as values of the arguments. -/
theorem run_value : θ_run defs (onTc (τ := τ) (main (F := Ideal))) ⟨m, fun _ => 0, ρ⟩ (fun r => ∀ c : Dev nD,
      r.2.mem ((c.tc : Thread nD τ).loc main_v23) = (fun _ => regionLoss (diceK (segK m c) (labK m c)))
      ∧ r.2.mem ((c.tc : Thread nD τ).loc main_v41) = (fun _ => edgeLossK (edgeK (edgK m c) (elabK m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (region_value m c), (h c).2.1.trans (edge_value m c), (h c).2.2⟩)
    (run_arrays m ρ)

end Cert.KernelIdeal.Run

end
-- ==== Proof.RefRegion.lean ====
/-
  The region (soft-dice) loss of the reference, read operation by operation at the ideal instance, equals the closing
  formula applied to the voxel-by-voxel dice totals with the probability in quotient form.

  Three stages at a voxel `(n, c, d, h, w)`: the softmax over the class axis (a maximum from `-∞`, a difference, an
  exponential, a sum from `0`, a quotient); the one-hot encoding of the class label (an equality test against the class
  word, read as `0` or `1`); then three sums over `(n, d, h, w)` for each class, and the closing formula over the four
  classes.
-/
import proofs.«420524_j90795608638213_4_alg».proof.Proof.Gen.ReferenceIdeal.Read
import proofs.«420524_j90795608638213_4_alg».proof.Proof.Spec
import proofs.«420524_j90795608638213_4_alg».proof.Proof.LibSums
import Idealize.ShloMosaic.Lib.StableHlo.Predicate
import Idealize.ShloMosaic.Lib.ValueIdx
import Idealize.ShloMosaic.PureOps.Ideal.Laws
import Idealize.ShloMosaic.PureOps.Reduce
import Mathlib.Algebra.BigOperators.Fin

noncomputable section

open scoped BigOperators

namespace Cert.ReferenceIdeal.RefValue

open Cert.ReferenceIdeal Cert.ReferenceIdeal.Gen Cert.ReferenceIdeal.Read Cert.Losses Idealize.ShloMosaic
  Idealize.ShloMosaic.ValueIdx Idealize.ShloMosaic.LibSums

/-- The class logits by coordinates. -/
def segA (x0 : (⟨S2x4x96x160x160, .f32⟩ : BufTy).Contents (Elt Ideal)) : Cert.Losses.Seg :=
  fun n c d h w => x0 (ix5 n c d h w)

/-- The class labels by coordinates. -/
def labA (x2 : (⟨S2x1x96x160x160, .i32⟩ : BufTy).Contents (Elt Ideal)) : Cert.Losses.Lab :=
  fun n d h w => x2 (ix5 n 0 d h w)

/-! ## A rank-5 array summed over every axis but the second, and its maximum over the second axis -/

section General
variable {φ : FTy}

/-- The host's sum over axes 0, 2, 3, 4 of a rank-5 array, at `c`: the initial value plus the fourfold sum over the
    coordinates on those axes of the operand at `(a, c, d, h, w)`. -/
theorem hostSum_axes0234_of5 {n0 n1 n2 n3 n4 : Nat} {u : Shape}
    (x : FVec Ideal ⟨5, ![n0, n1, n2, n3, n4]⟩ φ) (init : u.Idx → Ideal φ)
    (h' : Shape.ReducesTo ⟨5, ![n0, n1, n2, n3, n4]⟩ [0, 2, 3, 4] ⟨1, ![n1]⟩) (hu : 0 < u.numel)
    (j : (⟨1, ![n1]⟩ : Shape).Idx) :
    Host.reduceAdd x init h' hu j
      = init (Shape.Idx.first hu)
        + ∑ a : Fin n0, ∑ d : Fin n2, ∑ h : Fin n3, ∑ w : Fin n4, x (ix5 a (j 0) d h w) := by
  rw [hostReduceAdd_apply]
  refine (hostReduceAdd_of_lift h' x _ j
    (fun p : Fin n0 × Fin n2 × Fin n3 × Fin n4 => ix5 p.1 (j 0) p.2.1 p.2.2.1 p.2.2.2)
    (fun i => (i 0, i 2, i 3, i 4)) ?_ (fun _ => rfl) ?_).trans ?_
  · intro p; funext b
    match b with
    | ⟨0, _⟩ => rfl
  · intro i hi; subst hi; funext a
    match a with
    | ⟨0, _⟩ => rfl
    | ⟨1, _⟩ => rfl
    | ⟨2, _⟩ => rfl
    | ⟨3, _⟩ => rfl
    | ⟨4, _⟩ => rfl
  · simp only [Fintype.sum_prod_type]

/-- The host's maximum over axis 1 of a rank-5 array from the initial value `-∞`, at `(a, d, h, w)`: the supremum over
    the coordinate `c` on that axis of the operand at `(a, c, d, h, w)`. -/
theorem hostMax_axis1_of5 {n0 n1 n2 n3 n4 : Nat} {u : Shape}
    (x : FVec Ideal ⟨5, ![n0, n1, n2, n3, n4]⟩ φ) (init : u.Idx → Ideal φ)
    (h' : Shape.ReducesTo ⟨5, ![n0, n1, n2, n3, n4]⟩ [1] ⟨4, ![n0, n2, n3, n4]⟩) (hu : 0 < u.numel)
    (hinit : init (Shape.Idx.first hu) = ⊥) (j : (⟨4, ![n0, n2, n3, n4]⟩ : Shape).Idx) :
    Host.reduce (FloatOps.maximumf (F := Ideal) (φ := φ)) x init h' hu j
      = (Finset.univ : Finset (Fin n1)).sup (fun c => x (ix5 (j 0) c (j 1) (j 2) (j 3))) := by
  rw [Host.reduce_eq_fold, hinit]
  refine (fold_filter_drop_of_lift h' _ _ x j (fun c => ix5 (j 0) c (j 1) (j 2) (j 3)) (fun i => i 1) ?_
    (fun _ => rfl) ?_).trans (fold_max_bot _ _)
  · intro c; funext b
    match b with
    | ⟨0, _⟩ => rfl
    | ⟨1, _⟩ => rfl
    | ⟨2, _⟩ => rfl
    | ⟨3, _⟩ => rfl
  · intro i hi; subst hi; funext a
    match a with
    | ⟨0, _⟩ => rfl
    | ⟨1, _⟩ => rfl
    | ⟨2, _⟩ => rfl
    | ⟨3, _⟩ => rfl
    | ⟨4, _⟩ => rfl

end General

/-! ## The softmax over the class axis, voxel by voxel -/

section Softmax
variable (x0 : (⟨S2x4x96x160x160, .f32⟩ : BufTy).Contents (Elt Ideal))

/-- A voxel's index with the class axis dropped, after the two broadcasts that bring the maximum back. -/
theorem idx_v3_v4 (n : Fin 2) (c : Fin 4) (d : Fin 96) (h w : Fin 160) :
    idx_main_v3 (idx_main_v4 (ix5 n c d h w)) = ix4 n d h w :=
  funext fun a => Fin.ext (by
    match a with
    | ⟨0, _⟩ => rfl
    | ⟨1, _⟩ => rfl
    | ⟨2, _⟩ => rfl
    | ⟨3, _⟩ => rfl)

/-- The same for the two broadcasts that bring the denominator back. -/
theorem idx_v8_v9 (n : Fin 2) (c : Fin 4) (d : Fin 96) (h w : Fin 160) :
    idx_main_v8 (idx_main_v9 (ix5 n c d h w)) = ix4 n d h w :=
  funext fun a => Fin.ext (by
    match a with
    | ⟨0, _⟩ => rfl
    | ⟨1, _⟩ => rfl
    | ⟨2, _⟩ => rfl
    | ⟨3, _⟩ => rfl)

/-- The `k`-th summand of the denominator at `(n, d, h, w)` sits at `(n, k, d, h, w)`. -/
theorem idx_v7 (n : Fin 2) (d : Fin 96) (h w : Fin 160) (k : Fin 4) :
    idx_main_v7 (ix4 n d h w) k = ix5 n k d h w :=
  funext fun a => Fin.ext (by
    match a with
    | ⟨0, _⟩ => rfl
    | ⟨1, _⟩ => rfl
    | ⟨2, _⟩ => rfl
    | ⟨3, _⟩ => rfl
    | ⟨4, _⟩ => rfl)

/-- The maximum over the class axis from `-∞` is the largest of the four logits. -/
theorem v0_at (n : Fin 2) (d : Fin 96) (h w : Fin 160) :
    val_main_v0 (F := Ideal) x0 (ix4 n d h w) = smMax (fun c' => segA x0 n c' d h w) := by
  unfold val_main_v0
  exact hostMax_axis1_of5 (φ := .f32) x0 (val_main_cst (F := Ideal)) reducesTo_S2x4x96x160x160_S2x96x160x160_d1 h_S_
    ofBits_neg_inf_f32 (ix4 n d h w)

/-- A further maximum with `-∞` changes nothing. -/
theorem v2_at (n : Fin 2) (d : Fin 96) (h w : Fin 160) :
    val_main_v2 (F := Ideal) x0 (ix4 n d h w) = smMax (fun c' => segA x0 n c' d h w) := by
  rw [val_main_v2_apply, val_main_v1_apply, val_main_cst_0_apply, v0_at]
  simp only [Ideal.maximumf_def, Ideal.ofBits_def, ofBits_neg_inf_f32, max_bot_left]

/-- The exponential of the logit less the maximum is the softmax numerator. -/
theorem v6_at (n : Fin 2) (c : Fin 4) (d : Fin 96) (h w : Fin 160) :
    val_main_v6 (F := Ideal) x0 (ix5 n c d h w) = smExp (fun c' => segA x0 n c' d h w) c := by
  rw [val_main_v6_apply, val_main_v5_apply, val_main_v4_apply, val_main_v3_apply, idx_v3_v4, v2_at]
  rfl

/-- The sum of the four numerators from `0` is the softmax denominator. -/
theorem v7_at (n : Fin 2) (d : Fin 96) (h w : Fin 160) :
    val_main_v7 (F := Ideal) x0 (ix4 n d h w) = smSum (fun c' => segA x0 n c' d h w) := by
  rw [val_main_v7_apply, val_main_cst_1_apply, Ideal.ofBits_def, Ideal.ofBits_zero_f32, zero_add]
  exact Finset.sum_congr rfl fun k _ => (congrArg (val_main_v6 (F := Ideal) x0) (idx_v7 n d h w k)).trans (v6_at x0 n k d h w)

/-- The quotient of numerator and denominator is the probability in quotient form. -/
theorem v10_at (n : Fin 2) (c : Fin 4) (d : Fin 96) (h w : Fin 160) :
    val_main_v10 (F := Ideal) x0 (ix5 n c d h w) = probR (fun c' => segA x0 n c' d h w) c := by
  rw [val_main_v10_apply, val_main_v9_apply, val_main_v8_apply, idx_v8_v9, v7_at, v6_at]
  rfl

end Softmax

/-! ## The one-hot encoding of the class label, voxel by voxel -/

section OneHot
variable (x2 : (⟨S2x1x96x160x160, .i32⟩ : BufTy).Contents (Elt Ideal))

/-- An equality test of two words, read unsigned as a float, is the indicator of the equality. -/
theorem uitofp_cmpi_eq (a b : BitVec 32) :
    (FloatOps.uitofp (F := Ideal) .f32 (IntOp.cmpi .eq a b) : Ideal .f32) = ind a b := by
  show (((IntOp.cmpi .eq a b).toNat : ℝ) : EReal) = ind a b
  unfold ind IntOp.cmpi
  by_cases hab : a = b
  · subst hab; simp
  · simp [hab]

/-- The label array with its unit axis dropped reads, at `(n, d, h, w)`, the label at `(n, 0, d, h, w)`: the two have
    the same row-major position. -/
theorem idx_v11 (n : Fin 2) (d : Fin 96) (h w : Fin 160) : idx_main_v11 (ix4 n d h w) = ix5 n (0 : Fin 1) d h w :=
  funext fun a => Fin.ext (by
    have hn := n.isLt; have hd := d.isLt; have hh := h.isLt; have hw := w.isLt
    match a with
    | ⟨0, _⟩ => show (((n.val * 96 + d.val) * 160 + h.val) * 160 + w.val) / 2457600 = n.val; omega
    | ⟨1, _⟩ => rfl
    | ⟨2, _⟩ => show (((n.val * 96 + d.val) * 160 + h.val) * 160 + w.val) / 25600 % 96 = d.val; omega
    | ⟨3, _⟩ => show (((n.val * 96 + d.val) * 160 + h.val) * 160 + w.val) / 160 % 160 = h.val; omega
    | ⟨4, _⟩ => show (((n.val * 96 + d.val) * 160 + h.val) * 160 + w.val) % 160 = w.val; omega)

/-- Through the transposition and the two broadcasts, the label compared at `(n, c, d, h, w)` is the one at `(n, d, h, w)`. -/
theorem idx_label (n : Fin 2) (c : Fin 4) (d : Fin 96) (h w : Fin 160) :
    idx_main_call0_v0 (idx_main_call0_v2 (idx_main_v13 (ix5 n c d h w))) = ix4 n d h w :=
  funext fun a => Fin.ext (by
    match a with
    | ⟨0, _⟩ => rfl
    | ⟨1, _⟩ => rfl
    | ⟨2, _⟩ => rfl
    | ⟨3, _⟩ => rfl)

/-- The transposed one-hot encoding at `(n, c, d, h, w)` is the indicator that the label at `(n, d, h, w)` is the word of
    class `c`. -/
theorem v13_at (n : Fin 2) (c : Fin 4) (d : Fin 96) (h w : Fin 160) :
    val_main_v13 (F := Ideal) x2 (ix5 n c d h w) = ind (labA x2 n d h w) (cls c) := by
  rw [val_main_v13_apply, val_main_v12_apply, val_main_call0_v4_apply, val_main_call0_v2_apply,
    val_main_call0_v0_apply, val_main_v11_apply, val_main_call0_v3_apply, val_main_call0_v1_apply, idx_label, idx_v11]
  exact uitofp_cmpi_eq _ _

end OneHot

/-! ## The three totals of a class, and the closing formula -/

section Totals
variable (x0 : (⟨S2x4x96x160x160, .f32⟩ : BufTy).Contents (Elt Ideal))
  (x2 : (⟨S2x1x96x160x160, .i32⟩ : BufTy).Contents (Elt Ideal))

/-- The product of probability and indicator is the first dice term. -/
theorem v14_at (n : Fin 2) (c : Fin 4) (d : Fin 96) (h w : Fin 160) :
    val_main_v14 (F := Ideal) x0 x2 (ix5 n c d h w)
      = diceTermR 0 c (fun c' => segA x0 n c' d h w) (labA x2 n d h w) := by
  rw [val_main_v14_apply, v10_at, v13_at]
  rfl

/-- The sum of the products over `(n, d, h, w)` from `0` is the first dice total of class `c`. -/
theorem v15_at (c : Fin 4) : val_main_v15 (F := Ideal) x0 x2 (ix1 c) = diceR (segA x0) (labA x2) c 0 := by
  unfold val_main_v15
  refine (hostSum_axes0234_of5 (φ := .f32) (val_main_v14 (F := Ideal) x0 x2) (val_main_cst_2 (F := Ideal))
    reducesTo_S2x4x96x160x160_S4_d0_2_3_4 h_S_ (ix1 c)).trans ?_
  rw [val_main_cst_2_apply, Ideal.ofBits_def, Ideal.ofBits_zero_f32, zero_add]
  unfold diceR
  exact Finset.sum_congr rfl fun n _ => Finset.sum_congr rfl fun d _ => Finset.sum_congr rfl fun h _ =>
    Finset.sum_congr rfl fun w _ => v14_at x0 x2 n c d h w

/-- The sum of the probabilities is the second dice total. -/
theorem v16_at (c : Fin 4) : val_main_v16 (F := Ideal) x0 (ix1 c) = diceR (segA x0) (labA x2) c 1 := by
  unfold val_main_v16
  refine (hostSum_axes0234_of5 (φ := .f32) (val_main_v10 (F := Ideal) x0) (val_main_cst_3 (F := Ideal))
    reducesTo_S2x4x96x160x160_S4_d0_2_3_4 h_S_ (ix1 c)).trans ?_
  rw [val_main_cst_3_apply, Ideal.ofBits_def, Ideal.ofBits_zero_f32, zero_add]
  unfold diceR
  exact Finset.sum_congr rfl fun n _ => Finset.sum_congr rfl fun d _ => Finset.sum_congr rfl fun h _ =>
    Finset.sum_congr rfl fun w _ => v10_at x0 n c d h w

/-- The sum of the indicators is the third dice total. -/
theorem v17_at (c : Fin 4) : val_main_v17 (F := Ideal) x2 (ix1 c) = diceR (segA x0) (labA x2) c 2 := by
  unfold val_main_v17
  refine (hostSum_axes0234_of5 (φ := .f32) (val_main_v13 (F := Ideal) x2) (val_main_cst_4 (F := Ideal))
    reducesTo_S2x4x96x160x160_S4_d0_2_3_4 h_S_ (ix1 c)).trans ?_
  rw [val_main_cst_4_apply, Ideal.ofBits_def, Ideal.ofBits_zero_f32, zero_add]
  unfold diceR
  exact Finset.sum_congr rfl fun n _ => Finset.sum_congr rfl fun d _ => Finset.sum_congr rfl fun h _ =>
    Finset.sum_congr rfl fun w _ => v13_at x2 n c d h w

end Totals

/-- The reference's region loss is the closing formula applied to the voxel-by-voxel dice totals. -/
theorem region_eq (x0 : (⟨S2x4x96x160x160, .f32⟩ : BufTy).Contents (Elt Ideal))
    (x2 : (⟨S2x1x96x160x160, .i32⟩ : BufTy).Contents (Elt Ideal)) (i : S_.Idx) :
    val_main_v29 (F := Ideal) x0 x2 i = Cert.Losses.regionLoss (Cert.Losses.diceR (segA x0) (labA x2)) := by
  rw [val_main_v29_apply, val_main_v28_apply, val_main_v27_apply, val_main_v26_apply, val_main_cst_11_apply,
    val_main_cst_10_apply, val_main_cst_9_apply, val_main_cst_8_apply, sum_idx1]
  simp only [val_main_v25_apply, val_main_v22_apply, val_main_v24_apply, val_main_v20_apply, val_main_v18_apply,
    val_main_v19_apply, val_main_v21_apply, val_main_v23_apply, val_main_cst_5_apply, val_main_cst_6_apply,
    val_main_cst_7_apply, v15_at x0 x2, v16_at x0 x2, v17_at x0 x2, Ideal.mulf_def, Ideal.subf_def, Ideal.addf_def,
    Ideal.hostDivf_def, Ideal.ofBits_def]
  rfl

end Cert.ReferenceIdeal.RefValue

end
-- ==== Proof.RefEdge.lean ====
/-
  The reference's edge loss is the class-balanced cross-entropy of the mathematics.

  The reference flattens the edge logits and the edge labels of each batch to one axis of 96 · 160 · 160 voxels, the flat
  position of voxel (d, h, w) being (d · 160 + h) · 160 + w. On that layout it counts the labels equal to one and the
  labels equal to zero (wrapping 32-bit sums of the widened comparison bits), forms each voxel's weight from the two
  counts and each voxel's stable cross-entropy, and divides the total of their products by the number of voxels.
  Read voxel by voxel, with every total carried along the bijection between flat positions and triples (d, h, w), this is
  the closing formula of the mathematics at the two counts.
-/
import proofs.«420524_j90795608638213_4_alg».proof.Proof.Gen.ReferenceIdeal.Read
import proofs.«420524_j90795608638213_4_alg».proof.Proof.Spec
import proofs.«420524_j90795608638213_4_alg».proof.Proof.LibSums
import Idealize.ShloMosaic.Lib.StableHlo.Predicate
import Idealize.ShloMosaic.Lib.ValueIdx
import Idealize.ShloMosaic.PureOps.Ideal.Laws
import Idealize.ShloMosaic.PureOps.Reduce
import Mathlib.Algebra.BigOperators.Fin

noncomputable section

open scoped BigOperators

namespace Cert.ReferenceIdeal.RefValue

open Cert.ReferenceIdeal Cert.ReferenceIdeal.Gen Cert.ReferenceIdeal.Read Cert.Losses Idealize.ShloMosaic
  Idealize.ShloMosaic.ValueIdx Idealize.ShloMosaic.LibSums

/-- The edge logits by coordinates. -/
def edgA (x1 : (⟨S2x1x96x160x160, .f32⟩ : BufTy).Contents (Elt Ideal)) : Cert.Losses.Edg := fun n d h w => x1 (ix5 n 0 d h w)
/-- The edge labels by coordinates. -/
def labE (x3 : (⟨S2x1x96x160x160, .i32⟩ : BufTy).Contents (Elt Ideal)) : Cert.Losses.Lab := fun n d h w => x3 (ix5 n 0 d h w)

/-! ## A flat voxel position and its three coordinates -/

/-- Depth of the flat position `k`. -/
def dK (k : Fin 2457600) : Fin 96 := ⟨k.val / 25600, by have := k.isLt; omega⟩
/-- Height of the flat position `k`. -/
def hK (k : Fin 2457600) : Fin 160 := ⟨k.val / 160 % 160, Nat.mod_lt _ (by decide)⟩
/-- Width of the flat position `k`. -/
def wK (k : Fin 2457600) : Fin 160 := ⟨k.val % 160, Nat.mod_lt _ (by decide)⟩
/-- The flat position of the voxel `(d, h, w)`. -/
def flatK (d : Fin 96) (h w : Fin 160) : Fin 2457600 :=
  ⟨(d.val * 160 + h.val) * 160 + w.val, by have := d.isLt; have := h.isLt; have := w.isLt; omega⟩

theorem dK_flatK (d : Fin 96) (h w : Fin 160) : dK (flatK d h w) = d :=
  Fin.ext (by
    have := d.isLt; have := h.isLt; have := w.isLt
    show ((d.val * 160 + h.val) * 160 + w.val) / 25600 = d.val
    omega)
theorem hK_flatK (d : Fin 96) (h w : Fin 160) : hK (flatK d h w) = h :=
  Fin.ext (by
    have := d.isLt; have := h.isLt; have := w.isLt
    show ((d.val * 160 + h.val) * 160 + w.val) / 160 % 160 = h.val
    omega)
theorem wK_flatK (d : Fin 96) (h w : Fin 160) : wK (flatK d h w) = w :=
  Fin.ext (by
    have := d.isLt; have := h.isLt; have := w.isLt
    show ((d.val * 160 + h.val) * 160 + w.val) % 160 = w.val
    omega)
theorem flatK_coords (k : Fin 2457600) : flatK (dK k) (hK k) (wK k) = k :=
  Fin.ext (by
    have := k.isLt
    show (k.val / 25600 * 160 + k.val / 160 % 160) * 160 + k.val % 160 = k.val
    omega)

/-- Flat positions and triples `(d, h, w)` correspond one to one. -/
def kEquiv : Fin 2457600 ≃ Fin 96 × Fin 160 × Fin 160 where
  toFun k := (dK k, hK k, wK k)
  invFun p := flatK p.1 p.2.1 p.2.2
  left_inv k := flatK_coords k
  right_inv p := Prod.ext (dK_flatK _ _ _) (Prod.ext (hK_flatK _ _ _) (wK_flatK _ _ _))

/-- A total over the flat positions is the triple total over depth, height and width. -/
theorem sum_flat3 {M : Type*} [AddCommMonoid M] (G : Fin 96 → Fin 160 → Fin 160 → M) :
    ∑ k : Fin 2457600, G (dK k) (hK k) (wK k) = ∑ d : Fin 96, ∑ h : Fin 160, ∑ w : Fin 160, G d h w := by
  rw [Fintype.sum_equiv kEquiv (fun k => G (dK k) (hK k) (wK k)) (fun p => G p.1 p.2.1 p.2.2) (fun _ => rfl)]
  simp only [Fintype.sum_prod_type]

/-! ## The flattened arrays read at a voxel -/

/-- The flattening sends `(n, k)` to the voxel `(n, 0, d, h, w)` with the same row-major position. -/
theorem idx30_ix (n : Fin 2) (k : Fin 2457600) : idx_main_v30 (ix2 n k) = ix5 n 0 (dK k) (hK k) (wK k) :=
  funext fun a => Fin.ext (by
    have hn := n.isLt; have hk := k.isLt
    match a with
    | ⟨0, _⟩ => show (n.val * 2457600 + k.val) / 2457600 = n.val; omega
    | ⟨1, _⟩ => rfl
    | ⟨2, _⟩ => show (n.val * 2457600 + k.val) / 25600 % 96 = k.val / 25600; omega
    | ⟨3, _⟩ => show (n.val * 2457600 + k.val) / 160 % 160 = k.val / 160 % 160; omega
    | ⟨4, _⟩ => show (n.val * 2457600 + k.val) % 160 = k.val % 160; omega)

theorem idx31_ix (n : Fin 2) (k : Fin 2457600) : idx_main_v31 (ix2 n k) = ix5 n 0 (dK k) (hK k) (wK k) :=
  idx30_ix n k

variable (x1 : (⟨S2x1x96x160x160, .f32⟩ : BufTy).Contents (Elt Ideal))
  (x3 : (⟨S2x1x96x160x160, .i32⟩ : BufTy).Contents (Elt Ideal))

/-- The flattened logits at `(n, k)`. -/
theorem v30_at (n : Fin 2) (k : Fin 2457600) :
    val_main_v30 (F := Ideal) x1 (ix2 n k) = edgA x1 n (dK k) (hK k) (wK k) :=
  (val_main_v30_apply x1 (ix2 n k)).trans (congrArg x1 (idx30_ix n k))

/-- The flattened labels at `(n, k)`. -/
theorem v31_at (n : Fin 2) (k : Fin 2457600) :
    val_main_v31 (F := Ideal) x3 (ix2 n k) = labE x3 n (dK k) (hK k) (wK k) :=
  (val_main_v31_apply x3 (ix2 n k)).trans (congrArg x3 (idx31_ix n k))

/-- The flattened labels at the flat position of `(d, h, w)`. -/
theorem v31_flat (n : Fin 2) (d : Fin 96) (h w : Fin 160) :
    val_main_v31 (F := Ideal) x3 (ix2 n (flatK d h w)) = labE x3 n d h w := by
  rw [v31_at, dK_flatK, hK_flatK, wK_flatK]

/-! ## The two counts -/

/-- A 32-bit sum over both axes of the flattened layout, from the initial word, is the fold over `(n, d, h, w)`. -/
theorem count_fold (msk : S2x2457600.Idx → BitVec 32) (init : S_.Idx → BitVec 32) (i : S_.Idx) :
    Host.reduce IntOp.addi msk init reducesTo_S2x2457600_S_d0_1 h_S_ i
      = (Finset.univ : Finset (Fin 2 × Fin 96 × Fin 160 × Fin 160)).fold IntOp.addi (init (Shape.Idx.first h_S_))
          (fun p => msk (ix2 p.1 (flatK p.2.1 p.2.2.1 p.2.2.2))) := by
  rw [Host.reduce_eq_fold]
  refine fold_filter_drop_of_lift reducesTo_S2x2457600_S_d0_1 IntOp.addi _ msk i
    (fun p : Fin 2 × Fin 96 × Fin 160 × Fin 160 => ix2 p.1 (flatK p.2.1 p.2.2.1 p.2.2.2))
    (fun j => (j 0, dK (j 1), hK (j 1), wK (j 1))) ?_ ?_ ?_
  · intro p; funext b; exact b.elim0
  · intro p
    exact Prod.ext rfl (Prod.ext (dK_flatK _ _ _) (Prod.ext (hK_flatK _ _ _) (wK_flatK _ _ _)))
  · intro j _
    funext a
    match a with
    | ⟨0, _⟩ => rfl
    | ⟨1, _⟩ => exact flatK_coords (j 1)

/-- How many labels are one, as the reference sums it. -/
theorem v38_eq (i : S_.Idx) : val_main_v38 (F := Ideal) x3 i = countWord (labE x3) 1#32 := by
  unfold val_main_v38
  refine (count_fold _ _ i).trans ?_
  unfold countWord
  refine congrArg (fun g => (Finset.univ : Finset (Fin 2 × Fin 96 × Fin 160 × Fin 160)).fold IntOp.addi 0#32 g) ?_
  funext p
  rw [val_main_v37_apply, val_main_v34_apply, val_main_v33_apply, val_main_c_apply, v31_flat]

/-- How many labels are zero, as the reference sums it. -/
theorem v41_eq (i : S_.Idx) : val_main_v41 (F := Ideal) x3 i = countWord (labE x3) 0#32 := by
  unfold val_main_v41
  refine (count_fold _ _ i).trans ?_
  unfold countWord
  refine congrArg (fun g => (Finset.univ : Finset (Fin 2 × Fin 96 × Fin 160 × Fin 160)).fold IntOp.addi 0#32 g) ?_
  funext p
  rw [val_main_v40_apply, val_main_v36_apply, val_main_v35_apply, val_main_c_12_apply, v31_flat]

/-! ## The weight and the cross-entropy of a voxel -/

/-- A select on "the word is `k`" is the `if`. -/
theorem select_cmpi_eq {α : Type} (t k : BitVec 32) (a b : α) :
    Scalar.select (IntOp.cmpi .eq t k) a b = if t = k then a else b := by
  by_cases h : t = k
  · rw [if_pos h, StableHlo.Predicate.cmpi_eq_iff.2 h, select_one]
  · rw [if_neg h, eq_zero_of_ne_one (fun e => h (StableHlo.Predicate.cmpi_eq_iff.1 e)), select_zero]

/-- A word converted signed is its integer value. -/
theorem sitofp_ideal (b : BitVec 32) : FloatOps.sitofp (F := Ideal) .f32 b = ((b.toInt : ℝ) : EReal) := rfl

/-- The count of ones as an extended real. -/
abbrev pcR : EReal := (((countWord (labE x3) 1#32).toInt : ℝ) : EReal)
/-- The count of zeros as an extended real. -/
abbrev ncR : EReal := (((countWord (labE x3) 0#32).toInt : ℝ) : EReal)

/-- The class-balancing weight the reference selects at `(n, k)`. -/
theorem v47_at (n : Fin 2) (k : Fin 2457600) :
    val_main_v47 (F := Ideal) x3 (ix2 n k) = wgt (labE x3 n (dK k) (hK k) (wK k)) (pcR x3) (ncR x3) := by
  rw [val_main_v47_apply, val_main_v34_apply, val_main_v33_apply, val_main_c_apply, val_main_call2_v0_apply,
    val_main_v44_apply, val_main_v46_apply, val_main_v36_apply, val_main_v35_apply, val_main_c_12_apply,
    val_main_call1_v0_apply, val_main_v45_apply, val_main_call1_v1_apply, val_main_cst_15_apply]
  simp only [val_main_v43_apply, val_main_v39_apply, val_main_v42_apply, v38_eq, v41_eq, v31_at, select_cmpi_eq,
    sitofp_ideal, Ideal.ofBits_def, Ideal.addf_def, Ideal.hostDivf_def, Ideal.ofBits_zero_f32]
  rfl

/-- The stable cross-entropy the reference forms at `(n, k)`. -/
theorem v56_at (n : Fin 2) (k : Fin 2457600) :
    val_main_v56 (F := Ideal) x1 x3 (ix2 n k)
      = bceR (edgA x1 n (dK k) (hK k) (wK k)) (labE x3 n (dK k) (hK k) (wK k)) := by
  rw [val_main_v56_apply, val_main_v51_apply, val_main_v49_apply, val_main_v48_apply, val_main_cst_16_apply,
    val_main_v50_apply, val_main_v32_apply, val_main_v55_apply, val_main_v54_apply, val_main_v53_apply,
    val_main_v52_apply]
  simp only [v30_at, v31_at, sitofp_ideal, Ideal.ofBits_def, Ideal.addf_def, Ideal.subf_def, Ideal.mulf_def,
    Ideal.maximumf_def, Ideal.hostUnary_exp_def, Ideal.hostUnary_log1p_def, Ideal.hostNegf_def, Ideal.hostAbsf_def,
    Ideal.negf_def, Ideal.absf_def, Ideal.ofBits_zero_f32]
  rfl

/-- The weighted cross-entropy at `(n, k)`. -/
theorem v57_at (n : Fin 2) (k : Fin 2457600) :
    val_main_v57 (F := Ideal) x1 x3 (ix2 n k)
      = wgt (labE x3 n (dK k) (hK k) (wK k)) (pcR x3) (ncR x3)
          * bceR (edgA x1 n (dK k) (hK k) (wK k)) (labE x3 n (dK k) (hK k) (wK k)) := by
  rw [val_main_v57_apply, v47_at, v56_at]
  rfl

/-! ## The total and the closing formula -/

/-- The total of the weighted cross-entropies over the flattened layout is the total over `(n, d, h, w)`. -/
theorem sum_v57 :
    ∑ j : S2x2457600.Idx, val_main_v57 (F := Ideal) x1 x3 j
      = ∑ n : Fin 2, ∑ d : Fin 96, ∑ h : Fin 160, ∑ w : Fin 160,
          wgt (labE x3 n d h w) (pcR x3) (ncR x3) * bceR (edgA x1 n d h w) (labE x3 n d h w) := by
  refine (sum_idx2 (n0 := 2) (n1 := 2457600) _).trans ?_
  refine Finset.sum_congr rfl fun n _ => ?_
  refine (Finset.sum_congr rfl fun k _ => v57_at x1 x3 n k).trans ?_
  exact sum_flat3 (fun d h w => wgt (labE x3 n d h w) (pcR x3) (ncR x3) * bceR (edgA x1 n d h w) (labE x3 n d h w))

/-- The reference's edge loss is the closing formula of the mathematics at the two counts. -/
theorem edge_eq (x1 : (⟨S2x1x96x160x160, .f32⟩ : BufTy).Contents (Elt Ideal)) (x3 : (⟨S2x1x96x160x160, .i32⟩ : BufTy).Contents (Elt Ideal)) (i : S_.Idx) :
    val_main_v60 (F := Ideal) x1 x3 i = Cert.Losses.edgeLossR (edgA x1) (labE x3)
      (((Cert.Losses.countWord (labE x3) 1#32).toInt : ℝ) : EReal) (((Cert.Losses.countWord (labE x3) 0#32).toInt : ℝ) : EReal) := by
  rw [val_main_v60_apply, val_main_cst_19_apply, val_main_v59_apply, val_main_cst_18_apply, val_main_v58_apply,
    val_main_cst_17_apply, sum_v57]
  rfl

end Cert.ReferenceIdeal.RefValue

end
-- ==== Proof.BridgeDice.lean ====
/-
  The dice totals agree: tile by tile with the probability as a product with a reciprocal, and voxel by voxel with
  the probability as a quotient.

  Two things are shown. At one voxel whose four logits are real numbers, the softmax denominator is a sum of four
  positive reals, hence not zero, so dividing by it is multiplying by its inverse and the two forms of the probability
  coincide. Over the volume, the pairs (depth tile, row) enumerate the 96 depths once each through 8·tile + row, and
  the 25600 lanes enumerate the pairs (height, width) once each through quotient and remainder by 160; sums over
  finite index sets may be carried along such bijections and re-nested at will.
-/
import proofs.«420524_j90795608638213_4_alg».proof.Proof.Spec
import proofs.«420524_j90795608638213_4_alg».proof.Proof.LibSums
import Mathlib.Data.EReal.Operations
import Mathlib.Data.EReal.Inv
import Mathlib.Analysis.SpecialFunctions.Exp
import Mathlib.Algebra.BigOperators.Fin
import Mathlib.Data.Finset.Lattice.Fold
import Mathlib.Tactic.Positivity

noncomputable section

open scoped BigOperators

namespace Cert.Losses

open Idealize.ShloMosaic

/-- Every class logit is a real number. -/
def FiniteSeg (a : Seg) : Prop := ∀ n c d h w, ∃ r : ℝ, a n c d h w = (r : EReal)

/-! ## One voxel -/

/-- With real logits the softmax denominator is not zero: the largest logit is one of the four, every difference to
    it is real, every numerator is the exponential of a real, and four positive reals have a positive sum. -/
theorem smSum_ne_zero (x : Fin 4 → EReal) (hx : ∀ c, ∃ r : ℝ, x c = (r : EReal)) : smSum x ≠ 0 := by
  obtain ⟨i, -, hi⟩ := Finset.exists_mem_eq_sup (Finset.univ : Finset (Fin 4)) Finset.univ_nonempty x
  choose r hr using hx
  have hE : ∀ c, smExp x c = ((Real.exp (r c - r i) : ℝ) : EReal) := by
    intro c
    unfold smExp smMax
    rw [hi, hr c, hr i, ← EReal.coe_sub, Ideal.exp_coe]
  unfold smSum
  rw [Fin.sum_univ_four, hE 0, hE 1, hE 2, hE 3, ← EReal.coe_add, ← EReal.coe_add, ← EReal.coe_add]
  exact EReal.coe_ne_zero.mpr (by positivity)

/-- Dividing by a nonzero denominator is multiplying by its inverse, so the product form and the quotient form of the
    probability are the same extended real. -/
theorem probK_eq_probR (x : Fin 4 → EReal) (hx : ∀ c, ∃ r : ℝ, x c = (r : EReal)) (c : Fin 4) :
    probK x c = probR x c := by
  have hs : smSum x ≠ 0 := smSum_ne_zero x hx
  unfold probK probR Ideal.div
  rw [if_neg hs, if_neg hs, one_mul]

/-- Hence the three dice terms of a voxel with real logits agree in the two forms. -/
theorem diceTermK_eq_diceTermR (j : Fin 3) (c : Fin 4) (x : Fin 4 → EReal) (t : BitVec 32)
    (hx : ∀ c, ∃ r : ℝ, x c = (r : EReal)) : diceTermK j c x t = diceTermR j c x t := by
  unfold diceTermK diceTermR
  rw [probK_eq_probR x hx c]

/-! ## The volume -/

/-- (depth tile, row) ↦ depth 8·tile + row is a bijection onto the 96 depths; back by quotient and remainder. -/
def depthEquiv : Fin 12 × Fin 8 ≃ Fin 96 where
  toFun p := dOf p.1 p.2
  invFun d := (⟨d.val / 8, by omega⟩, ⟨d.val % 8, by omega⟩)
  left_inv p := by
    rcases p with ⟨di, r⟩
    refine Prod.ext (Fin.ext ?_) (Fin.ext ?_)
    · show (8 * di.val + r.val) / 8 = di.val
      omega
    · show (8 * di.val + r.val) % 8 = r.val
      omega
  right_inv d := by
    refine Fin.ext ?_
    show 8 * (d.val / 8) + d.val % 8 = d.val
    omega

/-- lane ↦ (height, width) by quotient and remainder by 160 is a bijection; back by 160·height + width. -/
def laneEquiv : Fin 25600 ≃ Fin 160 × Fin 160 where
  toFun l := (hOf l, wOf l)
  invFun p := ⟨160 * p.1.val + p.2.val, by omega⟩
  left_inv l := by
    refine Fin.ext ?_
    show 160 * (l.val / 160) + l.val % 160 = l.val
    omega
  right_inv p := by
    rcases p with ⟨h, w⟩
    refine Prod.ext (Fin.ext ?_) (Fin.ext ?_)
    · show (160 * h.val + w.val) / 160 = h.val
      omega
    · show (160 * h.val + w.val) % 160 = w.val
      omega

/-- Summing over depth tiles and rows the term at depth 8·tile + row is summing over all depths. -/
theorem sum_depth {M : Type*} [AddCommMonoid M] (f : Fin 96 → M) :
    ∑ di : Fin 12, ∑ r : Fin 8, f (dOf di r) = ∑ d : Fin 96, f d :=
  (Fintype.sum_prod_type' (fun di r => f (dOf di r))).symm.trans
    (Fintype.sum_equiv depthEquiv (fun p => f (dOf p.1 p.2)) f (fun _ => rfl))

/-- Summing over lanes the term at (quotient, remainder) is summing over all heights and widths. -/
theorem sum_lane {M : Type*} [AddCommMonoid M] (g : Fin 160 → Fin 160 → M) :
    ∑ l : Fin 25600, g (hOf l) (wOf l) = ∑ h : Fin 160, ∑ w : Fin 160, g h w :=
  (Fintype.sum_equiv laneEquiv (fun l => g (hOf l) (wOf l)) (fun p => g p.1 p.2) (fun _ => rfl)).trans
    (Fintype.sum_prod_type' g)

/-- The dice totals taken tile by tile in product form are the dice totals taken voxel by voxel in quotient form,
    when every logit is real: voxel by voxel the terms agree, and the tiles' elements are the voxels, each once. -/
theorem diceK_eq_diceR (a : Seg) (s : Lab) (ha : FiniteSeg a) : diceK a s = diceR a s := by
  funext c j
  unfold diceK diceR tileDice segTile labTile
  refine Finset.sum_congr rfl fun n _ => ?_
  have hvox : ∀ (di : Fin 12) (r : Fin 8) (l : Fin 25600),
      diceTermK j c (fun c' => a n c' (dOf di r) (hOf l) (wOf l)) (s n (dOf di r) (hOf l) (wOf l))
        = diceTermR j c (fun c' => a n c' (dOf di r) (hOf l) (wOf l)) (s n (dOf di r) (hOf l) (wOf l)) :=
    fun di r l => diceTermK_eq_diceTermR j c _ _ (fun c' => ha n c' (dOf di r) (hOf l) (wOf l))
  have hlane : ∀ (di : Fin 12) (r : Fin 8),
      ∑ l : Fin 25600,
          diceTermK j c (fun c' => a n c' (dOf di r) (hOf l) (wOf l)) (s n (dOf di r) (hOf l) (wOf l))
        = ∑ h : Fin 160, ∑ w : Fin 160,
          diceTermR j c (fun c' => a n c' (dOf di r) h w) (s n (dOf di r) h w) := fun di r =>
    (Finset.sum_congr rfl fun l _ => hvox di r l).trans
      (sum_lane (fun h w => diceTermR j c (fun c' => a n c' (dOf di r) h w) (s n (dOf di r) h w)))
  refine (Finset.sum_congr rfl fun di _ => Finset.sum_congr rfl fun r _ => hlane di r).trans ?_
  exact sum_depth (fun d => ∑ h : Fin 160, ∑ w : Fin 160, diceTermR j c (fun c' => a n c' d h w) (s n d h w))

end Cert.Losses

end
-- ==== Proof.BridgeEdge.lean ====
/-
  The edge loss gathered tile by tile equals the edge loss written voxel by voxel.

  Two facts. First, the 32-bit wrapping sum of the widened comparison bits is the true number of labels
  equal to a word: there are 2 · 96 · 160 · 160 = 4915200 voxels, far below 2³¹, so nothing wraps and the signed
  reading is the count. Second, with every edge logit a real number, the closing formula applied to the four
  tile-by-tile totals is the closing formula of the weighted voxel-by-voxel sum. The tiles (12 depth tiles of 8 rows,
  lanes a flattened (h, w)) list every voxel once, so the four totals are sums over voxels; the voxel term
  weight · cross-entropy is (other class's share) · (cross-entropy against 1) where the label is 1, (other share) ·
  (cross-entropy against 0) where it is 0, and 0 elsewhere; and a constant factor leaves a finite sum of NON-NEGATIVE
  extended reals term by term — the cross-entropies of a real logit are non-negative reals — whatever the factor is,
  an infinity or the junk value of a division by zero included. So no case split on the counts is needed.
-/
import proofs.«420524_j90795608638213_4_alg».proof.Proof.Spec
import proofs.«420524_j90795608638213_4_alg».proof.Proof.LibSums
import Idealize.ShloMosaic.Lib.StableHlo.Predicate
import Mathlib.Data.EReal.Operations
import Mathlib.Analysis.SpecialFunctions.Log.Basic
import Mathlib.Algebra.Order.BigOperators.Group.Finset
import Mathlib.Data.Fintype.BigOperators
import Mathlib.Tactic.Ring
import Mathlib.Tactic.Linarith
import Mathlib.Tactic.Positivity
import Mathlib.Tactic.Choose

noncomputable section

open scoped BigOperators

namespace Cert.Losses

open Idealize.ShloMosaic

/-- Every edge logit is a real number. -/
def FiniteEdg (e : Edg) : Prop := ∀ n d h w, ∃ r : ℝ, e n d h w = (r : EReal)

/- The auxiliary statements are kept apart in `Cert.Losses.Edge`; the finiteness predicate, the count as a signed word
   and the equality of the two edge losses are stated in `Cert.Losses`. -/
namespace Edge

/-! ## Tiles list every voxel once -/

section Reindex

variable {M : Type*} [AddCommMonoid M]

/-- Row \`r\` of depth tile \`di\` is depth \`8 · di + r\`: the twelve tiles of eight rows are the 96 depths. -/
def depthEquiv : Fin 12 × Fin 8 ≃ Fin 96 where
  toFun p := dOf p.1 p.2
  invFun d := (⟨d.val / 8, by omega⟩, ⟨d.val % 8, by omega⟩)
  left_inv p := by
    rcases p with ⟨di, r⟩
    apply Prod.ext <;> apply Fin.ext <;> simp only [dOf] <;> omega
  right_inv d := by apply Fin.ext; simp only [dOf]; omega

/-- Lane \`l\` is \`(l / 160, l % 160)\`: the 25600 lanes are the 160 × 160 plane. -/
def laneEquiv : Fin 25600 ≃ Fin 160 × Fin 160 where
  toFun l := (hOf l, wOf l)
  invFun q := ⟨160 * q.1.val + q.2.val, by omega⟩
  left_inv l := by apply Fin.ext; simp only [hOf, wOf]; omega
  right_inv q := by
    rcases q with ⟨h, w⟩
    apply Prod.ext <;> apply Fin.ext <;> simp only [hOf, wOf] <;> omega

theorem sum_depth (f : Fin 96 → M) : ∑ di : Fin 12, ∑ r : Fin 8, f (dOf di r) = ∑ d : Fin 96, f d :=
  (Fintype.sum_prod_type' (fun di r => f (dOf di r))).symm.trans
    (Fintype.sum_equiv depthEquiv (fun p => f (dOf p.1 p.2)) f (fun _ => rfl))

theorem sum_lane (g : Fin 160 → Fin 160 → M) :
    ∑ l : Fin 25600, g (hOf l) (wOf l) = ∑ h : Fin 160, ∑ w : Fin 160, g h w :=
  (Fintype.sum_equiv laneEquiv (fun l => g (hOf l) (wOf l)) (fun q => g q.1 q.2) (fun _ => rfl)).trans
    (Fintype.sum_prod_type' g)

/-- A sum over depth tiles, rows and lanes of a term of the voxel's coordinates is the sum over \`(d, h, w)\`. -/
theorem sum_tiles (g : Fin 96 → Fin 160 → Fin 160 → M) :
    ∑ di : Fin 12, ∑ r : Fin 8, ∑ l : Fin 25600, g (dOf di r) (hOf l) (wOf l)
      = ∑ d : Fin 96, ∑ h : Fin 160, ∑ w : Fin 160, g d h w := by
  rw [← sum_depth (fun d => ∑ h : Fin 160, ∑ w : Fin 160, g d h w)]
  exact Finset.sum_congr rfl fun di _ => Finset.sum_congr rfl fun r _ => sum_lane (g (dOf di r))

end Reindex

/-- The tile-by-tile edge totals are sums over voxels. -/
theorem edgeK_vox (e : Edg) (s : Lab) (j : Fin 4) :
    edgeK e s j = ∑ n : Fin 2, ∑ d : Fin 96, ∑ h : Fin 160, ∑ w : Fin 160, edgeTermK j (e n d h w) (s n d h w) := by
  unfold edgeK tileEdge edgTile labTile
  exact Finset.sum_congr rfl fun n _ => sum_tiles (fun d h w => edgeTermK j (e n d h w) (s n d h w))

/-! ## Finite sums and the embedding of the reals -/

/-- The embedding of the reals carries a finite sum to the sum of the embedded terms. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A factor enters a finite sum of non-negative extended reals term by term, whatever the factor. -/
theorem mul_sum_nonneg {ι : Type*} (S : Finset ι) (c : EReal) (f : ι → EReal) (hf : ∀ i ∈ S, 0 ≤ f i) :
    c * ∑ i ∈ S, f i = ∑ i ∈ S, c * f i := by
  classical
  induction S using Finset.induction_on with
  | empty => simp
  | insert a S ha ih =>
    rw [Finset.sum_insert ha, Finset.sum_insert ha,
      EReal.left_distrib_of_nonneg (hf a (Finset.mem_insert_self a S))
        (Finset.sum_nonneg fun i hi => hf i (Finset.mem_insert_of_mem hi)),
      ih fun i hi => hf i (Finset.mem_insert_of_mem hi)]

/-- The same through the four nested sums over the volume. -/
theorem mul_sum4 (c : EReal) (f : Fin 2 → Fin 96 → Fin 160 → Fin 160 → EReal) (hf : ∀ n d h w, 0 ≤ f n d h w) :
    c * ∑ n : Fin 2, ∑ d : Fin 96, ∑ h : Fin 160, ∑ w : Fin 160, f n d h w
      = ∑ n : Fin 2, ∑ d : Fin 96, ∑ h : Fin 160, ∑ w : Fin 160, c * f n d h w := by
  rw [mul_sum_nonneg _ _ _ fun n _ => Finset.sum_nonneg fun d _ => Finset.sum_nonneg fun h _ =>
    Finset.sum_nonneg fun w _ => hf n d h w]
  refine Finset.sum_congr rfl fun n _ => ?_
  rw [mul_sum_nonneg _ _ _ fun d _ => Finset.sum_nonneg fun h _ => Finset.sum_nonneg fun w _ => hf n d h w]
  refine Finset.sum_congr rfl fun d _ => ?_
  rw [mul_sum_nonneg _ _ _ fun h _ => Finset.sum_nonneg fun w _ => hf n d h w]
  refine Finset.sum_congr rfl fun h _ => ?_
  exact mul_sum_nonneg _ _ _ fun w _ => hf n d h w

end Edge

open Edge

/-! ## The count -/

open StableHlo.Predicate in
theorem count_toInt (s : Lab) (k : BitVec 32) : (((countWord s k).toInt : ℝ) : EReal) = countOf s k := by
  classical
  -- the widened comparison bit of a voxel is 1 where the label is \`k\`, else 0
  have hval : ∀ p : Fin 2 × Fin 96 × Fin 160 × Fin 160,
      ((IntOp.cmpi .eq (s p.1 p.2.1 p.2.2.1 p.2.2.2) k).setWidth 32).toNat
        = if s p.1 p.2.1 p.2.2.1 p.2.2.2 = k then 1 else 0 := fun p =>
    (toNat_setWidth_bit _).trans (if_congr cmpi_eq_iff rfl rfl)
  -- so the values add up to at most the number of voxels
  have hle : ∑ p : Fin 2 × Fin 96 × Fin 160 × Fin 160,
      ((IntOp.cmpi .eq (s p.1 p.2.1 p.2.2.1 p.2.2.2) k).setWidth 32).toNat ≤ 4915200 := by
    refine (Finset.sum_le_card_nsmul _ _ 1 fun p _ => ?_).trans ?_
    · rw [hval]; split_ifs <;> omega
    · simp only [Finset.card_univ, Fintype.card_prod, Fintype.card_fin, smul_eq_mul, mul_one]; norm_num
  -- the wrapping sum does not wrap
  have hnat : (countWord s k).toNat = ∑ p : Fin 2 × Fin 96 × Fin 160 × Fin 160,
      ((IntOp.cmpi .eq (s p.1 p.2.1 p.2.2.1 p.2.2.2) k).setWidth 32).toNat :=
    toNat_fold_addi _ _ (by omega)
  have hint : (countWord s k).toInt = ((∑ p : Fin 2 × Fin 96 × Fin 160 × Fin 160,
      ((IntOp.cmpi .eq (s p.1 p.2.1 p.2.2.1 p.2.2.2) k).setWidth 32).toNat : ℕ) : ℤ) := by
    rw [toInt_eq_toNat_of_lt (by rw [hnat]; omega), hnat]
  rw [hint, Int.cast_natCast, Nat.cast_sum, coe_sum]
  unfold countOf
  simp only [Fintype.sum_prod_type]
  refine Finset.sum_congr rfl fun n _ => Finset.sum_congr rfl fun d _ => Finset.sum_congr rfl fun h _ =>
    Finset.sum_congr rfl fun w _ => ?_
  have hv : ((IntOp.cmpi .eq (s n d h w) k).setWidth 32).toNat = if s n d h w = k then 1 else 0 :=
    hval (n, d, h, w)
  rw [hv]
  unfold ind
  split_ifs <;> simp

namespace Edge

/-! ## The cross-entropies of a real logit -/

/-- The cross-entropy of a real logit against the label \`0\`, as a real. -/
def b0 (x : ℝ) : ℝ := max x 0 + Real.log (1 + Real.exp (0 - max x (-x)))

theorem coe_max (x y : ℝ) : ((max x y : ℝ) : EReal) = max (x : EReal) (y : EReal) :=
  EReal.coe_strictMono.monotone.map_max

theorem one_add_exp_pos (y : ℝ) : ¬ (1 + Real.exp y ≤ 0) := not_le.mpr (by positivity)

theorem log_one_add_exp_nonneg (y : ℝ) : 0 ≤ Real.log (1 + Real.exp y) :=
  Real.log_nonneg (by linarith [Real.exp_pos y])

theorem b0_nonneg (x : ℝ) : 0 ≤ b0 x := add_nonneg (le_max_right x 0) (log_one_add_exp_nonneg _)

theorem b1_nonneg (x : ℝ) : 0 ≤ b0 x - x := by
  unfold b0; linarith [le_max_left x 0, log_one_add_exp_nonneg (0 - max x (-x))]

theorem bce0_coe (x : ℝ) : bce0 (x : EReal) = (b0 x : EReal) := by
  unfold bce0 b0 Ideal.log1p
  rw [← EReal.coe_neg, ← EReal.coe_zero, ← coe_max, ← coe_max, ← EReal.coe_sub, Ideal.exp_coe, ← EReal.coe_one,
    ← EReal.coe_add, Ideal.log_coe, if_neg (one_add_exp_pos _), ← EReal.coe_add]

theorem bce1_coe (x : ℝ) : bce1 (x : EReal) = ((b0 x - x : ℝ) : EReal) := by
  unfold bce1; rw [bce0_coe, ← EReal.coe_sub]

/-- The other spelling of the cross-entropy, at a real logit and any label word, is a real. -/
theorem bceR_coe (x : ℝ) (t : BitVec 32) :
    bceR (x : EReal) t
      = ((max x 0 - x * (t.toInt : ℝ) + Real.log (1 + Real.exp (-(max x (-x)))) : ℝ) : EReal) := by
  unfold bceR Ideal.log1p
  rw [← EReal.coe_neg, ← EReal.coe_zero, ← coe_max, ← coe_max, ← EReal.coe_neg, Ideal.exp_coe, ← EReal.coe_one,
    ← EReal.coe_add, Ideal.log_coe, if_neg (one_add_exp_pos _), ← EReal.coe_mul, ← EReal.coe_sub, ← EReal.coe_add]

theorem bceR_one (x : ℝ) : bceR (x : EReal) 1#32 = bce1 (x : EReal) := by
  have h1 : (((1#32 : BitVec 32).toInt : ℤ) : ℝ) = 1 := by
    rw [show (1#32 : BitVec 32).toInt = 1 from by decide]; norm_num
  rw [bceR_coe, bce1_coe, h1]
  refine congrArg _ ?_
  unfold b0; rw [zero_sub]; ring

theorem bceR_zero (x : ℝ) : bceR (x : EReal) 0#32 = bce0 (x : EReal) := by
  have h0 : (((0#32 : BitVec 32).toInt : ℤ) : ℝ) = 0 := by
    rw [show (0#32 : BitVec 32).toInt = 0 from by decide]; norm_num
  rw [bceR_coe, bce0_coe, h0]
  refine congrArg _ ?_
  unfold b0; rw [zero_sub]; ring

end Edge

/-! ## The bridge -/

theorem edge_bridge (e : Edg) (s : Lab) (he : FiniteEdg e) :
    edgeLossK (edgeK e s) = edgeLossR e s (countOf s 1#32) (countOf s 0#32) := by
  choose er her using he
  -- the four totals, voxel by voxel
  have hE0 : edgeK e s 0 = countOf s 1#32 := by rw [edgeK_vox]; rfl
  have hE1 : edgeK e s 1 = countOf s 0#32 := by rw [edgeK_vox]; rfl
  have hE2 : edgeK e s 2 = ∑ n : Fin 2, ∑ d : Fin 96, ∑ h : Fin 160, ∑ w : Fin 160,
      (if s n d h w = 1#32 then bce1 (e n d h w) else 0) := by rw [edgeK_vox]; rfl
  have hE3 : edgeK e s 3 = ∑ n : Fin 2, ∑ d : Fin 96, ∑ h : Fin 160, ∑ w : Fin 160,
      (if s n d h w = 0#32 then bce0 (e n d h w) else 0) := by rw [edgeK_vox]; rfl
  -- the summands are non-negative
  have hA : ∀ n d h w, (0 : EReal) ≤ (if s n d h w = 1#32 then bce1 (e n d h w) else 0) := fun n d h w => by
    split_ifs
    · rw [her, bce1_coe]; exact EReal.coe_nonneg.2 (b1_nonneg _)
    · exact le_refl _
  have hB : ∀ n d h w, (0 : EReal) ≤ (if s n d h w = 0#32 then bce0 (e n d h w) else 0) := fun n d h w => by
    split_ifs
    · rw [her, bce0_coe]; exact EReal.coe_nonneg.2 (b0_nonneg _)
    · exact le_refl _
  -- one voxel of the weighted sum
  have hvox : ∀ n d h w,
      wgt (s n d h w) (countOf s 1#32) (countOf s 0#32) * bceR (e n d h w) (s n d h w)
        = Ideal.div (countOf s 0#32) (countOf s 1#32 + countOf s 0#32)
            * (if s n d h w = 1#32 then bce1 (e n d h w) else 0)
          + Ideal.div (countOf s 1#32) (countOf s 1#32 + countOf s 0#32)
            * (if s n d h w = 0#32 then bce0 (e n d h w) else 0) := fun n d h w => by
    rw [her n d h w]
    unfold wgt
    by_cases h1 : s n d h w = 1#32
    · rw [h1, if_pos rfl, if_pos rfl, if_neg (by decide), mul_zero, add_zero, bceR_one]
    · by_cases h0 : s n d h w = 0#32
      · rw [h0, if_neg (by decide), if_pos rfl, if_neg (by decide), if_pos rfl, mul_zero, zero_add, bceR_zero]
      · rw [if_neg h1, if_neg h0, if_neg h1, if_neg h0, zero_mul, mul_zero, mul_zero, add_zero]
  have key : Ideal.div (countOf s 0#32) (countOf s 1#32 + countOf s 0#32)
        * (∑ n : Fin 2, ∑ d : Fin 96, ∑ h : Fin 160, ∑ w : Fin 160,
            (if s n d h w = 1#32 then bce1 (e n d h w) else 0))
      + Ideal.div (countOf s 1#32) (countOf s 1#32 + countOf s 0#32)
        * (∑ n : Fin 2, ∑ d : Fin 96, ∑ h : Fin 160, ∑ w : Fin 160,
            (if s n d h w = 0#32 then bce0 (e n d h w) else 0))
      = ∑ n : Fin 2, ∑ d : Fin 96, ∑ h : Fin 160, ∑ w : Fin 160,
          wgt (s n d h w) (countOf s 1#32) (countOf s 0#32) * bceR (e n d h w) (s n d h w) := by
    rw [mul_sum4 _ _ hA, mul_sum4 _ _ hB]
    simp only [← Finset.sum_add_distrib]
    exact Finset.sum_congr rfl fun n _ => Finset.sum_congr rfl fun d _ => Finset.sum_congr rfl fun h _ =>
      Finset.sum_congr rfl fun w _ => (hvox n d h w).symm
  unfold edgeLossK edgeLossR
  rw [hE0, hE1, hE2, hE3, key, Ideal.ofBits_zero_f32, zero_add]

end Cert.Losses

end
-- ==== Proof.Finite.lean ====
/-
  The stated precondition says every class logit and every edge logit is a real number.

  The precondition is the conjunction of two "for all entries" tests, one per float argument, each entry's test being
  |x| < +∞ with +∞ given by its 32-bit word. A conjunction of two bits that is 1 has both bits 1; a conjunction over all
  entries that is 1 has the bit 1 at every entry; the word denotes the top element; and an extended real x with
  max x (-x) below the top is neither the bottom (whose negative is the top) nor the top, so it is a real.
-/
import proofs.«420524_j90795608638213_4_alg».proof.Defs
import proofs.«420524_j90795608638213_4_alg».proof.Proof.Gen.Pre_finite_inputs
import proofs.«420524_j90795608638213_4_alg».proof.Proof.KBlocks
import Idealize.ShloMosaic.Lib.ReduceAll
import Idealize.ShloMosaic.Lib.ValueIdx
import Idealize.ShloMosaic.PureOps.Ideal
import Mathlib.Data.EReal.Operations

noncomputable section

namespace Cert.KernelIdeal.Finite

open Cert.KernelIdeal Cert.KernelIdeal.Blocks Idealize.ShloMosaic Idealize.ShloMosaic.TcCoe Idealize.SL.Sem
  Idealize.ShloMosaic.ValueIdx

/-! ## One entry -/

/-- An extended real whose absolute value, max x (-x), is below the top is a real: the bottom's negative is the top,
    so both infinities have the top as absolute value. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The 32-bit word of +∞ denotes the top element. -/
theorem ofBits_pos_inf_f32 : Ideal.ofBits .f32 0x7F800000#32 = ⊤ := by
  simp [Ideal.ofBits, Ideal.ieee]

/-- If the comparison bit of |x| < +∞ is 1, then x is a real. -/
theorem real_of_cmp (x : EReal)
    (h : Ideal.cmp .olt (max x (-x)) (Ideal.ofBits .f32 0x7F800000#32) = 1#1) : ∃ r : ℝ, x = (r : EReal) := by
  rw [ofBits_pos_inf_f32] at h
  change BitVec.ofBool (decide (max x (-x) < (⊤ : EReal))) = 1#1 at h
  by_cases hlt : max x (-x) < (⊤ : EReal)
  · exact real_of_abs_lt_top x hlt
  · rw [decide_eq_false hlt] at h
    exact absurd h (by decide)

/-! ## The two arrays -/

/-- The result of the test has a single index. -/
instance : Subsingleton Cert.Pre_finite_inputs.S_.Idx := ⟨fun a b => funext fun d => d.elim0⟩

/-- Over plain arrays: if the test comes out 1, every entry of both float arrays is a real. -/
theorem finite_of_pre (a0 : FVec Ideal Cert.Pre_finite_inputs.S2x4x96x160x160 .f32)
    (a1 : FVec Ideal Cert.Pre_finite_inputs.S2x1x96x160x160 .f32)
    (a2 a3 : IVec Cert.Pre_finite_inputs.S2x1x96x160x160 32)
    (h : Cert.Pre_finite_inputs.fn (F := Ideal) a0 a1 a2 a3 = fun _ => 1#1) :
    (∀ i, ∃ r : ℝ, a0 i = (r : EReal)) ∧ (∀ i, ∃ r : ℝ, a1 i = (r : EReal)) := by
  have h0 := congrFun h ValueIdx.ix0
  unfold Cert.Pre_finite_inputs.fn at h0
  dsimp only at h0
  obtain ⟨hA, hB⟩ := IntOp.andi_eq_one.1 h0
  refine ⟨fun i => ?_, fun i => ?_⟩
  · exact real_of_cmp (a0 i) (Host.reduce_andi_all _ _ _ _ _ hA i)
  · exact real_of_cmp (a1 i) (Host.reduce_andi_all _ _ _ _ _ hB i)

/-! ## The arguments of a core -/

/-- Every class logit of a core's first argument is a real. -/
theorem seg_finite (m : (ℓ : Loc nD τ sig) → Buf (Elt Ideal) ℓ) (hpre : Cert.Pre_KernelIdeal m) (c : Dev nD) :
    ∀ n k d h w, ∃ r : ℝ, segK m c n k d h w = (r : EReal) :=
  fun n k d h w => (finite_of_pre _ _ _ _ (hpre c)).1 (ix5 n k d h w)

/-- Every edge logit of a core's second argument is a real. -/
theorem edg_finite (m : (ℓ : Loc nD τ sig) → Buf (Elt Ideal) ℓ) (hpre : Cert.Pre_KernelIdeal m) (c : Dev nD) :
    ∀ n d h w, ∃ r : ℝ, edgK m c n d h w = (r : EReal) :=
  fun n d h w => (finite_of_pre _ _ _ _ (hpre c)).2 (ix5 n 0 d h w)

end Cert.KernelIdeal.Finite

end
-- ==== Proof.lean ====
/-
  Two losses of a 3-D segmentation volume — the soft-dice loss of a four-class softmax and a class-balanced binary
  cross-entropy of an edge map — computed by one fused tiled kernel and, separately, by plain array code. Over the
  extended reals the two agree whenever the two float inputs are finite.

  The kernel walks the volume tile by tile (2 batches × 12 depth tiles of 8 × 25600 voxels), keeps per class the totals
  of p·[label = class], p and [label = class] (p the softmax probability, formed as numerator times the reciprocal of
  the denominator) and the four edge totals (labels equal to one, to zero, and the cross-entropy summed over each set)
  in two running accumulators that restart with each batch, writes them out once per batch, and closes on the host:
  dice = (2·I + ε) / ((P + O) + ε) averaged over the classes and taken from one; the edge loss weights the two
  cross-entropy totals by the opposite class's share and divides by the voxel count.

  The array code forms p by a quotient, sums voxel by voxel, counts labels by an integer sum, and multiplies every
  voxel's cross-entropy by its weight before summing. The bridge: the quotient is the product with the reciprocal
  because the softmax denominator of real logits is a positive real; every sum is the same sum in another order; the
  integer count of at most 4,915,200 ones does not wrap; and a common factor moves out of a sum of non-negative terms.
  The empty ledger makes the idealization claim trivial; the three frames are the generated frame runs.
-/
import proofs.«420524_j90795608638213_4_alg».proof.Defs
import proofs.«420524_j90795608638213_4_alg».proof.Proof.Gen.Kernel
import proofs.«420524_j90795608638213_4_alg».proof.Proof.Gen.Kernel.Frame
import proofs.«420524_j90795608638213_4_alg».proof.Proof.Gen.KernelIdeal
import proofs.«420524_j90795608638213_4_alg».proof.Proof.Gen.KernelIdeal.Frame
import proofs.«420524_j90795608638213_4_alg».proof.Proof.Gen.ReferenceIdeal
import proofs.«420524_j90795608638213_4_alg».proof.Proof.Gen.ReferenceIdeal.Run
import proofs.«420524_j90795608638213_4_alg».proof.Proof.Gen.ReferenceIdeal.Read
import proofs.«420524_j90795608638213_4_alg».proof.Proof.Gen.Pre_finite_inputs
import proofs.«420524_j90795608638213_4_alg».proof.Proof.KRun
import proofs.«420524_j90795608638213_4_alg».proof.Proof.RefRegion
import proofs.«420524_j90795608638213_4_alg».proof.Proof.RefEdge
import proofs.«420524_j90795608638213_4_alg».proof.Proof.BridgeDice
import proofs.«420524_j90795608638213_4_alg».proof.Proof.BridgeEdge
import proofs.«420524_j90795608638213_4_alg».proof.Proof.Finite
import Idealize.ShloMosaic.Adequacy
import Idealize.ShloMosaic.Init

noncomputable section

namespace Cert.Proof

open Idealize.ShloMosaic Idealize.ShloMosaic.TcCoe Idealize.SL.Sem
open Cert.Losses Cert.KernelIdeal.Blocks

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the two results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- The reference's class logits and labels, read by coordinates, are the kernel's once the arguments agree. -/
theorem region_ref (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.ReferenceIdeal.S_.Idx) :
    Cert.ReferenceIdeal.Read.val_main_v29 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2)) i
      = regionLoss (diceK (segK m c) (labK m c)) := by
  rw [Cert.ReferenceIdeal.RefValue.region_eq]
  show regionLoss (diceR (segK m c) (labK m c)) = _
  rw [diceK_eq_diceR _ _ (Cert.KernelIdeal.Finite.seg_finite m hpre c)]

/-- The reference's edge loss is the kernel's: the integer counts are the real counts, and the weights move out of the sum. -/
theorem edge_ref (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.ReferenceIdeal.S_.Idx) :
    Cert.ReferenceIdeal.Read.val_main_v60 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3)) i
      = edgeLossK (edgeK (edgK m c) (elabK m c)) := by
  rw [Cert.ReferenceIdeal.RefValue.edge_eq, count_toInt, count_toInt]
  show edgeLossR (edgK m c) (elabK m c) (countOf (elabK m c) 1#32) (countOf (elabK m c) 0#32) = _
  rw [edge_bridge _ _ (Cert.KernelIdeal.Finite.edg_finite m hpre c)]

/-- Both idealized programs run, and both end at the region loss and the edge loss of the tile-by-tile totals. -/
theorem algebraic : Cert.algebraic_KernelIdeal_ReferenceIdeal := by
  intro m ρ m' ρ' hpre hagree
  refine ⟨fun c _ => regionLoss (diceK (segK m c) (labK m c)), fun c _ => edgeLossK (edgeK (edgK m c) (elabK m c)),
    Cert.KernelIdeal.Run.run_value m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v29_eq, (hagree c).1, (hagree c).2.2.1]
    exact funext fun i => region_ref m hpre c i
  · refine (Cert.ReferenceIdeal.Read.val_main_v60_eq _ _).trans ?_
    rw [(hagree c).2.1, (hagree c).2.2.2]
    exact funext fun i => edge_ref m hpre c i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
